-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x600000 : Shape := ⟨2, ![2, 600000]⟩
abbrev S600000x1 : Shape := ⟨2, ![600000, 1]⟩
abbrev S100000 : Shape := ⟨1, ![100000]⟩
abbrev S8192 : Shape := ⟨1, ![8192]⟩
abbrev S262144 : Shape := ⟨1, ![262144]⟩
abbrev S64x128 : Shape := ⟨2, ![64, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1x600000 : Shape := ⟨2, ![1, 600000]⟩
abbrev S600000 : Shape := ⟨1, ![600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_
  bcast_S_S262144 : S_.BroadcastsInDim S262144 (![] : Fin 0 → Fin S262144.rank)
  reducesTo_S262144_S_d0 : S262144.ReducesTo [0] S_
  bcast_S_S8192 : S_.BroadcastsInDim S8192 (![] : Fin 0 → Fin S8192.rank)
  reducesTo_S8192_S_d0 : S8192.ReducesTo [0] S_

variable [Facts]

def fn_part6 {F : FTy → Type} [FloatOps F] (main_v96 : IVec S_ 1) (main_v102 : IVec S_ 1) : IVec S_ 1 :=
  let main_v103 : IVec S_ 1 := andi main_v96 main_v102
  main_v103

def fn_part5 {F : FTy → Type} [FloatOps F] (main_arg4 : IVec S8192 32) (main_arg6 : IVec S262144 32) (main_v78 : IVec S_ 1) (main_v82 : IVec S600000 1) (main_v84 : IVec S600000 32) (main_v85 : IVec S600000 32) : IVec S_ 1 :=
  let main_v86 : IVec S600000 1 := cmpi .slt main_v84 main_v85
  let main_v87 : IVec S600000 1 := andi main_v82 main_v86
  let main_c_32 : IVec S_ 1 := constantI S_ 1 1#1
  let main_v88 : IVec S_ 1 := (fun x v => Host.reduce IntOp.andi x v reducesTo_S600000_S_d0 h_S_) main_v87 main_c_32
  let main_v89 : IVec S_ 1 := andi main_v78 main_v88
  let main_c_33 : IVec S_ 32 := constantI S_ 32 0#32
  let main_v90 : IVec S262144 32 := broadcastInDim S262144 ![] bcast_S_S262144 main_c_33
  let main_v91 : IVec S262144 1 := cmpi .sge main_arg6 main_v90
  let main_c_34 : IVec S_ 32 := constantI S_ 32 100000#32
  let main_v92 : IVec S262144 32 := broadcastInDim S262144 ![] bcast_S_S262144 main_c_34
  let main_v93 : IVec S262144 1 := cmpi .slt main_arg6 main_v92
  let main_v94 : IVec S262144 1 := andi main_v91 main_v93
  let main_c_35 : IVec S_ 1 := constantI S_ 1 1#1
  let main_v95 : IVec S_ 1 := (fun x v => Host.reduce IntOp.andi x v reducesTo_S262144_S_d0 h_S_) main_v94 main_c_35
  let main_v96 : IVec S_ 1 := andi main_v89 main_v95
  let main_c_36 : IVec S_ 32 := constantI S_ 32 0#32
  let main_v97 : IVec S8192 32 := broadcastInDim S8192 ![] bcast_S_S8192 main_c_36
  let main_v98 : IVec S8192 1 := cmpi .sge main_arg4 main_v97
  let main_c_37 : IVec S_ 32 := constantI S_ 32 16#32
  let main_v99 : IVec S8192 32 := broadcastInDim S8192 ![] bcast_S_S8192 main_c_37
  let main_v100 : IVec S8192 1 := cmpi .slt main_arg4 main_v99
  let main_v101 : IVec S8192 1 := andi main_v98 main_v100
  let main_c_38 : IVec S_ 1 := constantI S_ 1 1#1
  let main_v102 : IVec S_ 1 := (fun x v => Host.reduce IntOp.andi x v reducesTo_S8192_S_d0 h_S_) main_v101 main_c_38
  fn_part6 (F := F) main_v96 main_v102

def fn_part4 {F : FTy → Type} [FloatOps F] (main_arg1 : IVec S2x600000 32) (main_arg4 : IVec S8192 32) (main_arg6 : IVec S262144 32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128x1 .f32 := Host.absf main_arg20
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg21
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : IVec S1x600000 32 := (extractStridedSlice S1x600000 ![0, 0] · slices_S2x600000_S1x600000_0_0) main_arg1
  let main_v80 : IVec S600000 32 := shapeCast S600000 main_v79 shapeCasts_S1x600000_S600000
  let main_c_30 : IVec S_ 32 := constantI S_ 32 0#32
  let main_v81 : IVec S600000 32 := broadcastInDim S600000 ![] bcast_S_S600000 main_c_30
  let main_v82 : IVec S600000 1 := cmpi .sge main_v80 main_v81
  let main_v83 : IVec S1x600000 32 := (extractStridedSlice S1x600000 ![0, 0] · slices_S2x600000_S1x600000_0_0) main_arg1
  let main_v84 : IVec S600000 32 := shapeCast S600000 main_v83 shapeCasts_S1x600000_S600000
  let main_c_31 : IVec S_ 32 := constantI S_ 32 100000#32
  let main_v85 : IVec S600000 32 := broadcastInDim S600000 ![] bcast_S_S600000 main_c_31
  fn_part5 (F := F) main_arg4 main_arg6 main_v78 main_v82 main_v84 main_v85

def fn_part3 {F : FTy → Type} [FloatOps F] (main_arg1 : IVec S2x600000 32) (main_arg4 : IVec S8192 32) (main_arg6 : IVec S262144 32) (main_arg17 : FVec F S128 .f32) (main_arg18 : FVec F S128x128 .f32) (main_arg19 : FVec F S128 .f32) (main_arg20 : FVec F S128x1 .f32) (main_arg21 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg18
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg4 main_arg6 main_arg20 main_arg21 main_v63 main_v67

def fn_part2 {F : FTy → Type} [FloatOps F] (main_arg1 : IVec S2x600000 32) (main_arg4 : IVec S8192 32) (main_arg6 : IVec S262144 32) (main_arg13 : FVec F S3x128 .f32) (main_arg14 : FVec F S3x128x128 .f32) (main_arg15 : FVec F S3x128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) (main_v33 : IVec S_ 1) : IVec S_ 1 :=
  let main_v34 : FVec F S3x128 .f32 := Host.absf main_arg13
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg14
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg15
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S256x128 .f32 := Host.absf main_arg16
  let main_cst_18 : FVec F S_ .f32 := constant S_ .f32 0x7F800000#32
  let main_v50 : FVec F S256x128 .f32 := broadcastInDim S256x128 ![] bcast_S_S256x128 main_cst_18
  fn_part3 (F := F) main_arg1 main_arg4 main_arg6 main_arg17 main_arg18 main_arg19 main_arg20 main_arg21 main_v48 main_v49 main_v50

def fn_part1 {F : FTy → Type} [FloatOps F] (main_arg1 : IVec S2x600000 32) (main_arg4 : IVec S8192 32) (main_arg6 : IVec S262144 32) (main_arg10 : FVec F S1x128 .f32) (main_arg11 : FVec F S128 .f32) (main_arg12 : FVec F S3x128x128 .f32) (main_arg13 : FVec F S3x128 .f32) (main_arg14 : FVec F S3x128x128 .f32) (main_arg15 : FVec F S3x128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg10
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg12
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg1 main_arg4 main_arg6 main_arg13 main_arg14 main_arg15 main_arg16 main_arg17 main_arg18 main_arg19 main_arg20 main_arg21 main_v33

def fn {F : FTy → Type} [FloatOps F] (main_arg0 : FVec F S100000x64 .f32) (main_arg1 : IVec S2x600000 32) (main_arg2 : FVec F S600000x1 .f32) (main_arg3 : IVec S100000 32) (main_arg4 : IVec S8192 32) (main_arg5 : IVec S8192 1) (main_arg6 : IVec S262144 32) (main_arg7 : IVec S262144 32) (main_arg8 : FVec F S64x128 .f32) (main_arg9 : FVec F S128 .f32) (main_arg10 : FVec F S1x128 .f32) (main_arg11 : FVec F S128 .f32) (main_arg12 : FVec F S3x128x128 .f32) (main_arg13 : FVec F S3x128 .f32) (main_arg14 : FVec F S3x128x128 .f32) (main_arg15 : FVec F S3x128 .f32) (main_arg16 : FVec F S256x128 .f32) (main_arg17 : FVec F S128 .f32) (main_arg18 : FVec F S128x128 .f32) (main_arg19 : FVec F S128 .f32) (main_arg20 : FVec F S128x1 .f32) (main_arg21 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S600000x1 .f32 := Host.absf main_arg2
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S64x128 .f32 := Host.absf main_arg8
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg6 main_arg10 main_arg11 main_arg12 main_arg13 main_arg14 main_arg15 main_arg16 main_arg17 main_arg18 main_arg19 main_arg20 main_arg21 main_v13 main_v16
-- ==== Kernel.lean ====
abbrev S100000x64 : Shape := ⟨2, ![100000, 64]⟩
abbrev S2x600000 : Shape := ⟨2, ![2, 600000]⟩
abbrev S600000x1 : Shape := ⟨2, ![600000, 1]⟩
abbrev S100000 : Shape := ⟨1, ![100000]⟩
abbrev S8192 : Shape := ⟨1, ![8192]⟩
abbrev S262144 : Shape := ⟨1, ![262144]⟩
abbrev S64x128 : Shape := ⟨2, ![64, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S100000x128 : Shape := ⟨2, ![100000, 128]⟩
abbrev S5000x64 : Shape := ⟨2, ![5000, 64]⟩
abbrev S5000x128 : Shape := ⟨2, ![5000, 128]⟩
abbrev S600000x128 : Shape := ⟨2, ![600000, 128]⟩
abbrev S6000x1 : Shape := ⟨2, ![6000, 1]⟩
abbrev S6000x128 : Shape := ⟨2, ![6000, 128]⟩
abbrev S_ : Shape := ⟨0, ![]⟩
abbrev S1x1 : Shape := ⟨2, ![1, 1]⟩
abbrev S1x128x128 : Shape := ⟨3, ![1, 128, 128]⟩
abbrev S262144x1 : Shape := ⟨2, ![262144, 1]⟩
abbrev S262144x128 : Shape := ⟨2, ![262144, 128]⟩
abbrev S8192x128 : Shape := ⟨2, ![8192, 128]⟩
abbrev S8192x1 : Shape := ⟨2, ![8192, 1]⟩
abbrev S16x128 : Shape := ⟨2, ![16, 128]⟩
abbrev S16x1 : Shape := ⟨2, ![16, 1]⟩
abbrev S8192x256 : Shape := ⟨2, ![8192, 256]⟩
abbrev S2048x256 : Shape := ⟨2, ![2048, 256]⟩
abbrev S2048x1 : Shape := ⟨2, ![2048, 1]⟩
abbrev S2048x128 : Shape := ⟨2, ![2048, 128]⟩

abbrev nBuf : Space → Nat
  | .hbm => 221
  | .vmem => 70
  | .smem => 0
  | _ => 0

abbrev hbmTy0_0 (i : Nat) : BufTy := match i % 128 with
  | 0 => ⟨S100000x64, .f32⟩
  | 1 => ⟨S2x600000, .i32⟩
  | 2 => ⟨S600000x1, .f32⟩
  | 3 => ⟨S100000, .i32⟩
  | 4 => ⟨S8192, .i32⟩
  | 5 => ⟨S8192, .i1⟩
  | 6 => ⟨S262144, .i32⟩
  | 7 => ⟨S262144, .i32⟩
  | 8 => ⟨S64x128, .f32⟩
  | 9 => ⟨S128, .f32⟩
  | 10 => ⟨S1x128, .f32⟩
  | 11 => ⟨S128, .f32⟩
  | 12 => ⟨S3x128x128, .f32⟩
  | 13 => ⟨S3x128, .f32⟩
  | 14 => ⟨S3x128x128, .f32⟩
  | 15 => ⟨S3x128, .f32⟩
  | 16 => ⟨S256x128, .f32⟩
  | 17 => ⟨S128, .f32⟩
  | 18 => ⟨S128x128, .f32⟩
  | 19 => ⟨S128, .f32⟩
  | 20 => ⟨S128x1, .f32⟩
  | 21 => ⟨S1, .f32⟩
  | 22 => ⟨S1x600000, .i32⟩
  | 23 => ⟨S600000, .i32⟩
  | 24 => ⟨S1x600000, .i32⟩
  | 25 => ⟨S600000, .i32⟩
  | 26 => ⟨S100000x128, .f32⟩
  | 27 => ⟨S600000x128, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S1, .i32⟩
  | 37 => ⟨S_, .i32⟩
  | 38 => ⟨S600000x1, .i32⟩
  | 39 => ⟨S600000x1, .i1⟩
  | 40 => ⟨S1x1, .i32⟩
  | 41 => ⟨S600000x1, .i32⟩
  | 42 => ⟨S600000x1, .i1⟩
  | 43 => ⟨S600000x1, .i1⟩
  | 44 => ⟨S_, .i1⟩
  | 45 => ⟨S600000, .i1⟩
  | 46 => ⟨S600000x128, .f32⟩
  | 47 => ⟨S600000x128, .i1⟩
  | 48 => ⟨S_, .f32⟩
  | 49 => ⟨S600000x128, .f32⟩
  | 50 => ⟨S600000x128, .f32⟩
  | 51 => ⟨S600000x128, .f32⟩
  | 52 => ⟨S_, .f32⟩
  | 53 => ⟨S100000x128, .f32⟩
  | 54 => ⟨S600000x1, .i32⟩
  | 55 => ⟨S100000x128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S100000x128, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S1, .i32⟩
  | 74 => ⟨S_, .i32⟩
  | 75 => ⟨S600000x1, .i32⟩
  | 76 => ⟨S600000x1, .i1⟩
  | 77 => ⟨S1x1, .i32⟩
  | 78 => ⟨S600000x1, .i32⟩
  | 79 => ⟨S600000x1, .i1⟩
  | 80 => ⟨S600000x1, .i1⟩
  | 81 => ⟨S_, .i1⟩
  | 82 => ⟨S600000, .i1⟩
  | 83 => ⟨S600000x128, .f32⟩
  | 84 => ⟨S600000x128, .i1⟩
  | 85 => ⟨S_, .f32⟩
  | 86 => ⟨S600000x128, .f32⟩
  | 87 => ⟨S600000x128, .f32⟩
  | 88 => ⟨S600000x128, .f32⟩
  | 89 => ⟨S_, .f32⟩
  | 90 => ⟨S100000x128, .f32⟩
  | 91 => ⟨S600000x1, .i32⟩
  | 92 => ⟨S100000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S128, .f32⟩
  | 101 => ⟨S100000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S1, .i32⟩
  | 111 => ⟨S_, .i32⟩
  | 112 => ⟨S600000x1, .i32⟩
  | 113 => ⟨S600000x1, .i1⟩
  | 114 => ⟨S1x1, .i32⟩
  | 115 => ⟨S600000x1, .i32⟩
  | 116 => ⟨S600000x1, .i1⟩
  | 117 => ⟨S600000x1, .i1⟩
  | 118 => ⟨S_, .i1⟩
  | 119 => ⟨S600000, .i1⟩
  | 120 => ⟨S600000x128, .f32⟩
  | 121 => ⟨S600000x128, .i1⟩
  | 122 => ⟨S_, .f32⟩
  | 123 => ⟨S600000x128, .f32⟩
  | 124 => ⟨S600000x128, .f32⟩
  | 125 => ⟨S600000x128, .f32⟩
  | 126 => ⟨S_, .f32⟩
  | 127 => ⟨S100000x128, .f32⟩
  | _ => ⟨S100000x64, .f32⟩

abbrev hbmTy0_1 (i : Nat) : BufTy := match i % 128 with
  | 0 => ⟨S600000x1, .i32⟩
  | 1 => ⟨S100000x128, .f32⟩
  | 2 => ⟨S1x128x128, .f32⟩
  | 3 => ⟨S128x128, .f32⟩
  | 4 => ⟨S1x128, .f32⟩
  | 5 => ⟨S128, .f32⟩
  | 6 => ⟨S1x128x128, .f32⟩
  | 7 => ⟨S128x128, .f32⟩
  | 8 => ⟨S1x128, .f32⟩
  | 9 => ⟨S128, .f32⟩
  | 10 => ⟨S100000x128, .f32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S1, .i32⟩
  | 20 => ⟨S_, .i32⟩
  | 21 => ⟨S262144x1, .i32⟩
  | 22 => ⟨S262144x1, .i1⟩
  | 23 => ⟨S1x1, .i32⟩
  | 24 => ⟨S262144x1, .i32⟩
  | 25 => ⟨S262144x1, .i1⟩
  | 26 => ⟨S262144x1, .i1⟩
  | 27 => ⟨S_, .i1⟩
  | 28 => ⟨S262144, .i1⟩
  | 29 => ⟨S262144x128, .f32⟩
  | 30 => ⟨S262144x128, .i1⟩
  | 31 => ⟨S_, .f32⟩
  | 32 => ⟨S262144x128, .f32⟩
  | 33 => ⟨S262144x128, .f32⟩
  | 34 => ⟨S_, .f32⟩
  | 35 => ⟨S8192x128, .f32⟩
  | 36 => ⟨S262144x1, .i32⟩
  | 37 => ⟨S8192x128, .f32⟩
  | 38 => ⟨S_, .f32⟩
  | 39 => ⟨S262144x1, .f32⟩
  | 40 => ⟨S_, .f32⟩
  | 41 => ⟨S8192x1, .f32⟩
  | 42 => ⟨S262144x1, .i32⟩
  | 43 => ⟨S8192x1, .f32⟩
  | 44 => ⟨S_, .f32⟩
  | 45 => ⟨S8192x1, .f32⟩
  | 46 => ⟨S8192x1, .f32⟩
  | 47 => ⟨S8192x128, .f32⟩
  | 48 => ⟨S8192x128, .f32⟩
  | 49 => ⟨S_, .f32⟩
  | 50 => ⟨S16x128, .f32⟩
  | 51 => ⟨S8192x1, .i32⟩
  | 52 => ⟨S16x128, .f32⟩
  | 53 => ⟨S_, .f32⟩
  | 54 => ⟨S8192x1, .f32⟩
  | 55 => ⟨S_, .f32⟩
  | 56 => ⟨S16x1, .f32⟩
  | 57 => ⟨S8192x1, .i32⟩
  | 58 => ⟨S16x1, .f32⟩
  | 59 => ⟨S_, .f32⟩
  | 60 => ⟨S16x1, .f32⟩
  | 61 => ⟨S16x1, .f32⟩
  | 62 => ⟨S16x128, .f32⟩
  | 63 => ⟨S16x128, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S1, .i32⟩
  | 73 => ⟨S_, .i32⟩
  | 74 => ⟨S8192x1, .i32⟩
  | 75 => ⟨S8192x1, .i1⟩
  | 76 => ⟨S1x1, .i32⟩
  | 77 => ⟨S8192x1, .i32⟩
  | 78 => ⟨S8192x1, .i1⟩
  | 79 => ⟨S8192x1, .i1⟩
  | 80 => ⟨S_, .i1⟩
  | 81 => ⟨S8192, .i1⟩
  | 82 => ⟨S8192x128, .f32⟩
  | 83 => ⟨S8192x128, .i1⟩
  | 84 => ⟨S_, .f32⟩
  | 85 => ⟨S8192x128, .f32⟩
  | 86 => ⟨S8192x128, .f32⟩
  | 87 => ⟨S8192x256, .f32⟩
  | 88 => ⟨S8192x1, .f32⟩
  | 89 => ⟨S8192, .f32⟩
  | 90 => ⟨S_, .f32⟩
  | 91 => ⟨S8192, .f32⟩
  | 92 => ⟨S8192, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S6000x1, .f32⟩
  | .local _ .vmem, ⟨7, _⟩ => ⟨S6000x1, .f32⟩
  | .local _ .vmem, ⟨8, _⟩ => ⟨S1x128, .f32⟩
  | .local _ .vmem, ⟨9, _⟩ => ⟨S128, .f32⟩
  | .local _ .vmem, ⟨10, _⟩ => ⟨S6000x128, .f32⟩
  | .local _ .vmem, ⟨11, _⟩ => ⟨S6000x128, .f32⟩
  | .local _ .vmem, ⟨12, _⟩ => ⟨S6000x128, .f32⟩
  | .local _ .vmem, ⟨13, _⟩ => ⟨S6000x128, .f32⟩
  | .local _ .vmem, ⟨14, _⟩ => ⟨S6000x128, .f32⟩
  | .local _ .vmem, ⟨15, _⟩ => ⟨S6000x128, .f32⟩
  | .local _ .vmem, ⟨16, _⟩ => ⟨S6000x128, .f32⟩
  | .local _ .vmem, ⟨17, _⟩ => ⟨S6000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S6000x128, .f32⟩
  | .local _ .vmem, ⟨29, _⟩ => ⟨S6000x128, .f32⟩
  | .local _ .vmem, ⟨30, _⟩ => ⟨S6000x128, .f32⟩
  | .local _ .vmem, ⟨31, _⟩ => ⟨S6000x128, .f32⟩
  | .local _ .vmem, ⟨32, _⟩ => ⟨S6000x128, .f32⟩
  | .local _ .vmem, ⟨33, _⟩ => ⟨S6000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S128, .f32⟩
  | .local _ .vmem, ⟨40, _⟩ => ⟨S128x128, .f32⟩
  | .local _ .vmem, ⟨41, _⟩ => ⟨S128, .f32⟩
  | .local _ .vmem, ⟨42, _⟩ => ⟨S5000x128, .f32⟩
  | .local _ .vmem, ⟨43, _⟩ => ⟨S5000x128, .f32⟩
  | .local _ .vmem, ⟨44, _⟩ => ⟨S6000x128, .f32⟩
  | .local _ .vmem, ⟨45, _⟩ => ⟨S6000x128, .f32⟩
  | .local _ .vmem, ⟨46, _⟩ => ⟨S6000x128, .f32⟩
  | .local _ .vmem, ⟨47, _⟩ => ⟨S6000x128, .f32⟩
  | .local _ .vmem, ⟨48, _⟩ => ⟨S6000x128, .f32⟩
  | .local _ .vmem, ⟨49, _⟩ => ⟨S6000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S128, .f32⟩
  | .local _ .vmem, ⟨56, _⟩ => ⟨S128x128, .f32⟩
  | .local _ .vmem, ⟨57, _⟩ => ⟨S128, .f32⟩
  | .local _ .vmem, ⟨58, _⟩ => ⟨S5000x128, .f32⟩
  | .local _ .vmem, ⟨59, _⟩ => ⟨S5000x128, .f32⟩
  | .local _ .vmem, ⟨60, _⟩ => ⟨S2048x256, .f32⟩
  | .local _ .vmem, ⟨61, _⟩ => ⟨S2048x256, .f32⟩
  | .local _ .vmem, ⟨62, _⟩ => ⟨S256x128, .f32⟩
  | .local _ .vmem, ⟨63, _⟩ => ⟨S128, .f32⟩
  | .local _ .vmem, ⟨64, _⟩ => ⟨S128x128, .f32⟩
  | .local _ .vmem, ⟨65, _⟩ => ⟨S128, .f32⟩
  | .local _ .vmem, ⟨66, _⟩ => ⟨S128x1, .f32⟩
  | .local _ .vmem, ⟨67, _⟩ => ⟨S1, .f32⟩
  | .local _ .vmem, ⟨68, _⟩ => ⟨S2048x1, .f32⟩
  | .local _ .vmem, ⟨69, _⟩ => ⟨S2048x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v6 : Ref sig .tc := ⟨.hbm, 50, rfl⟩
abbrev main_v7 : Ref sig .tc := ⟨.hbm, 51, rfl⟩
abbrev main_cst : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v20 : Ref sig .tc := ⟨.hbm, 87, rfl⟩
abbrev main_v21 : Ref sig .tc := ⟨.hbm, 88, rfl⟩
abbrev main_cst_0 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_call2_c : Ref sig .tc := ⟨.hbm, 102, rfl⟩
abbrev main_call2_v0 : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_c_1 : Ref sig .tc := ⟨.hbm, 110, rfl⟩
abbrev main_call2_c_2 : Ref sig .tc := ⟨.hbm, 111, rfl⟩
abbrev main_call2_v6 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_c_3 : Ref sig .tc := ⟨.hbm, 118, rfl⟩
abbrev main_call2_v12 : Ref sig .tc := ⟨.hbm, 119, rfl⟩
abbrev main_call2_v13 : Ref sig .tc := ⟨.hbm, 120, rfl⟩
abbrev main_call2_v14 : Ref sig .tc := ⟨.hbm, 121, rfl⟩
abbrev main_call2_cst : Ref sig .tc := ⟨.hbm, 122, rfl⟩
abbrev main_call2_v15 : Ref sig .tc := ⟨.hbm, 123, rfl⟩
abbrev main_v34 : Ref sig .tc := ⟨.hbm, 124, rfl⟩
abbrev main_v35 : Ref sig .tc := ⟨.hbm, 125, rfl⟩
abbrev main_cst_1 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_call3_c : Ref sig .tc := ⟨.hbm, 139, rfl⟩
abbrev main_call3_v0 : Ref sig .tc := ⟨.hbm, 140, rfl⟩
abbrev main_call3_v1 : Ref sig .tc := ⟨.hbm, 141, rfl⟩
abbrev main_call3_c_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_c_1 : Ref sig .tc := ⟨.hbm, 147, rfl⟩
abbrev main_call3_c_2 : Ref sig .tc := ⟨.hbm, 148, rfl⟩
abbrev main_call3_v6 : Ref sig .tc := ⟨.hbm, 149, rfl⟩
abbrev main_call3_v7 : Ref sig .tc := ⟨.hbm, 150, rfl⟩
abbrev main_call3_v8 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_call3_c_3 : Ref sig .tc := ⟨.hbm, 155, rfl⟩
abbrev main_call3_v12 : Ref sig .tc := ⟨.hbm, 156, rfl⟩
abbrev main_call3_v13 : Ref sig .tc := ⟨.hbm, 157, rfl⟩
abbrev main_call3_v14 : Ref sig .tc := ⟨.hbm, 158, rfl⟩
abbrev main_call3_cst : Ref sig .tc := ⟨.hbm, 159, rfl⟩
abbrev main_call3_v15 : Ref sig .tc := ⟨.hbm, 160, rfl⟩
abbrev main_v48 : Ref sig .tc := ⟨.hbm, 161, rfl⟩
abbrev main_cst_2 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_cst_3 : Ref sig .tc := ⟨.hbm, 166, rfl⟩
abbrev main_v52 : Ref sig .tc := ⟨.hbm, 167, rfl⟩
abbrev main_cst_4 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_cst_5 : Ref sig .tc := ⟨.hbm, 172, rfl⟩
abbrev main_v56 : Ref sig .tc := ⟨.hbm, 173, rfl⟩
abbrev main_v57 : Ref sig .tc := ⟨.hbm, 174, rfl⟩
abbrev main_v58 : Ref sig .tc := ⟨.hbm, 175, rfl⟩
abbrev main_v59 : Ref sig .tc := ⟨.hbm, 176, rfl⟩
abbrev main_cst_6 : Ref sig .tc := ⟨.hbm, 177, rfl⟩
abbrev main_v60 : Ref sig .tc := ⟨.hbm, 178, rfl⟩
abbrev main_v61 : Ref sig .tc := ⟨.hbm, 179, rfl⟩
abbrev main_v62 : Ref sig .tc := ⟨.hbm, 180, rfl⟩
abbrev main_cst_7 : Ref sig .tc := ⟨.hbm, 181, rfl⟩
abbrev main_v63 : Ref sig .tc := ⟨.hbm, 182, rfl⟩
abbrev main_cst_8 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_cst_9 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_call4_c : Ref sig .tc := ⟨.hbm, 192, rfl⟩
abbrev main_call4_v0 : Ref sig .tc := ⟨.hbm, 193, rfl⟩
abbrev main_call4_v1 : Ref sig .tc := ⟨.hbm, 194, rfl⟩
abbrev main_call4_c_0 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_call4_v5 : Ref sig .tc := ⟨.hbm, 199, rfl⟩
abbrev main_call4_c_1 : Ref sig .tc := ⟨.hbm, 200, rfl⟩
abbrev main_call4_c_2 : Ref sig .tc := ⟨.hbm, 201, rfl⟩
abbrev main_call4_v6 : Ref sig .tc := ⟨.hbm, 202, rfl⟩
abbrev main_call4_v7 : Ref sig .tc := ⟨.hbm, 203, rfl⟩
abbrev main_call4_v8 : Ref sig .tc := ⟨.hbm, 204, rfl⟩
abbrev main_call4_v9 : Ref sig .tc := ⟨.hbm, 205, rfl⟩
abbrev main_call4_v10 : Ref sig .tc := ⟨.hbm, 206, rfl⟩
abbrev main_call4_v11 : Ref sig .tc := ⟨.hbm, 207, rfl⟩
abbrev main_call4_c_3 : Ref sig .tc := ⟨.hbm, 208, rfl⟩
abbrev main_call4_v12 : Ref sig .tc := ⟨.hbm, 209, rfl⟩
abbrev main_call4_v13 : Ref sig .tc := ⟨.hbm, 210, rfl⟩
abbrev main_call4_v14 : Ref sig .tc := ⟨.hbm, 211, rfl⟩
abbrev main_call4_cst : Ref sig .tc := ⟨.hbm, 212, rfl⟩
abbrev main_call4_v15 : Ref sig .tc := ⟨.hbm, 213, rfl⟩
abbrev main_v71 : Ref sig .tc := ⟨.hbm, 214, rfl⟩
abbrev main_v72 : Ref sig .tc := ⟨.hbm, 215, rfl⟩
abbrev main_v73 : Ref sig .tc := ⟨.hbm, 216, rfl⟩
abbrev main_v74 : Ref sig .tc := ⟨.hbm, 217, rfl⟩
abbrev main_cst_10 : Ref sig .tc := ⟨.hbm, 218, rfl⟩
abbrev main_call5_v0 : Ref sig .tc := ⟨.hbm, 219, rfl⟩
abbrev main_v75 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg4_0 : Ref sig .tc := ⟨.vmem, 65, rfl⟩
abbrev cc8_stg5_0 : Ref sig .tc := ⟨.vmem, 66, rfl⟩
abbrev cc8_stg6_0 : Ref sig .tc := ⟨.vmem, 67, rfl⟩
abbrev cc8_stg7_0 : Ref sig .tc := ⟨.vmem, 68, rfl⟩
abbrev cc8_stg7_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem4_0 : DmaSem sig := 65
abbrev cc8_sem5_0 : DmaSem sig := 66
abbrev cc8_sem6_0 : DmaSem sig := 67
abbrev cc8_sem7_0 : DmaSem sig := 68
abbrev cc8_sem7_1 : DmaSem sig := 69

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S6000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2048x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S2048x1 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S6000x1_S6000x1_0_0 : ∀ a, (![0, 0] : Fin 2 → Nat) a + S6000x1.size a ≤ S6000x1.size a
  h_S6000x1 : 0 < S6000x1.numel
  inb_S1x128_S1x128_0_0 : ∀ a, (![0, 0] : Fin 2 → Nat) a + S1x128.size a ≤ S1x128.size a
  h_S1x128 : 0 < S1x128.numel
  broadcasts_S6000x1_S6000x128 : S6000x1.Broadcasts S6000x128
  broadcasts_S1x128_S6000x128 : S1x128.Broadcasts S6000x128
  inb_S6000x128_S6000x128_0_0 : ∀ a, (![0, 0] : Fin 2 → Nat) a + S6000x128.size a ≤ S6000x128.size a
  h_S6000x128 : 0 < S6000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S6000x128_S6000x128 : S6000x128.ShapeCasts S6000x128
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1x1_S262144x1_0_1 : S1x1.BroadcastsInDim S262144x1 (![0, 1] : Fin 2 → Fin S262144x1.rank)
  reducesTo_S262144x1_S262144_d1 : S262144x1.ReducesTo [1] S262144
  bcast_S262144_S262144x128_0 : S262144.BroadcastsInDim S262144x128 (![0] : Fin 1 → Fin S262144x128.rank)
  bcast_S_S262144x128 : S_.BroadcastsInDim S262144x128 (![] : Fin 0 → Fin S262144x128.rank)
  bcast_S_S8192x128 : S_.BroadcastsInDim S8192x128 (![] : Fin 0 → Fin S8192x128.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S16x128 : S_.BroadcastsInDim S16x128 (![] : Fin 0 → Fin S16x128.rank)
  bcast_S8192_S8192x1_0 : S8192.BroadcastsInDim S8192x1 (![0] : Fin 1 → Fin S8192x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S_S8192 : S_.BroadcastsInDim S8192 (![] : Fin 0 → Fin S8192.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x128_0 : S8192.BroadcastsInDim S8192x128 (![0] : Fin 1 → Fin S8192x128.rank)
  concatenates_S8192x128_S8192x128_S8192x256_d1 : Shape.Concatenates [S8192x128, S8192x128] S8192x256 1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S8192x1_S8192 : S8192x1.ShapeCasts S8192
  dot_S5000x64_S64x128_S5000x128_1_0_0_1_n_n_wf : DotDims.WF S5000x64 S64x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  gather_S100000x128_S262144x1_S262144x128_1_0_n_n_0_1_1128_wf : GatherDims.WF S100000x128 S262144x1 S262144x128 [1] [0] [] [0] [] 1 ![1, 128]
  scatter_S8192x128_S262144x1_S262144x128_1_0_0_1_wf : ScatterDims.WF S8192x128 S262144x1 S262144x128 [1] [0] [0] 1
  scatter_S8192x1_S262144x1_S262144x1_1_0_0_1_wf : ScatterDims.WF S8192x1 S262144x1 S262144x1 [1] [0] [0] 1
  scatter_S16x128_S8192x1_S8192x128_1_0_0_1_wf : ScatterDims.WF S16x128 S8192x1 S8192x128 [1] [0] [0] 1
  scatter_S16x1_S8192x1_S8192x1_1_0_0_1_wf : ScatterDims.WF S16x1 S8192x1 S8192x1 [1] [0] [0] 1
  gather_S16x128_S8192x1_S8192x128_1_0_n_n_0_1_1128_wf : GatherDims.WF S16x128 S8192x1 S8192x128 [1] [0] [] [0] [] 1 ![1, 128]
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x1.size a ≤ S600000x1.size a
  hwx1_0 : ∀ i : grid1.Coords, EltTy.bits .f32 = 32 ∨ (Rect.block (s := S600000x1) S6000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S600000x128.size a
  hwx1_3 : ∀ i : grid1.Coords, EltTy.bits .f32 = 32 ∨ (Rect.block (s := S600000x128) S6000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .f32 = 32 ∨ (Rect.block (s := S600000x128) S6000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x128.size a ≤ S600000x128.size a
  hwx2_1 : ∀ i : grid2.Coords, EltTy.bits .f32 = 32 ∨ (Rect.block (s := S600000x128) S6000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x128.size a ≤ S600000x128.size a
  hwx2_2 : ∀ i : grid2.Coords, EltTy.bits .f32 = 32 ∨ (Rect.block (s := S600000x128) S6000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x128.size a ≤ S600000x128.size a
  hwx4_0 : ∀ i : grid4.Coords, EltTy.bits .f32 = 32 ∨ (Rect.block (s := S600000x128) S6000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x128.size a ≤ S600000x128.size a
  hwx4_1 : ∀ i : grid4.Coords, EltTy.bits .f32 = 32 ∨ (Rect.block (s := S600000x128) S6000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x128.size a ≤ S600000x128.size a
  hwx4_2 : ∀ i : grid4.Coords, EltTy.bits .f32 = 32 ∨ (Rect.block (s := S600000x128) S6000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x128.size a ≤ S600000x128.size a
  hwx6_0 : ∀ i : grid6.Coords, EltTy.bits .f32 = 32 ∨ (Rect.block (s := S600000x128) S6000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x128.size a ≤ S600000x128.size a
  hwx6_1 : ∀ i : grid6.Coords, EltTy.bits .f32 = 32 ∨ (Rect.block (s := S600000x128) S6000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S6000x128.size a ≤ S600000x128.size a
  hwx6_2 : ∀ i : grid6.Coords, EltTy.bits .f32 = 32 ∨ (Rect.block (s := S600000x128) S6000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128.size a ≤ S128.size a
  hwx7_5 : ∀ i : grid7.Coords, EltTy.bits .f32 = 32 ∨ (Rect.block (s := S128) S128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S100000x128.size a
  hwx7_6 : ∀ i : grid7.Coords, EltTy.bits .f32 = 32 ∨ (Rect.block (s := S100000x128) S5000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x256.size a ≤ S8192x256.size a
  hwx8_0 : ∀ i : grid8.Coords, EltTy.bits .f32 = 32 ∨ (Rect.block (s := S8192x256) S2048x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .f32 = 32 ∨ (Rect.block (s := S256x128) S256x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x1.size a ≤ S128x1.size a
  hwx8_5 : ∀ i : grid8.Coords, EltTy.bits .f32 = 32 ∨ (Rect.block (s := S128x1) S128x1.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1.size a ≤ S1.size a
  hwx8_6 : ∀ i : grid8.Coords, EltTy.bits .f32 = 32 ∨ (Rect.block (s := S1) S1.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S2048x1.size a ≤ S8192x1.size a
  hwx8_7 : ∀ i : grid8.Coords, EltTy.bits .f32 = 32 ∨ (Rect.block (s := S8192x1) S2048x1.size (cc8_transform_7 i) (hinb8_7 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S262144x1_S262144x128_1_0_n_n_0_1_1128 : GatherDims S100000x128 S262144x1 S262144x128 where
  offsetDims := [1]
  collapsedSliceDims := [0]
  operandBatchingDims := []
  startIndicesBatchingDims := []
  startIndexMap := [0]
  indexVectorDim := 1
  sliceSizes := ![1, 128]
  wf := gather_S100000x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def scatter_S8192x1_S262144x1_S262144x1_1_0_0_1 : ScatterDims S8192x1 S262144x1 S262144x1 where
  updateWindowDims := [1]
  insertedWindowDims := [0]
  scatterDimsToOperandDims := [0]
  indexVectorDim := 1
  wf := scatter_S8192x1_S262144x1_S262144x1_1_0_0_1_wf
def scatter_S16x128_S8192x1_S8192x128_1_0_0_1 : ScatterDims S16x128 S8192x1 S8192x128 where
  updateWindowDims := [1]
  insertedWindowDims := [0]
  scatterDimsToOperandDims := [0]
  indexVectorDim := 1
  wf := scatter_S16x128_S8192x1_S8192x128_1_0_0_1_wf
def scatter_S16x1_S8192x1_S8192x1_1_0_0_1 : ScatterDims S16x1 S8192x1 S8192x1 where
  updateWindowDims := [1]
  insertedWindowDims := [0]
  scatterDimsToOperandDims := [0]
  indexVectorDim := 1
  wf := scatter_S16x1_S8192x1_S8192x1_1_0_0_1_wf
def gather_S16x128_S8192x1_S8192x128_1_0_n_n_0_1_1128 : GatherDims S16x128 S8192x1 S8192x128 where
  offsetDims := [1]
  collapsedSliceDims := [0]
  operandBatchingDims := []
  startIndicesBatchingDims := []
  startIndexMap := [0]
  indexVectorDim := 1
  sliceSizes := ![1, 128]
  wf := gather_S16x128_S8192x1_S8192x128_1_0_n_n_0_1_1128_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S6000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S6000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S6000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S6000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v4) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v18) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v19) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v20) S6000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S6000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21) S6000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v19) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v26) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v28) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v30) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v32) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v33) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v34) S6000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S6000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v35) S6000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v33) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v38) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v40) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v42) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v44) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v46) S128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v47) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v72) S2048x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg16) S256x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg17) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg18) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg19) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg20) S128x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg21) S1.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v73) S2048x1.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x600000 : Shape := ⟨2, ![2, 600000]⟩
abbrev S600000x1 : Shape := ⟨2, ![600000, 1]⟩
abbrev S100000 : Shape := ⟨1, ![100000]⟩
abbrev S8192 : Shape := ⟨1, ![8192]⟩
abbrev S262144 : Shape := ⟨1, ![262144]⟩
abbrev S64x128 : Shape := ⟨2, ![64, 128]⟩
abbrev S128 : Shape := ⟨1, ![128]⟩
abbrev S1x128 : Shape := ⟨2, ![1, 128]⟩
abbrev S3x128x128 : Shape := ⟨3, ![3, 128, 128]⟩
abbrev S3x128 : Shape := ⟨2, ![3, 128]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S100000x128 : Shape := ⟨2, ![100000, 128]⟩
abbrev S600000x128 : Shape := ⟨2, ![600000, 128]⟩
abbrev S_ : Shape := ⟨0, ![]⟩
abbrev S1x128x128 : Shape := ⟨3, ![1, 128, 128]⟩
abbrev S262144x1 : Shape := ⟨2, ![262144, 1]⟩
abbrev S262144x128 : Shape := ⟨2, ![262144, 128]⟩
abbrev S8192x128 : Shape := ⟨2, ![8192, 128]⟩
abbrev S8192x1 : Shape := ⟨2, ![8192, 1]⟩
abbrev S16x128 : Shape := ⟨2, ![16, 128]⟩
abbrev S16x1 : Shape := ⟨2, ![16, 1]⟩
abbrev S8192x256 : Shape := ⟨2, ![8192, 256]⟩
abbrev S1x1 : Shape := ⟨2, ![1, 1]⟩

abbrev nBuf : Space → Nat
  | .hbm => 225
  | .vmem => 0
  | .smem => 0
  | _ => 0

abbrev hbmTy0_0 (i : Nat) : BufTy := match i % 128 with
  | 0 => ⟨S100000x64, .f32⟩
  | 1 => ⟨S2x600000, .i32⟩
  | 2 => ⟨S600000x1, .f32⟩
  | 3 => ⟨S100000, .i32⟩
  | 4 => ⟨S8192, .i32⟩
  | 5 => ⟨S8192, .i1⟩
  | 6 => ⟨S262144, .i32⟩
  | 7 => ⟨S262144, .i32⟩
  | 8 => ⟨S64x128, .f32⟩
  | 9 => ⟨S128, .f32⟩
  | 10 => ⟨S1x128, .f32⟩
  | 11 => ⟨S128, .f32⟩
  | 12 => ⟨S3x128x128, .f32⟩
  | 13 => ⟨S3x128, .f32⟩
  | 14 => ⟨S3x128x128, .f32⟩
  | 15 => ⟨S3x128, .f32⟩
  | 16 => ⟨S256x128, .f32⟩
  | 17 => ⟨S128, .f32⟩
  | 18 => ⟨S128x128, .f32⟩
  | 19 => ⟨S128, .f32⟩
  | 20 => ⟨S128x1, .f32⟩
  | 21 => ⟨S1, .f32⟩
  | 22 => ⟨S1x600000, .i32⟩
  | 23 => ⟨S600000, .i32⟩
  | 24 => ⟨S1x600000, .i32⟩
  | 25 => ⟨S600000, .i32⟩
  | 26 => ⟨S100000x128, .f32⟩
  | 27 => ⟨S1x128, .f32⟩
  | 28 => ⟨S100000x128, .f32⟩
  | 29 => ⟨S100000x128, .f32⟩
  | 30 => ⟨S600000x128, .f32⟩
  | 31 => ⟨S1x128, .f32⟩
  | 32 => ⟨S600000x128, .f32⟩
  | 33 => ⟨S600000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S600000x128, .f32⟩
  | 44 => ⟨S_, .f32⟩
  | 45 => ⟨S600000x128, .f32⟩
  | 46 => ⟨S600000x128, .f32⟩
  | 47 => ⟨S_, .f32⟩
  | 48 => ⟨S100000x128, .f32⟩
  | 49 => ⟨S600000x1, .i32⟩
  | 50 => ⟨S100000x128, .f32⟩
  | 51 => ⟨S100000x128, .f32⟩
  | 52 => ⟨S1x128x128, .f32⟩
  | 53 => ⟨S128x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S1x128x128, .f32⟩
  | 64 => ⟨S128x128, .f32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x128, .f32⟩
  | 83 => ⟨S600000x128, .f32⟩
  | 84 => ⟨S_, .f32⟩
  | 85 => ⟨S600000x128, .f32⟩
  | 86 => ⟨S600000x128, .f32⟩
  | 87 => ⟨S_, .f32⟩
  | 88 => ⟨S100000x128, .f32⟩
  | 89 => ⟨S600000x1, .i32⟩
  | 90 => ⟨S100000x128, .f32⟩
  | 91 => ⟨S100000x128, .f32⟩
  | 92 => ⟨S1x128x128, .f32⟩
  | 93 => ⟨S128x128, .f32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S1x128x128, .f32⟩
  | 104 => ⟨S128x128, .f32⟩
  | 105 => ⟨S100000x128, .f32⟩
  | 106 => ⟨S1x128, .f32⟩
  | 107 => ⟨S128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S600000x128, .f32⟩
  | 124 => ⟨S_, .f32⟩
  | 125 => ⟨S600000x128, .f32⟩
  | 126 => ⟨S600000x128, .f32⟩
  | 127 => ⟨S_, .f32⟩
  | _ => ⟨S100000x64, .f32⟩

abbrev hbmTy0_1 (i : Nat) : BufTy := match i % 128 with
  | 0 => ⟨S100000x128, .f32⟩
  | 1 => ⟨S600000x1, .i32⟩
  | 2 => ⟨S100000x128, .f32⟩
  | 3 => ⟨S100000x128, .f32⟩
  | 4 => ⟨S1x128x128, .f32⟩
  | 5 => ⟨S128x128, .f32⟩
  | 6 => ⟨S100000x128, .f32⟩
  | 7 => ⟨S1x128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S1x128x128, .f32⟩
  | 16 => ⟨S128x128, .f32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S262144x128, .f32⟩
  | 35 => ⟨S_, .f32⟩
  | 36 => ⟨S8192x128, .f32⟩
  | 37 => ⟨S262144x1, .i32⟩
  | 38 => ⟨S8192x128, .f32⟩
  | 39 => ⟨S_, .f32⟩
  | 40 => ⟨S262144x1, .f32⟩
  | 41 => ⟨S_, .f32⟩
  | 42 => ⟨S8192x1, .f32⟩
  | 43 => ⟨S262144x1, .i32⟩
  | 44 => ⟨S8192x1, .f32⟩
  | 45 => ⟨S_, .f32⟩
  | 46 => ⟨S8192x1, .f32⟩
  | 47 => ⟨S8192x1, .f32⟩
  | 48 => ⟨S8192x128, .f32⟩
  | 49 => ⟨S8192x128, .f32⟩
  | 50 => ⟨S_, .f32⟩
  | 51 => ⟨S16x128, .f32⟩
  | 52 => ⟨S8192x1, .i32⟩
  | 53 => ⟨S16x128, .f32⟩
  | 54 => ⟨S_, .f32⟩
  | 55 => ⟨S8192x1, .f32⟩
  | 56 => ⟨S_, .f32⟩
  | 57 => ⟨S16x1, .f32⟩
  | 58 => ⟨S8192x1, .i32⟩
  | 59 => ⟨S16x1, .f32⟩
  | 60 => ⟨S_, .f32⟩
  | 61 => ⟨S16x1, .f32⟩
  | 62 => ⟨S16x1, .f32⟩
  | 63 => ⟨S16x128, .f32⟩
  | 64 => ⟨S16x128, .f32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192x128, .f32⟩
  | 74 => ⟨S8192x256, .f32⟩
  | 75 => ⟨S8192x128, .f32⟩
  | 76 => ⟨S1x128, .f32⟩
  | 77 => ⟨S8192x128, .f32⟩
  | 78 => ⟨S8192x128, .f32⟩
  | 79 => ⟨S_, .f32⟩
  | 80 => ⟨S8192x128, .f32⟩
  | 81 => ⟨S8192x128, .f32⟩
  | 82 => ⟨S8192x128, .f32⟩
  | 83 => ⟨S1x128, .f32⟩
  | 84 => ⟨S8192x128, .f32⟩
  | 85 => ⟨S8192x128, .f32⟩
  | 86 => ⟨S_, .f32⟩
  | 87 => ⟨S8192x128, .f32⟩
  | 88 => ⟨S8192x128, .f32⟩
  | 89 => ⟨S8192x1, .f32⟩
  | 90 => ⟨S1x1, .f32⟩
  | 91 => ⟨S8192x1, .f32⟩
  | 92 => ⟨S8192x1, .f32⟩
  | 93 => ⟨S8192, .f32⟩
  | 94 => ⟨S_, .f32⟩
  | 95 => ⟨S8192, .f32⟩
  | 96 => ⟨S8192, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_call0_cst : Ref sig .tc := ⟨.hbm, 44, rfl⟩
abbrev main_call0_v0 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call1_cst : Ref sig .tc := ⟨.hbm, 60, rfl⟩
abbrev main_call1_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call2_cst : Ref sig .tc := ⟨.hbm, 71, rfl⟩
abbrev main_call2_v0 : Ref sig .tc := ⟨.hbm, 72, rfl⟩
abbrev main_v42 : Ref sig .tc := ⟨.hbm, 73, rfl⟩
abbrev main_c_1 : Ref sig .tc := ⟨.hbm, 74, rfl⟩
abbrev main_v43 : Ref sig .tc := ⟨.hbm, 75, rfl⟩
abbrev main_v44 : Ref sig .tc := ⟨.hbm, 76, rfl⟩
abbrev main_c_2 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call3_cst : Ref sig .tc := ⟨.hbm, 84, rfl⟩
abbrev main_call3_v0 : Ref sig .tc := ⟨.hbm, 85, rfl⟩
abbrev main_v51 : Ref sig .tc := ⟨.hbm, 86, rfl⟩
abbrev main_cst_3 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call4_cst : Ref sig .tc := ⟨.hbm, 100, rfl⟩
abbrev main_call4_v0 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call5_cst : Ref sig .tc := ⟨.hbm, 111, rfl⟩
abbrev main_call5_v0 : Ref sig .tc := ⟨.hbm, 112, rfl⟩
abbrev main_v73 : Ref sig .tc := ⟨.hbm, 113, rfl⟩
abbrev main_c_4 : Ref sig .tc := ⟨.hbm, 114, rfl⟩
abbrev main_v74 : Ref sig .tc := ⟨.hbm, 115, rfl⟩
abbrev main_v75 : Ref sig .tc := ⟨.hbm, 116, rfl⟩
abbrev main_c_5 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_call6_cst : Ref sig .tc := ⟨.hbm, 124, rfl⟩
abbrev main_call6_v0 : Ref sig .tc := ⟨.hbm, 125, rfl⟩
abbrev main_v82 : Ref sig .tc := ⟨.hbm, 126, rfl⟩
abbrev main_cst_6 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_call7_cst : Ref sig .tc := ⟨.hbm, 140, rfl⟩
abbrev main_call7_v0 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call8_cst : Ref sig .tc := ⟨.hbm, 151, rfl⟩
abbrev main_call8_v0 : Ref sig .tc := ⟨.hbm, 152, rfl⟩
abbrev main_v104 : Ref sig .tc := ⟨.hbm, 153, rfl⟩
abbrev main_c_7 : Ref sig .tc := ⟨.hbm, 154, rfl⟩
abbrev main_v105 : Ref sig .tc := ⟨.hbm, 155, rfl⟩
abbrev main_v106 : Ref sig .tc := ⟨.hbm, 156, rfl⟩
abbrev main_c_8 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_9 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_10 : Ref sig .tc := ⟨.hbm, 167, rfl⟩
abbrev main_v115 : Ref sig .tc := ⟨.hbm, 168, rfl⟩
abbrev main_cst_11 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_12 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_13 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_14 : Ref sig .tc := ⟨.hbm, 182, rfl⟩
abbrev main_v126 : Ref sig .tc := ⟨.hbm, 183, rfl⟩
abbrev main_cst_15 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_16 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_c_17 : Ref sig .tc := ⟨.hbm, 193, rfl⟩
abbrev main_v134 : Ref sig .tc := ⟨.hbm, 194, rfl⟩
abbrev main_v135 : Ref sig .tc := ⟨.hbm, 195, rfl⟩
abbrev main_c_18 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_call9_cst : Ref sig .tc := ⟨.hbm, 207, rfl⟩
abbrev main_call9_v0 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_call10_cst : Ref sig .tc := ⟨.hbm, 214, rfl⟩
abbrev main_call10_v0 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_19 : Ref sig .tc := ⟨.hbm, 222, rfl⟩
abbrev main_call11_v0 : Ref sig .tc := ⟨.hbm, 223, rfl⟩
abbrev main_v157 : Ref sig .tc := ⟨.hbm, 224, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S262144 : S_.BroadcastsInDim S262144 (![] : Fin 0 → Fin S262144.rank)
  bcast_S262144_S262144x1_0 : S262144.BroadcastsInDim S262144x1 (![0] : Fin 1 → Fin S262144x1.rank)
  bcast_S_S8192x128 : S_.BroadcastsInDim S8192x128 (![] : Fin 0 → Fin S8192x128.rank)
  bcast_S_S262144x1 : S_.BroadcastsInDim S262144x1 (![] : Fin 0 → Fin S262144x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S16x128 : S_.BroadcastsInDim S16x128 (![] : Fin 0 → Fin S16x128.rank)
  bcast_S8192_S8192x1_0 : S8192.BroadcastsInDim S8192x1 (![0] : Fin 1 → Fin S8192x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S_S8192 : S_.BroadcastsInDim S8192 (![] : Fin 0 → Fin S8192.rank)
  concatenates_S8192x128_S8192x128_S8192x256_d1 : Shape.Concatenates [S8192x128, S8192x128] S8192x256 1
  bcast_S1x128_S8192x128_0_1 : S1x128.BroadcastsInDim S8192x128 (![0, 1] : Fin 2 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S100000x64_S64x128_S100000x128_1_0_0_1_n_n_wf : DotDims.WF S100000x64 S64x128 S100000x128 [1] [0] [0] [1] [] []
  dot_S600000x1_S1x128_S600000x128_1_0_0_1_n_n_wf : DotDims.WF S600000x1 S1x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  gather_S100000x128_S262144x1_S262144x128_1_0_n_n_0_1_1128_wf : GatherDims.WF S100000x128 S262144x1 S262144x128 [1] [0] [] [0] [] 1 ![1, 128]
  scatter_S8192x128_S262144x1_S262144x128_1_0_0_1_wf : ScatterDims.WF S8192x128 S262144x1 S262144x128 [1] [0] [0] 1
  scatter_S8192x1_S262144x1_S262144x1_1_0_0_1_wf : ScatterDims.WF S8192x1 S262144x1 S262144x1 [1] [0] [0] 1
  scatter_S16x128_S8192x1_S8192x128_1_0_0_1_wf : ScatterDims.WF S16x128 S8192x1 S8192x128 [1] [0] [0] 1
  scatter_S16x1_S8192x1_S8192x1_1_0_0_1_wf : ScatterDims.WF S16x1 S8192x1 S8192x1 [1] [0] [0] 1
  gather_S16x128_S8192x1_S8192x128_1_0_n_n_0_1_1128_wf : GatherDims.WF S16x128 S8192x1 S8192x128 [1] [0] [] [0] [] 1 ![1, 128]
  dot_S8192x256_S256x128_S8192x128_1_0_0_1_n_n_wf : DotDims.WF S8192x256 S256x128 S8192x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S600000x1_S1x128_S600000x128_1_0_0_1_n_n : DotDims S600000x1 S1x128 S600000x128 where
  lhsContracting := [1]
  rhsContracting := [0]
  lhsNonContracting := [0]
  rhsNonContracting := [1]
  lhsBatch := []
  rhsBatch := []
  wf := dot_S600000x1_S1x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S262144x1_S262144x128_1_0_n_n_0_1_1128 : GatherDims S100000x128 S262144x1 S262144x128 where
  offsetDims := [1]
  collapsedSliceDims := [0]
  operandBatchingDims := []
  startIndicesBatchingDims := []
  startIndexMap := [0]
  indexVectorDim := 1
  sliceSizes := ![1, 128]
  wf := gather_S100000x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def scatter_S8192x1_S262144x1_S262144x1_1_0_0_1 : ScatterDims S8192x1 S262144x1 S262144x1 where
  updateWindowDims := [1]
  insertedWindowDims := [0]
  scatterDimsToOperandDims := [0]
  indexVectorDim := 1
  wf := scatter_S8192x1_S262144x1_S262144x1_1_0_0_1_wf
def scatter_S16x128_S8192x1_S8192x128_1_0_0_1 : ScatterDims S16x128 S8192x1 S8192x128 where
  updateWindowDims := [1]
  insertedWindowDims := [0]
  scatterDimsToOperandDims := [0]
  indexVectorDim := 1
  wf := scatter_S16x128_S8192x1_S8192x128_1_0_0_1_wf
def scatter_S16x1_S8192x1_S8192x1_1_0_0_1 : ScatterDims S16x1 S8192x1 S8192x1 where
  updateWindowDims := [1]
  insertedWindowDims := [0]
  scatterDimsToOperandDims := [0]
  indexVectorDim := 1
  wf := scatter_S16x1_S8192x1_S8192x1_1_0_0_1_wf
def gather_S16x128_S8192x1_S8192x128_1_0_n_n_0_1_1128 : GatherDims S16x128 S8192x1 S8192x128 where
  offsetDims := [1]
  collapsedSliceDims := [0]
  operandBatchingDims := []
  startIndicesBatchingDims := []
  startIndexMap := [0]
  indexVectorDim := 1
  sliceSizes := ![1, 128]
  wf := gather_S16x128_S8192x1_S8192x128_1_0_n_n_0_1_1128_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.Keep.lean ====
import proofs.«408839_j49065706390002_1_alg».proof.Proof.Gen.KernelIdeal.Frame
import Idealize.ShloMosaic.PureOps.Ideal

/-!
# Buffers that keep their contents between two boundaries of @main

@main is a walk through 22 steps, step j leading from boundary j to boundary j+1; a step is either a stretch of
host operations or a kernel region.  A stretch changes exactly the buffers its operations write; a region changes
exactly its output window's buffer (an input window's buffer is read and left as entered, any other buffer is not
touched).  So a buffer holds at a later boundary what it held at an earlier one as soon as no step in between
writes it, and the lemma for a pair of boundaries is the chain of those one-step equalities, latest step first.

The table has two parts.  An argument buffer is written by no step at all, so at any boundary it still holds the
launch memory (boundary 0 is the launch memory itself).  An intermediate buffer is written by one step only, the one
that defines it, so at any later boundary it holds what it held right after that step.  Where the same buffer is
needed at several boundaries the longer chain ends in the shorter one.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Argument buffers: at each boundary where one is read it still holds the launch memory -/

/-- main_arg0 at boundary 1, read back to boundary 0: hostOps0 does not write it; boundary 0 is the launch memory. -/
theorem keep_arg0_W1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- main_arg8 at boundary 1, read back to boundary 0: hostOps0 does not write it; boundary 0 is the launch memory. -/
theorem keep_arg8_W1 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- main_arg9 at boundary 1, read back to boundary 0: hostOps0 does not write it; boundary 0 is the launch memory. -/
theorem keep_arg9_W1 (c : Dev nD) : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- main_arg2 at boundary 2, read back to boundary 0: region 0 has no window on it; hostOps0 does not write it; boundary 0 is the launch memory. -/
theorem keep_arg2_W2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- main_arg10 at boundary 2, read back to boundary 0: region 0 has no window on it; hostOps0 does not write it; boundary 0 is the launch memory. -/
theorem keep_arg10_W2 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- main_arg11 at boundary 2, read back to boundary 0: region 0 has no window on it; hostOps0 does not write it; boundary 0 is the launch memory. -/
theorem keep_arg11_W2 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- main_arg12 at boundary 5, read back to boundary 0: region 2 has no window on it; hostOps2 does not write it; region 1 has no window on it; region 0 has no window on it; hostOps0 does not write it; boundary 0 is the launch memory. -/
theorem keep_arg12_W5 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- main_arg13 at boundary 5, read back to boundary 0: region 2 has no window on it; hostOps2 does not write it; region 1 has no window on it; region 0 has no window on it; hostOps0 does not write it; boundary 0 is the launch memory. -/
theorem keep_arg13_W5 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- main_arg14 at boundary 5, read back to boundary 0: region 2 has no window on it; hostOps2 does not write it; region 1 has no window on it; region 0 has no window on it; hostOps0 does not write it; boundary 0 is the launch memory. -/
theorem keep_arg14_W5 (c : Dev nD) : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- main_arg15 at boundary 5, read back to boundary 0: region 2 has no window on it; hostOps2 does not write it; region 1 has no window on it; region 0 has no window on it; hostOps0 does not write it; boundary 0 is the launch memory. -/
theorem keep_arg15_W5 (c : Dev nD) : W5 m ρ c (Proc.devRef .tc main_arg15) = m ((c : Thread nD τ).loc main_arg15) :=
  calc W5 m ρ c (Proc.devRef .tc main_arg15)
    _ = W4 m ρ c (Proc.devRef .tc main_arg15) := W5_of_ne m ρ c main_arg15 (by decide)
    _ = W3 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-- main_arg12 at boundary 9, read back to boundary 5: region 4 has no window on it; hostOps4 does not write it; region 3 has no window on it; hostOps3 does not write it; from boundary 5 on by keep_arg12_W5. -/
theorem keep_arg12_W9 (c : Dev nD) : W9 m ρ c (Proc.devRef .tc main_arg12) = m ((c : Thread nD τ).loc main_arg12) :=
  calc W9 m ρ c (Proc.devRef .tc main_arg12)
    _ = W8 m ρ c (Proc.devRef .tc main_arg12) := W9_of_ne m ρ c main_arg12 (by decide)
    _ = W7 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := keep_arg12_W5 m ρ c

/-- main_arg13 at boundary 9, read back to boundary 5: region 4 has no window on it; hostOps4 does not write it; region 3 has no window on it; hostOps3 does not write it; from boundary 5 on by keep_arg13_W5. -/
theorem keep_arg13_W9 (c : Dev nD) : W9 m ρ c (Proc.devRef .tc main_arg13) = m ((c : Thread nD τ).loc main_arg13) :=
  calc W9 m ρ c (Proc.devRef .tc main_arg13)
    _ = W8 m ρ c (Proc.devRef .tc main_arg13) := W9_of_ne m ρ c main_arg13 (by decide)
    _ = W7 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg13) := W7_of_ne m ρ c main_arg13 (by decide)
    _ = W5 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := keep_arg13_W5 m ρ c

/-- main_arg14 at boundary 9, read back to boundary 5: region 4 has no window on it; hostOps4 does not write it; region 3 has no window on it; hostOps3 does not write it; from boundary 5 on by keep_arg14_W5. -/
theorem keep_arg14_W9 (c : Dev nD) : W9 m ρ c (Proc.devRef .tc main_arg14) = m ((c : Thread nD τ).loc main_arg14) :=
  calc W9 m ρ c (Proc.devRef .tc main_arg14)
    _ = W8 m ρ c (Proc.devRef .tc main_arg14) := W9_of_ne m ρ c main_arg14 (by decide)
    _ = W7 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg14) := W7_of_ne m ρ c main_arg14 (by decide)
    _ = W5 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := keep_arg14_W5 m ρ c

/-- main_arg15 at boundary 9, read back to boundary 5: region 4 has no window on it; hostOps4 does not write it; region 3 has no window on it; hostOps3 does not write it; from boundary 5 on by keep_arg15_W5. -/
theorem keep_arg15_W9 (c : Dev nD) : W9 m ρ c (Proc.devRef .tc main_arg15) = m ((c : Thread nD τ).loc main_arg15) :=
  calc W9 m ρ c (Proc.devRef .tc main_arg15)
    _ = W8 m ρ c (Proc.devRef .tc main_arg15) := W9_of_ne m ρ c main_arg15 (by decide)
    _ = W7 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg15) := W7_of_ne m ρ c main_arg15 (by decide)
    _ = W5 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := keep_arg15_W5 m ρ c

/-- main_arg12 at boundary 13, read back to boundary 9: region 6 has no window on it; hostOps6 does not write it; region 5 has no window on it; hostOps5 does not write it; from boundary 9 on by keep_arg12_W9. -/
theorem keep_arg12_W13 (c : Dev nD) : W13 m ρ c (Proc.devRef .tc main_arg12) = m ((c : Thread nD τ).loc main_arg12) :=
  calc W13 m ρ c (Proc.devRef .tc main_arg12)
    _ = W12 m ρ c (Proc.devRef .tc main_arg12) := W13_of_ne m ρ c main_arg12 (by decide)
    _ = W11 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := keep_arg12_W9 m ρ c

/-- main_arg13 at boundary 13, read back to boundary 9: region 6 has no window on it; hostOps6 does not write it; region 5 has no window on it; hostOps5 does not write it; from boundary 9 on by keep_arg13_W9. -/
theorem keep_arg13_W13 (c : Dev nD) : W13 m ρ c (Proc.devRef .tc main_arg13) = m ((c : Thread nD τ).loc main_arg13) :=
  calc W13 m ρ c (Proc.devRef .tc main_arg13)
    _ = W12 m ρ c (Proc.devRef .tc main_arg13) := W13_of_ne m ρ c main_arg13 (by decide)
    _ = W11 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg13) := W11_of_ne m ρ c main_arg13 (by decide)
    _ = W9 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := keep_arg13_W9 m ρ c

/-- main_arg14 at boundary 13, read back to boundary 9: region 6 has no window on it; hostOps6 does not write it; region 5 has no window on it; hostOps5 does not write it; from boundary 9 on by keep_arg14_W9. -/
theorem keep_arg14_W13 (c : Dev nD) : W13 m ρ c (Proc.devRef .tc main_arg14) = m ((c : Thread nD τ).loc main_arg14) :=
  calc W13 m ρ c (Proc.devRef .tc main_arg14)
    _ = W12 m ρ c (Proc.devRef .tc main_arg14) := W13_of_ne m ρ c main_arg14 (by decide)
    _ = W11 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg14) := W11_of_ne m ρ c main_arg14 (by decide)
    _ = W9 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := keep_arg14_W9 m ρ c

/-- main_arg15 at boundary 13, read back to boundary 9: region 6 has no window on it; hostOps6 does not write it; region 5 has no window on it; hostOps5 does not write it; from boundary 9 on by keep_arg15_W9. -/
theorem keep_arg15_W13 (c : Dev nD) : W13 m ρ c (Proc.devRef .tc main_arg15) = m ((c : Thread nD τ).loc main_arg15) :=
  calc W13 m ρ c (Proc.devRef .tc main_arg15)
    _ = W12 m ρ c (Proc.devRef .tc main_arg15) := W13_of_ne m ρ c main_arg15 (by decide)
    _ = W11 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg15) := W11_of_ne m ρ c main_arg15 (by decide)
    _ = W9 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := keep_arg15_W9 m ρ c

/-- main_arg6 at boundary 15, read back to boundary 0: region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg6_W15 (c : Dev nD) : W15 m ρ c (Proc.devRef .tc main_arg6) = m ((c : Thread nD τ).loc main_arg6) :=
  calc W15 m ρ c (Proc.devRef .tc main_arg6)
    _ = W14 m ρ c (Proc.devRef .tc main_arg6) := W15_of_ne m ρ c main_arg6 (by decide)
    _ = W13 m ρ c (Proc.devRef .tc main_arg6) := StableHlo.after_of_forall_not_mem (b := Proc.devRef .tc main_arg6) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg6) := W13_of_ne m ρ c main_arg6 (by decide)
    _ = W11 m ρ c (Proc.devRef .tc main_arg6) := StableHlo.after_of_forall_not_mem (b := Proc.devRef .tc main_arg6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg6) := W11_of_ne m ρ c main_arg6 (by decide)
    _ = W9 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- main_arg7 at boundary 16, read back to boundary 0: hostOps8 does not write it; region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg7_W16 (c : Dev nD) : W16 m ρ c (Proc.devRef .tc main_arg7) = m ((c : Thread nD τ).loc main_arg7) :=
  calc W16 m ρ c (Proc.devRef .tc main_arg7)
    _ = W15 m ρ c (Proc.devRef .tc main_arg7) := StableHlo.after_of_forall_not_mem (b := Proc.devRef .tc main_arg7) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg7) := W15_of_ne m ρ c main_arg7 (by decide)
    _ = W13 m ρ c (Proc.devRef .tc main_arg7) := StableHlo.after_of_forall_not_mem (b := Proc.devRef .tc main_arg7) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg7) := W13_of_ne m ρ c main_arg7 (by decide)
    _ = W11 m ρ c (Proc.devRef .tc main_arg7) := StableHlo.after_of_forall_not_mem (b := Proc.devRef .tc main_arg7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg7) := W11_of_ne m ρ c main_arg7 (by decide)
    _ = W9 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- main_arg4 at boundary 16, read back to boundary 0: hostOps8 does not write it; region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg4_W16 (c : Dev nD) : W16 m ρ c (Proc.devRef .tc main_arg4) = m ((c : Thread nD τ).loc main_arg4) :=
  calc W16 m ρ c (Proc.devRef .tc main_arg4)
    _ = W15 m ρ c (Proc.devRef .tc main_arg4) := StableHlo.after_of_forall_not_mem (b := Proc.devRef .tc main_arg4) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg4) := W15_of_ne m ρ c main_arg4 (by decide)
    _ = W13 m ρ c (Proc.devRef .tc main_arg4) := StableHlo.after_of_forall_not_mem (b := Proc.devRef .tc main_arg4) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg4) := W13_of_ne m ρ c main_arg4 (by decide)
    _ = W11 m ρ c (Proc.devRef .tc main_arg4) := StableHlo.after_of_forall_not_mem (b := Proc.devRef .tc main_arg4) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg4) := W11_of_ne m ρ c main_arg4 (by decide)
    _ = W9 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg4) := W9_of_ne m ρ c main_arg4 (by decide)
    _ = W7 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- main_arg4 at boundary 17, read back to boundary 16: hostOps8_1 does not write it; from boundary 16 on by keep_arg4_W16. -/
theorem keep_arg4_W17 (c : Dev nD) : W17 m ρ c (Proc.devRef .tc main_arg4) = m ((c : Thread nD τ).loc main_arg4) :=
  calc W17 m ρ c (Proc.devRef .tc main_arg4)
    _ = W16 m ρ c (Proc.devRef .tc main_arg4) := StableHlo.after_of_forall_not_mem (b := Proc.devRef .tc main_arg4) _ _ (List.forall_iff_forall_mem.mp (by
          simp only [hostOps8_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := keep_arg4_W16 m ρ c

/-- main_arg16 at boundary 19, read back to boundary 0: hostOps8_3 does not write it; hostOps8_2 does not write it; hostOps8_1 does not write it; hostOps8 does not write it; region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg16_W19 (c : Dev nD) : W19 m ρ c (Proc.devRef .tc main_arg16) = m ((c : Thread nD τ).loc main_arg16) :=
  calc W19 m ρ c (Proc.devRef .tc main_arg16)
    _ = W18 m ρ c (Proc.devRef .tc main_arg16) := StableHlo.after_of_forall_not_mem (b := Proc.devRef .tc main_arg16) _ _ (List.forall_iff_forall_mem.mp (by
          simp only [hostOps8_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg16) := StableHlo.after_of_forall_not_mem (b := Proc.devRef .tc main_arg16) _ _ (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg16) := StableHlo.after_of_forall_not_mem (b := Proc.devRef .tc main_arg16) _ _ (List.forall_iff_forall_mem.mp (by
          simp only [hostOps8_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg16) := StableHlo.after_of_forall_not_mem (b := Proc.devRef .tc main_arg16) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg16) := W15_of_ne m ρ c main_arg16 (by decide)
    _ = W13 m ρ c (Proc.devRef .tc main_arg16) := StableHlo.after_of_forall_not_mem (b := Proc.devRef .tc main_arg16) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg16) := W13_of_ne m ρ c main_arg16 (by decide)
    _ = W11 m ρ c (Proc.devRef .tc main_arg16) := StableHlo.after_of_forall_not_mem (b := Proc.devRef .tc main_arg16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg16) := W11_of_ne m ρ c main_arg16 (by decide)
    _ = W9 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg16) := W9_of_ne m ρ c main_arg16 (by decide)
    _ = W7 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg16) := W7_of_ne m ρ c main_arg16 (by decide)
    _ = W5 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg16) := W5_of_ne m ρ c main_arg16 (by decide)
    _ = W3 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

/-- main_arg17 at boundary 19, read back to boundary 0: hostOps8_3 does not write it; hostOps8_2 does not write it; hostOps8_1 does not write it; hostOps8 does not write it; region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg17_W19 (c : Dev nD) : W19 m ρ c (Proc.devRef .tc main_arg17) = m ((c : Thread nD τ).loc main_arg17) :=
  calc W19 m ρ c (Proc.devRef .tc main_arg17)
    _ = W18 m ρ c (Proc.devRef .tc main_arg17) := StableHlo.after_of_forall_not_mem (b := Proc.devRef .tc main_arg17) _ _ (List.forall_iff_forall_mem.mp (by
          simp only [hostOps8_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg17) := StableHlo.after_of_forall_not_mem (b := Proc.devRef .tc main_arg17) _ _ (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg17) := StableHlo.after_of_forall_not_mem (b := Proc.devRef .tc main_arg17) _ _ (List.forall_iff_forall_mem.mp (by
          simp only [hostOps8_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg17) := StableHlo.after_of_forall_not_mem (b := Proc.devRef .tc main_arg17) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg17) := W15_of_ne m ρ c main_arg17 (by decide)
    _ = W13 m ρ c (Proc.devRef .tc main_arg17) := StableHlo.after_of_forall_not_mem (b := Proc.devRef .tc main_arg17) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg17) := W13_of_ne m ρ c main_arg17 (by decide)
    _ = W11 m ρ c (Proc.devRef .tc main_arg17) := StableHlo.after_of_forall_not_mem (b := Proc.devRef .tc main_arg17) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg17) := W11_of_ne m ρ c main_arg17 (by decide)
    _ = W9 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg17) := W9_of_ne m ρ c main_arg17 (by decide)
    _ = W7 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg17) := W7_of_ne m ρ c main_arg17 (by decide)
    _ = W5 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg17) := W5_of_ne m ρ c main_arg17 (by decide)
    _ = W3 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-- main_arg18 at boundary 19, read back to boundary 0: hostOps8_3 does not write it; hostOps8_2 does not write it; hostOps8_1 does not write it; hostOps8 does not write it; region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg18_W19 (c : Dev nD) : W19 m ρ c (Proc.devRef .tc main_arg18) = m ((c : Thread nD τ).loc main_arg18) :=
  calc W19 m ρ c (Proc.devRef .tc main_arg18)
    _ = W18 m ρ c (Proc.devRef .tc main_arg18) := StableHlo.after_of_forall_not_mem (b := Proc.devRef .tc main_arg18) _ _ (List.forall_iff_forall_mem.mp (by
          simp only [hostOps8_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg18) := StableHlo.after_of_forall_not_mem (b := Proc.devRef .tc main_arg18) _ _ (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg18) := StableHlo.after_of_forall_not_mem (b := Proc.devRef .tc main_arg18) _ _ (List.forall_iff_forall_mem.mp (by
          simp only [hostOps8_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg18) := StableHlo.after_of_forall_not_mem (b := Proc.devRef .tc main_arg18) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg18) := W15_of_ne m ρ c main_arg18 (by decide)
    _ = W13 m ρ c (Proc.devRef .tc main_arg18) := StableHlo.after_of_forall_not_mem (b := Proc.devRef .tc main_arg18) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg18) := W13_of_ne m ρ c main_arg18 (by decide)
    _ = W11 m ρ c (Proc.devRef .tc main_arg18) := StableHlo.after_of_forall_not_mem (b := Proc.devRef .tc main_arg18) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg18) := W11_of_ne m ρ c main_arg18 (by decide)
    _ = W9 m ρ c (Proc.devRef .tc main_arg18) := StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg18) := W9_of_ne m ρ c main_arg18 (by decide)
    _ = W7 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg18) := W7_of_ne m ρ c main_arg18 (by decide)
    _ = W5 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg18) := W5_of_ne m ρ c main_arg18 (by decide)
    _ = W3 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

/-- main_arg19 at boundary 19, read back to boundary 0: hostOps8_3 does not write it; hostOps8_2 does not write it; hostOps8_1 does not write it; hostOps8 does not write it; region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg19_W19 (c : Dev nD) : W19 m ρ c (Proc.devRef .tc main_arg19) = m ((c : Thread nD τ).loc main_arg19) :=
  calc W19 m ρ c (Proc.devRef .tc main_arg19)
    _ = W18 m ρ c (Proc.devRef .tc main_arg19) := StableHlo.after_of_forall_not_mem (b := Proc.devRef .tc main_arg19) _ _ (List.forall_iff_forall_mem.mp (by
          simp only [hostOps8_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg19) := StableHlo.after_of_forall_not_mem (b := Proc.devRef .tc main_arg19) _ _ (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg19) := StableHlo.after_of_forall_not_mem (b := Proc.devRef .tc main_arg19) _ _ (List.forall_iff_forall_mem.mp (by
          simp only [hostOps8_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg19) := StableHlo.after_of_forall_not_mem (b := Proc.devRef .tc main_arg19) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg19) := W15_of_ne m ρ c main_arg19 (by decide)
    _ = W13 m ρ c (Proc.devRef .tc main_arg19) := StableHlo.after_of_forall_not_mem (b := Proc.devRef .tc main_arg19) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg19) := W13_of_ne m ρ c main_arg19 (by decide)
    _ = W11 m ρ c (Proc.devRef .tc main_arg19) := StableHlo.after_of_forall_not_mem (b := Proc.devRef .tc main_arg19) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg19) := W11_of_ne m ρ c main_arg19 (by decide)
    _ = W9 m ρ c (Proc.devRef .tc main_arg19) := StableHlo.after_of_forall_not_mem (b := Proc.devRef .tc main_arg19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg19) := W9_of_ne m ρ c main_arg19 (by decide)
    _ = W7 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg19) := W7_of_ne m ρ c main_arg19 (by decide)
    _ = W5 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg19) := W5_of_ne m ρ c main_arg19 (by decide)
    _ = W3 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

/-- main_arg20 at boundary 19, read back to boundary 0: hostOps8_3 does not write it; hostOps8_2 does not write it; hostOps8_1 does not write it; hostOps8 does not write it; region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg20_W19 (c : Dev nD) : W19 m ρ c (Proc.devRef .tc main_arg20) = m ((c : Thread nD τ).loc main_arg20) :=
  calc W19 m ρ c (Proc.devRef .tc main_arg20)
    _ = W18 m ρ c (Proc.devRef .tc main_arg20) := StableHlo.after_of_forall_not_mem (b := Proc.devRef .tc main_arg20) _ _ (List.forall_iff_forall_mem.mp (by
          simp only [hostOps8_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg20) := StableHlo.after_of_forall_not_mem (b := Proc.devRef .tc main_arg20) _ _ (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg20) := StableHlo.after_of_forall_not_mem (b := Proc.devRef .tc main_arg20) _ _ (List.forall_iff_forall_mem.mp (by
          simp only [hostOps8_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg20) := StableHlo.after_of_forall_not_mem (b := Proc.devRef .tc main_arg20) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg20) := W15_of_ne m ρ c main_arg20 (by decide)
    _ = W13 m ρ c (Proc.devRef .tc main_arg20) := StableHlo.after_of_forall_not_mem (b := Proc.devRef .tc main_arg20) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg20) := W13_of_ne m ρ c main_arg20 (by decide)
    _ = W11 m ρ c (Proc.devRef .tc main_arg20) := StableHlo.after_of_forall_not_mem (b := Proc.devRef .tc main_arg20) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg20) := W11_of_ne m ρ c main_arg20 (by decide)
    _ = W9 m ρ c (Proc.devRef .tc main_arg20) := StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg20) := W9_of_ne m ρ c main_arg20 (by decide)
    _ = W7 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg20) := W7_of_ne m ρ c main_arg20 (by decide)
    _ = W5 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg20) := W5_of_ne m ρ c main_arg20 (by decide)
    _ = W3 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

/-- main_arg21 at boundary 19, read back to boundary 0: hostOps8_3 does not write it; hostOps8_2 does not write it; hostOps8_1 does not write it; hostOps8 does not write it; region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg21_W19 (c : Dev nD) : W19 m ρ c (Proc.devRef .tc main_arg21) = m ((c : Thread nD τ).loc main_arg21) :=
  calc W19 m ρ c (Proc.devRef .tc main_arg21)
    _ = W18 m ρ c (Proc.devRef .tc main_arg21) := StableHlo.after_of_forall_not_mem (b := Proc.devRef .tc main_arg21) _ _ (List.forall_iff_forall_mem.mp (by
          simp only [hostOps8_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg21) := StableHlo.after_of_forall_not_mem (b := Proc.devRef .tc main_arg21) _ _ (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg21) := StableHlo.after_of_forall_not_mem (b := Proc.devRef .tc main_arg21) _ _ (List.forall_iff_forall_mem.mp (by
          simp only [hostOps8_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg21) := StableHlo.after_of_forall_not_mem (b := Proc.devRef .tc main_arg21) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg21) := W15_of_ne m ρ c main_arg21 (by decide)
    _ = W13 m ρ c (Proc.devRef .tc main_arg21) := StableHlo.after_of_forall_not_mem (b := Proc.devRef .tc main_arg21) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg21) := W13_of_ne m ρ c main_arg21 (by decide)
    _ = W11 m ρ c (Proc.devRef .tc main_arg21) := StableHlo.after_of_forall_not_mem (b := Proc.devRef .tc main_arg21) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg21) := W11_of_ne m ρ c main_arg21 (by decide)
    _ = W9 m ρ c (Proc.devRef .tc main_arg21) := StableHlo.after_of_forall_not_mem (b := Proc.devRef .tc main_arg21) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg21) := W9_of_ne m ρ c main_arg21 (by decide)
    _ = W7 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg21) := W7_of_ne m ρ c main_arg21 (by decide)
    _ = W5 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg21) := W5_of_ne m ρ c main_arg21 (by decide)
    _ = W3 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg21) := W3_of_ne m ρ c main_arg21 (by decide)
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

/-- main_arg5 at boundary 21, read back to boundary 0: hostOps9 does not write it; region 8 has no window on it; hostOps8_3 does not write it; hostOps8_2 does not write it; hostOps8_1 does not write it; hostOps8 does not write it; region 7 has no window on it; hostOps7 does not write it; region 6 has no window on it; hostOps6 does not write it; region 5 has no window on it; hostOps5 does not write it; region 4 has no window on it; hostOps4 does not write it; region 3 has no window on it; hostOps3 does not write it; region 2 has no window on it; hostOps2 does not write it; region 1 has no window on it; region 0 has no window on it; hostOps0 does not write it; boundary 0 is the launch memory. -/
theorem keep_arg5_W21 (c : Dev nD) : W21 m ρ c (Proc.devRef .tc main_arg5) = m ((c : Thread nD τ).loc main_arg5) :=
  calc W21 m ρ c (Proc.devRef .tc main_arg5)
    _ = W20 m ρ c (Proc.devRef .tc main_arg5) := StableHlo.after_of_forall_not_mem (b := Proc.devRef .tc main_arg5) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W19 m ρ c (Proc.devRef .tc main_arg5) := W20_of_ne m ρ c main_arg5 (by decide)
    _ = W18 m ρ c (Proc.devRef .tc main_arg5) := StableHlo.after_of_forall_not_mem (b := Proc.devRef .tc main_arg5) _ _ (List.forall_iff_forall_mem.mp (by
          simp only [hostOps8_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg5) := StableHlo.after_of_forall_not_mem (b := Proc.devRef .tc main_arg5) _ _ (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg5) := StableHlo.after_of_forall_not_mem (b := Proc.devRef .tc main_arg5) _ _ (List.forall_iff_forall_mem.mp (by
          simp only [hostOps8_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg5) := StableHlo.after_of_forall_not_mem (b := Proc.devRef .tc main_arg5) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg5) := W15_of_ne m ρ c main_arg5 (by decide)
    _ = W13 m ρ c (Proc.devRef .tc main_arg5) := StableHlo.after_of_forall_not_mem (b := Proc.devRef .tc main_arg5) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg5) := W13_of_ne m ρ c main_arg5 (by decide)
    _ = W11 m ρ c (Proc.devRef .tc main_arg5) := StableHlo.after_of_forall_not_mem (b := Proc.devRef .tc main_arg5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg5) := W11_of_ne m ρ c main_arg5 (by decide)
    _ = W9 m ρ c (Proc.devRef .tc main_arg5) := StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg5) := W9_of_ne m ρ c main_arg5 (by decide)
    _ = W7 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## Intermediate buffers: from a boundary where one is read back to the boundary right after the step that defines it -/

/-- main_v1 at boundary 3, read back to boundary 1: region 1 has no window on it; region 0 has no window on it. -/
theorem keep_v1_W3 (c : Dev nD) : W3 m ρ c (Proc.devRef .tc main_v1) = W1 m ρ c (Proc.devRef .tc main_v1) :=
  calc W3 m ρ c (Proc.devRef .tc main_v1)
    _ = W2 m ρ c (Proc.devRef .tc main_v1) := W3_of_ne m ρ c main_v1 (by decide)
    _ = W1 m ρ c (Proc.devRef .tc main_v1) := W2_of_ne m ρ c main_v1 (by decide)

/-- main_v1 at boundary 7, read back to boundary 3: region 3 has no window on it; hostOps3 does not write it; region 2 has no window on it; hostOps2 does not write it; from boundary 3 on by keep_v1_W3. -/
theorem keep_v1_W7 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := keep_v1_W3 m ρ c

/-- main_v1 at boundary 11, read back to boundary 7: region 5 has no window on it; hostOps5 does not write it; region 4 has no window on it; hostOps4 does not write it; from boundary 7 on by keep_v1_W7. -/
theorem keep_v1_W11 (c : Dev nD) : W11 m ρ c (Proc.devRef .tc main_v1) = W1 m ρ c (Proc.devRef .tc main_v1) :=
  calc W11 m ρ c (Proc.devRef .tc main_v1)
    _ = W10 m ρ c (Proc.devRef .tc main_v1) := W11_of_ne m ρ c main_v1 (by decide)
    _ = W9 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v1) := W9_of_ne m ρ c main_v1 (by decide)
    _ = W7 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := keep_v1_W7 m ρ c

/-- main_v3 at boundary 5, read back to boundary 1: region 2 has no window on it; hostOps2 does not write it; region 1 has no window on it; region 0 has no window on it. -/
theorem keep_v3_W5 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := W3_of_ne m ρ c main_v3 (by decide)
    _ = W1 m ρ c (Proc.devRef .tc main_v3) := W2_of_ne m ρ c main_v3 (by decide)

/-- main_v3 at boundary 9, read back to boundary 5: region 4 has no window on it; hostOps4 does not write it; region 3 has no window on it; hostOps3 does not write it; from boundary 5 on by keep_v3_W5. -/
theorem keep_v3_W9 (c : Dev nD) : W9 m ρ c (Proc.devRef .tc main_v3) = W1 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := keep_v3_W5 m ρ c

/-- main_v3 at boundary 13, read back to boundary 9: region 6 has no window on it; hostOps6 does not write it; region 5 has no window on it; hostOps5 does not write it; from boundary 9 on by keep_v3_W9. -/
theorem keep_v3_W13 (c : Dev nD) : W13 m ρ c (Proc.devRef .tc main_v3) = W1 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := StableHlo.after_of_forall_not_mem (b := Proc.devRef .tc main_v3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := keep_v3_W9 m ρ c

/-- main_v4 at boundary 3, read back to boundary 2: region 1 has no window on it. -/
theorem keep_v4_W3 (c : Dev nD) : W3 m ρ c (Proc.devRef .tc main_v4) = W2 m ρ c (Proc.devRef .tc main_v4) :=
  calc W3 m ρ c (Proc.devRef .tc main_v4)
    _ = W2 m ρ c (Proc.devRef .tc main_v4) := W3_of_ne m ρ c main_v4 (by decide)

/-- main_v4 at boundary 6, read back to boundary 3: hostOps3 does not write it; region 2 has no window on it; hostOps2 does not write it; from boundary 3 on by keep_v4_W3. -/
theorem keep_v4_W6 (c : Dev nD) : W6 m ρ c (Proc.devRef .tc main_v4) = W2 m ρ c (Proc.devRef .tc main_v4) :=
  calc W6 m ρ c (Proc.devRef .tc main_v4)
    _ = W5 m ρ c (Proc.devRef .tc main_v4) := StableHlo.after_of_forall_not_mem (b := Proc.devRef .tc main_v4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v4) := W5_of_ne m ρ c main_v4 (by decide)
    _ = W3 m ρ c (Proc.devRef .tc main_v4) := StableHlo.after_of_forall_not_mem (b := Proc.devRef .tc main_v4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v4) := keep_v4_W3 m ρ c

/-- main_v5 at boundary 4, read back to boundary 3: hostOps2 does not write it. -/
theorem keep_v5_W4 (c : Dev nD) : W4 m ρ c (Proc.devRef .tc main_v5) = W3 m ρ c (Proc.devRef .tc main_v5) :=
  calc W4 m ρ c (Proc.devRef .tc main_v5)
    _ = W3 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- main_v5 at boundary 8, read back to boundary 4: hostOps4 does not write it; region 3 has no window on it; hostOps3 does not write it; region 2 reads it through input window 1; from boundary 4 on by keep_v5_W4. -/
theorem keep_v5_W8 (c : Dev nD) : W8 m ρ c (Proc.devRef .tc main_v5) = W3 m ρ c (Proc.devRef .tc main_v5) :=
  calc W8 m ρ c (Proc.devRef .tc main_v5)
    _ = W7 m ρ c (Proc.devRef .tc main_v5) := StableHlo.after_of_forall_not_mem (b := Proc.devRef .tc main_v5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v5) := W7_of_ne m ρ c main_v5 (by decide)
    _ = W5 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v5) := (W5_arr m ρ c 1).trans (((dat2 (V4 m ρ) c).arrAt_in 1 rfl _).trans (A_eq2 (V4 m ρ) c 1))
    _ = W3 m ρ c (Proc.devRef .tc main_v5) := keep_v5_W4 m ρ c

/-- main_v5 at boundary 12, read back to boundary 8: hostOps6 does not write it; region 5 has no window on it; hostOps5 does not write it; region 4 reads it through input window 1; from boundary 8 on by keep_v5_W8. -/
theorem keep_v5_W12 (c : Dev nD) : W12 m ρ c (Proc.devRef .tc main_v5) = W3 m ρ c (Proc.devRef .tc main_v5) :=
  calc W12 m ρ c (Proc.devRef .tc main_v5)
    _ = W11 m ρ c (Proc.devRef .tc main_v5) := StableHlo.after_of_forall_not_mem (b := Proc.devRef .tc main_v5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v5) := W11_of_ne m ρ c main_v5 (by decide)
    _ = W9 m ρ c (Proc.devRef .tc main_v5) := StableHlo.after_of_forall_not_mem (b := Proc.devRef .tc main_v5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v5) := (W9_arr m ρ c 1).trans (((dat4 (V8 m ρ) c).arrAt_in 1 rfl _).trans (A_eq4 (V8 m ρ) c 1))
    _ = W3 m ρ c (Proc.devRef .tc main_v5) := keep_v5_W8 m ρ c

/-- main_v19 at boundary 10, read back to boundary 7: hostOps5 does not write it; region 4 has no window on it; hostOps4 does not write it. -/
theorem keep_v19_W10 (c : Dev nD) : W10 m ρ c (Proc.devRef .tc main_v19) = W7 m ρ c (Proc.devRef .tc main_v19) :=
  calc W10 m ρ c (Proc.devRef .tc main_v19)
    _ = W9 m ρ c (Proc.devRef .tc main_v19) := StableHlo.after_of_forall_not_mem (b := Proc.devRef .tc main_v19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v19) := W9_of_ne m ρ c main_v19 (by decide)
    _ = W7 m ρ c (Proc.devRef .tc main_v19) := StableHlo.after_of_forall_not_mem (b := Proc.devRef .tc main_v19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- main_v33 at boundary 14, read back to boundary 11: hostOps7 does not write it; region 6 has no window on it; hostOps6 does not write it. -/
theorem keep_v33_W14 (c : Dev nD) : W14 m ρ c (Proc.devRef .tc main_v33) = W11 m ρ c (Proc.devRef .tc main_v33) :=
  calc W14 m ρ c (Proc.devRef .tc main_v33)
    _ = W13 m ρ c (Proc.devRef .tc main_v33) := StableHlo.after_of_forall_not_mem (b := Proc.devRef .tc main_v33) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v33) := W13_of_ne m ρ c main_v33 (by decide)
    _ = W11 m ρ c (Proc.devRef .tc main_v33) := StableHlo.after_of_forall_not_mem (b := Proc.devRef .tc main_v33) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- main_v59 at boundary 18, read back to boundary 17: hostOps8_2 does not write it. -/
theorem keep_v59_W18 (c : Dev nD) : W18 m ρ c (Proc.devRef .tc main_v59) = W17 m ρ c (Proc.devRef .tc main_v59) :=
  calc W18 m ρ c (Proc.devRef .tc main_v59)
    _ = W17 m ρ c (Proc.devRef .tc main_v59) := StableHlo.after_of_forall_not_mem (b := Proc.devRef .tc main_v59) _ _ (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## Two single stretches, over any contents -/

/-- hostOps9 does not write main_arg5: over any contents X the stretch leaves that buffer as it was. -/
theorem keep_arg5_hostOps9 (X : Valuation τ sig (Elt Ideal)) :
    StableHlo.after hostOps9 X (Proc.devRef .tc main_arg5) = X (Proc.devRef .tc main_arg5) :=
  StableHlo.after_of_forall_not_mem (b := Proc.devRef .tc main_arg5) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- hostOps8_2 does not write main_v59: over any contents X the stretch leaves that buffer as it was. -/
theorem keep_v59_hostOps8_2 (X : Valuation τ sig (Elt Ideal)) :
    StableHlo.after hostOps8_2 X (Proc.devRef .tc main_v59) = X (Proc.devRef .tc main_v59) :=
  StableHlo.after_of_forall_not_mem (b := Proc.devRef .tc main_v59) _ _ (List.forall_iff_forall_mem.mp (by
          simp only [hostOps8_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Hand

end
-- ==== Proof.Stages.lean ====
/-
  The network, stage by stage, as whole-array functions over the extended reals, each written with the host
  operations of the reference program: two affine maps into the hidden width (rows of node features, and the edge
  scalar), three rounds of message passing (gather the source rows, add the edge term, clamp at zero, sum into the
  target rows, then a two-layer perceptron on "own row + incoming sum"), mean pooling of gathered node rows over the
  candidates, a per-graph mean gathered back to the candidates, the two halves side by side, a three-layer
  perceptron down to one logit, and the masked result.  Both programs are shown to end at `result`.
-/
import proofs.«408839_j49065706390002_1_alg».proof.ReferenceIdeal
import proofs.«408839_j49065706390002_1_alg».proof.Proof.Gen.ReferenceIdeal
import Idealize.ShloMosaic.PureOps.Ideal

noncomputable section

namespace Cert.Gnn

open Idealize.ShloMosaic Cert.ReferenceIdeal Cert.ReferenceIdeal.Facts₀ Cert.ReferenceIdeal.Facts

/-! ## Affine maps `x · w + b` (the bias spread over the rows) and the clamp at zero, at each extent -/

/-- Node features into the hidden width: [100000, 64] · [64, 128] + [128]. -/
def affIn (x : FVec Ideal S100000x64 .f32) (w : FVec Ideal S64x128 .f32) (b : FVec Ideal S128 .f32) : FVec Ideal S100000x128 .f32 :=
  addf (Host.dotGeneral (F := Ideal) dot_S100000x64_S64x128_S100000x128_1_0_0_1_n_n none x w)
    (broadcastInDim S100000x128 ![0, 1] bcast_S1x128_S100000x128_0_1 (broadcastInDim S1x128 ![1] bcast_S128_S1x128_1 b))

/-- The edge scalar into the hidden width: [600000, 1] · [1, 128] + [128]. -/
def affEdge (a : FVec Ideal S600000x1 .f32) (w : FVec Ideal S1x128 .f32) (b : FVec Ideal S128 .f32) : FVec Ideal S600000x128 .f32 :=
  addf (Host.dotGeneral (F := Ideal) dot_S600000x1_S1x128_S600000x128_1_0_0_1_n_n none a w)
    (broadcastInDim S600000x128 ![0, 1] bcast_S1x128_S600000x128_0_1 (broadcastInDim S1x128 ![1] bcast_S128_S1x128_1 b))

/-- A hidden layer over the nodes: [100000, 128] · [128, 128] + [128]. -/
def affNode (x : FVec Ideal S100000x128 .f32) (w : FVec Ideal S128x128 .f32) (b : FVec Ideal S128 .f32) : FVec Ideal S100000x128 .f32 :=
  addf (Host.dotGeneral (F := Ideal) dot_S100000x128_S128x128_S100000x128_1_0_0_1_n_n none x w)
    (broadcastInDim S100000x128 ![0, 1] bcast_S1x128_S100000x128_0_1 (broadcastInDim S1x128 ![1] bcast_S128_S1x128_1 b))

/-- The candidates' first layer: [8192, 256] · [256, 128] + [128]. -/
def affCand1 (x : FVec Ideal S8192x256 .f32) (w : FVec Ideal S256x128 .f32) (b : FVec Ideal S128 .f32) : FVec Ideal S8192x128 .f32 :=
  addf (Host.dotGeneral (F := Ideal) dot_S8192x256_S256x128_S8192x128_1_0_0_1_n_n none x w)
    (broadcastInDim S8192x128 ![0, 1] bcast_S1x128_S8192x128_0_1 (broadcastInDim S1x128 ![1] bcast_S128_S1x128_1 b))

/-- The candidates' second layer: [8192, 128] · [128, 128] + [128]. -/
def affCand2 (x : FVec Ideal S8192x128 .f32) (w : FVec Ideal S128x128 .f32) (b : FVec Ideal S128 .f32) : FVec Ideal S8192x128 .f32 :=
  addf (Host.dotGeneral (F := Ideal) dot_S8192x128_S128x128_S8192x128_1_0_0_1_n_n none x w)
    (broadcastInDim S8192x128 ![0, 1] bcast_S1x128_S8192x128_0_1 (broadcastInDim S1x128 ![1] bcast_S128_S1x128_1 b))

/-- The candidates' last layer, to one logit: [8192, 128] · [128, 1] + [1]. -/
def affCand3 (x : FVec Ideal S8192x128 .f32) (w : FVec Ideal S128x1 .f32) (b : FVec Ideal S1 .f32) : FVec Ideal S8192x1 .f32 :=
  addf (Host.dotGeneral (F := Ideal) dot_S8192x128_S128x1_S8192x1_1_0_0_1_n_n none x w)
    (broadcastInDim S8192x1 ![0, 1] bcast_S1x1_S8192x1_0_1 (broadcastInDim S1x1 ![1] bcast_S1_S1x1_1 b))

/-- max(·, 0) over the edges' rows. -/
def reluEdge (x : FVec Ideal S600000x128 .f32) : FVec Ideal S600000x128 .f32 :=
  maximumf x (broadcastInDim S600000x128 ![] bcast_S_S600000x128 (constant (F := Ideal) S_ .f32 0x00000000#32))

/-- max(·, 0) over the nodes' rows. -/
def reluNode (x : FVec Ideal S100000x128 .f32) : FVec Ideal S100000x128 .f32 :=
  maximumf x (broadcastInDim S100000x128 ![] bcast_S_S100000x128 (constant (F := Ideal) S_ .f32 0x00000000#32))

/-- max(·, 0) over the candidates' rows. -/
def reluCand (x : FVec Ideal S8192x128 .f32) : FVec Ideal S8192x128 .f32 :=
  maximumf x (broadcastInDim S8192x128 ![] bcast_S_S8192x128 (constant (F := Ideal) S_ .f32 0x00000000#32))

/-! ## The edge list's two rows -/

/-- Row 0 of the edge list: each edge's source node. -/
def srcOf (ei : IVec S2x600000 32) : IVec S600000 32 :=
  shapeCast S600000 (extractStridedSlice S1x600000 ![0, 0] ei slices_S2x600000_S1x600000_0_0) shapeCasts_S1x600000_S600000

/-- Row 1 of the edge list: each edge's target node. -/
def dstOf (ei : IVec S2x600000 32) : IVec S600000 32 :=
  shapeCast S600000 (extractStridedSlice S1x600000 ![1, 0] ei slices_S2x600000_S1x600000_1_0) shapeCasts_S1x600000_S600000

/-! ## Start indices: a negative index counts from the end, then the column of start indices -/

/-- Edge sources as a column of row numbers into a table of 100000 rows. -/
def startsEdge (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- Pooled node numbers as a column of row numbers into a table of 100000 rows. -/
def startsPool (s : IVec S262144 32) : IVec S262144x1 32 :=
  broadcastInDim S262144x1 ![0] bcast_S262144_S262144x1_0
    (select (cmpi .slt s (broadcastInDim S262144 ![] bcast_S_S262144 (constantI S_ 32 0#32)))
      (addi s (broadcastInDim S262144 ![] bcast_S_S262144 (constantI S_ 32 100000#32))) s)

/-- Candidates' graph numbers as a column of row numbers into a table of 16 rows. -/
def startsGraph (s : IVec S8192 32) : IVec S8192x1 32 :=
  broadcastInDim S8192x1 ![0] bcast_S8192_S8192x1_0
    (select (cmpi .slt s (broadcastInDim S8192 ![] bcast_S_S8192 (constantI S_ 32 0#32)))
      (addi s (broadcastInDim S8192 ![] bcast_S_S8192 (constantI S_ 32 16#32))) s)

/-! ## One round of message passing -/

/-- The source rows of the node table, one per edge. -/
def gatherSrc (x : FVec Ideal S100000x128 .f32) (s : IVec S600000 32) : FVec Ideal S600000x128 .f32 :=
  Host.gather gather_S100000x128_S600000x1_S600000x128_1_0_n_n_0_1_1128 x (startsEdge s)

/-- Each edge's message: the source row plus the edge term, clamped at zero. -/
def message (x : FVec Ideal S100000x128 .f32) (e : FVec Ideal S600000x128 .f32) (s : IVec S600000 32) : FVec Ideal S600000x128 .f32 :=
  reluEdge (addf (gatherSrc x s) e)

/-- The messages summed into their target rows (from a zero table). -/
def sumInto (msg : FVec Ideal S600000x128 .f32) (d : IVec S600000 32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 d) msg

/-- The perceptron of a round: clamp((clamp((x + aggr) · w1 + b1)) · w2 + b2). -/
def perceptron (x aggr : FVec Ideal S100000x128 .f32) (w1 : FVec Ideal S128x128 .f32) (b1 : FVec Ideal S128 .f32)
    (w2 : FVec Ideal S128x128 .f32) (b2 : FVec Ideal S128 .f32) : FVec Ideal S100000x128 .f32 :=
  reluNode (affNode (reluNode (affNode (addf x aggr) w1 b1)) w2 b2)

/-- One round: messages along the edges, summed at the targets, then the perceptron. -/
def round (x : FVec Ideal S100000x128 .f32) (e : FVec Ideal S600000x128 .f32) (s d : IVec S600000 32)
    (w1 : FVec Ideal S128x128 .f32) (b1 : FVec Ideal S128 .f32) (w2 : FVec Ideal S128x128 .f32) (b2 : FVec Ideal S128 .f32) :
    FVec Ideal S100000x128 .f32 :=
  perceptron x (sumInto (message x e s) d) w1 b1 w2 b2

/-! ## The three rounds' weights: layer l of the stacked weight and bias arrays -/

def w0 (W : FVec Ideal S3x128x128 .f32) : FVec Ideal S128x128 .f32 :=
  shapeCast S128x128 (extractStridedSlice S1x128x128 ![0, 0, 0] W slices_S3x128x128_S1x128x128_0_0_0) shapeCasts_S1x128x128_S128x128
def w1 (W : FVec Ideal S3x128x128 .f32) : FVec Ideal S128x128 .f32 :=
  shapeCast S128x128 (extractStridedSlice S1x128x128 ![1, 0, 0] W slices_S3x128x128_S1x128x128_1_0_0) shapeCasts_S1x128x128_S128x128
def w2 (W : FVec Ideal S3x128x128 .f32) : FVec Ideal S128x128 .f32 :=
  shapeCast S128x128 (extractStridedSlice S1x128x128 ![2, 0, 0] W slices_S3x128x128_S1x128x128_2_0_0) shapeCasts_S1x128x128_S128x128
def b0 (B : FVec Ideal S3x128 .f32) : FVec Ideal S128 .f32 :=
  shapeCast S128 (extractStridedSlice S1x128 ![0, 0] B slices_S3x128_S1x128_0_0) shapeCasts_S1x128_S128
def b1 (B : FVec Ideal S3x128 .f32) : FVec Ideal S128 .f32 :=
  shapeCast S128 (extractStridedSlice S1x128 ![1, 0] B slices_S3x128_S1x128_1_0) shapeCasts_S1x128_S128
def b2 (B : FVec Ideal S3x128 .f32) : FVec Ideal S128 .f32 :=
  shapeCast S128 (extractStridedSlice S1x128 ![2, 0] B slices_S3x128_S1x128_2_0) shapeCasts_S1x128_S128

/-! ## Pooling -/

/-- The pooled node rows, one per pool entry. -/
def gatherPool (x : FVec Ideal S100000x128 .f32) (p : IVec S262144 32) : FVec Ideal S262144x128 .f32 :=
  Host.gather gather_S100000x128_S262144x1_S262144x128_1_0_n_n_0_1_1128 x (startsPool p)

/-- Mean of the pooled rows per candidate: the sum per candidate over max(count, 1). -/
def candMean (rows : FVec Ideal S262144x128 .f32) (mem : IVec S262144 32) : FVec Ideal S8192x128 .f32 :=
  Host.divf (F := Ideal)
    (Host.scatterAdd scatter_S8192x128_S262144x1_S262144x128_1_0_0_1
      (broadcastInDim S8192x128 ![] bcast_S_S8192x128 (constant (F := Ideal) S_ .f32 0x00000000#32))
      (broadcastInDim S262144x1 ![0] bcast_S262144_S262144x1_0 mem) rows)
    (broadcastInDim S8192x128 ![0, 1] bcast_S8192x1_S8192x128_0_1
      (maximumf
        (Host.scatterAdd scatter_S8192x1_S262144x1_S262144x1_1_0_0_1
          (broadcastInDim S8192x1 ![] bcast_S_S8192x1 (constant (F := Ideal) S_ .f32 0x00000000#32))
          (broadcastInDim S262144x1 ![0] bcast_S262144_S262144x1_0 mem)
          (broadcastInDim S262144x1 ![] bcast_S_S262144x1 (constant (F := Ideal) S_ .f32 0x3F800000#32)))
        (broadcastInDim S8192x1 ![] bcast_S_S8192x1 (constant (F := Ideal) S_ .f32 0x3F800000#32))))

/-- Mean of the candidates' rows per graph. -/
def graphMean (z : FVec Ideal S8192x128 .f32) (g : IVec S8192 32) : FVec Ideal S16x128 .f32 :=
  Host.divf (F := Ideal)
    (Host.scatterAdd scatter_S16x128_S8192x1_S8192x128_1_0_0_1
      (broadcastInDim S16x128 ![] bcast_S_S16x128 (constant (F := Ideal) S_ .f32 0x00000000#32))
      (broadcastInDim S8192x1 ![0] bcast_S8192_S8192x1_0 g) z)
    (broadcastInDim S16x128 ![0, 1] bcast_S16x1_S16x128_0_1
      (maximumf
        (Host.scatterAdd scatter_S16x1_S8192x1_S8192x1_1_0_0_1
          (broadcastInDim S16x1 ![] bcast_S_S16x1 (constant (F := Ideal) S_ .f32 0x00000000#32))
          (broadcastInDim S8192x1 ![0] bcast_S8192_S8192x1_0 g)
          (broadcastInDim S8192x1 ![] bcast_S_S8192x1 (constant (F := Ideal) S_ .f32 0x3F800000#32)))
        (broadcastInDim S16x1 ![] bcast_S_S16x1 (constant (F := Ideal) S_ .f32 0x3F800000#32))))

/-- Each candidate's graph row. -/
def gatherGraph (t : FVec Ideal S16x128 .f32) (g : IVec S8192 32) : FVec Ideal S8192x128 .f32 :=
  Host.gather gather_S16x128_S8192x1_S8192x128_1_0_n_n_0_1_1128 t (startsGraph g)

/-- A candidate's row beside its graph's row. -/
def sideBySide (z ctx : FVec Ideal S8192x128 .f32) : FVec Ideal S8192x256 .f32 :=
  concatenate S8192x256 1 [⟨S8192x128, z⟩, ⟨S8192x128, ctx⟩] concatenates_S8192x128_S8192x128_S8192x256_d1

/-- The candidates' perceptron, to a column of logits. -/
def head (h : FVec Ideal S8192x256 .f32) (wp1 : FVec Ideal S256x128 .f32) (bp1 : FVec Ideal S128 .f32)
    (wp2 : FVec Ideal S128x128 .f32) (bp2 : FVec Ideal S128 .f32) (wp3 : FVec Ideal S128x1 .f32) (bp3 : FVec Ideal S1 .f32) :
    FVec Ideal S8192x1 .f32 :=
  affCand3 (reluCand (affCand2 (reluCand (affCand1 h wp1 bp1)) wp2 bp2)) wp3 bp3

/-- The logits as a vector, kept where the mask is set and the fill value elsewhere. -/
def masked (mask : IVec S8192 1) (logits : FVec Ideal S8192x1 .f32) : FVec Ideal S8192 .f32 :=
  select mask (shapeCast S8192 logits shapeCasts_S8192x1_S8192)
    (broadcastInDim S8192 ![] bcast_S_S8192 (constant (F := Ideal) S_ .f32 0xCE6E6B28#32))

/-! ## The whole network -/

section Whole

variable (nf : FVec Ideal S100000x64 .f32) (ei : IVec S2x600000 32) (ea : FVec Ideal S600000x1 .f32)
  (cb : IVec S8192 32) (mask : IVec S8192 1) (pni pm : IVec S262144 32)
  (Wi : FVec Ideal S64x128 .f32) (bi : FVec Ideal S128 .f32) (We : FVec Ideal S1x128 .f32) (be : FVec Ideal S128 .f32)
  (W1s : FVec Ideal S3x128x128 .f32) (b1s : FVec Ideal S3x128 .f32) (W2s : FVec Ideal S3x128x128 .f32) (b2s : FVec Ideal S3x128 .f32)
  (Wp1 : FVec Ideal S256x128 .f32) (bp1 : FVec Ideal S128 .f32) (Wp2 : FVec Ideal S128x128 .f32) (bp2 : FVec Ideal S128 .f32)
  (Wp3 : FVec Ideal S128x1 .f32) (bp3 : FVec Ideal S1 .f32)

/-- Node rows after the input map. -/
def x0 : FVec Ideal S100000x128 .f32 := affIn nf Wi bi
/-- The edge term (the same in every round). -/
def edgeTerm : FVec Ideal S600000x128 .f32 := affEdge ea We be
/-- Node rows after round 1, 2, 3. -/
def x1 : FVec Ideal S100000x128 .f32 :=
  round (x0 nf Wi bi) (edgeTerm ea We be) (srcOf ei) (dstOf ei) (w0 W1s) (b0 b1s) (w0 W2s) (b0 b2s)
def x2 : FVec Ideal S100000x128 .f32 :=
  round (x1 nf ei ea Wi bi We be W1s b1s W2s b2s) (edgeTerm ea We be) (srcOf ei) (dstOf ei) (w1 W1s) (b1 b1s) (w1 W2s) (b1 b2s)
def x3 : FVec Ideal S100000x128 .f32 :=
  round (x2 nf ei ea Wi bi We be W1s b1s W2s b2s) (edgeTerm ea We be) (srcOf ei) (dstOf ei) (w2 W1s) (b2 b1s) (w2 W2s) (b2 b2s)
/-- The candidates' pooled rows. -/
def zRows : FVec Ideal S8192x128 .f32 :=
  candMean (gatherPool (x3 nf ei ea Wi bi We be W1s b1s W2s b2s) pni) pm
/-- Each candidate's graph context. -/
def ctxRows : FVec Ideal S8192x128 .f32 :=
  gatherGraph (graphMean (zRows nf ei ea pni pm Wi bi We be W1s b1s W2s b2s) cb) cb
/-- The masked logits. -/
def result : FVec Ideal S8192 .f32 :=
  masked mask (head (sideBySide (zRows nf ei ea pni pm Wi bi We be W1s b1s W2s b2s) (ctxRows nf ei ea cb pni pm Wi bi We be W1s b1s W2s b2s))
    Wp1 bp1 Wp2 bp2 Wp3 bp3)

end Whole

end Cert.Gnn

end
-- ==== Proof.TakeDefs.lean ====
/-
  The kernel program's row takes, as functions: the start indices (a negative index counts from the end), a test per
  row that the start index lies in the table, the rows gathered at the start indices, and, where the test fails, a fill
  row in their place.  Three extents: edge sources into the node table, pooled node numbers into the node table, and
  candidates' graph numbers into the per-graph table.
-/
import proofs.«408839_j49065706390002_1_alg».proof.KernelIdeal
import proofs.«408839_j49065706390002_1_alg».proof.Proof.Gen.KernelIdeal
import Idealize.ShloMosaic.PureOps.Ideal

noncomputable section

namespace Cert.KernelIdeal.Hand

open Idealize.ShloMosaic Cert.KernelIdeal Cert.KernelIdeal.Facts₀ Cert.KernelIdeal.Facts

/-- Edge sources as start rows into a table of 100000 rows. -/
def takeEdgeStarts (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- One node row per edge, the fill row where the source is no row of the table. -/
def takeEdge (x : FVec Ideal S100000x128 .f32) (s : IVec S600000 32) : FVec Ideal S600000x128 .f32 :=
  select
    (broadcastInDim S600000x128 ![0] bcast_S600000_S600000x128_0
      (Host.reduce IntOp.andi
        (andi
          (cmpi .sge (takeEdgeStarts s) (broadcastInDim S600000x1 ![] bcast_S_S600000x1 (constantI S_ 32 0#32)))
          (cmpi .sle (takeEdgeStarts s)
            (broadcastInDim S600000x1 ![0, 1] bcast_S1x1_S600000x1_0_1 (broadcastInDim S1x1 ![1] bcast_S1_S1x1_1 (constantI S1 32 99999#32)))))
        (constantI S_ 1 1#1) reducesTo_S600000x1_S600000_d1 h_S_))
    (Host.gather gather_S100000x128_S600000x1_S600000x128_1_0_n_n_0_1_1128 x (takeEdgeStarts s))
    (broadcastInDim S600000x128 ![] bcast_S_S600000x128 (constant (F := Ideal) S_ .f32 0x7FC00000#32))

/-- Pooled node numbers as start rows into a table of 100000 rows. -/
def takePoolStarts (s : IVec S262144 32) : IVec S262144x1 32 :=
  broadcastInDim S262144x1 ![0] bcast_S262144_S262144x1_0
    (select (cmpi .slt s (broadcastInDim S262144 ![] bcast_S_S262144 (constantI S_ 32 0#32)))
      (addi s (broadcastInDim S262144 ![] bcast_S_S262144 (constantI S_ 32 100000#32))) s)

/-- One node row per pool entry, the fill row where the node number is no row of the table. -/
def takePool (x : FVec Ideal S100000x128 .f32) (s : IVec S262144 32) : FVec Ideal S262144x128 .f32 :=
  select
    (broadcastInDim S262144x128 ![0] bcast_S262144_S262144x128_0
      (Host.reduce IntOp.andi
        (andi
          (cmpi .sge (takePoolStarts s) (broadcastInDim S262144x1 ![] bcast_S_S262144x1 (constantI S_ 32 0#32)))
          (cmpi .sle (takePoolStarts s)
            (broadcastInDim S262144x1 ![0, 1] bcast_S1x1_S262144x1_0_1 (broadcastInDim S1x1 ![1] bcast_S1_S1x1_1 (constantI S1 32 99999#32)))))
        (constantI S_ 1 1#1) reducesTo_S262144x1_S262144_d1 h_S_))
    (Host.gather gather_S100000x128_S262144x1_S262144x128_1_0_n_n_0_1_1128 x (takePoolStarts s))
    (broadcastInDim S262144x128 ![] bcast_S_S262144x128 (constant (F := Ideal) S_ .f32 0x7FC00000#32))

/-- Candidates' graph numbers as start rows into a table of 16 rows. -/
def takeGraphStarts (s : IVec S8192 32) : IVec S8192x1 32 :=
  broadcastInDim S8192x1 ![0] bcast_S8192_S8192x1_0
    (select (cmpi .slt s (broadcastInDim S8192 ![] bcast_S_S8192 (constantI S_ 32 0#32)))
      (addi s (broadcastInDim S8192 ![] bcast_S_S8192 (constantI S_ 32 16#32))) s)

/-- One per-graph row per candidate, the fill row where the graph number is no row of the table. -/
def takeGraph (x : FVec Ideal S16x128 .f32) (s : IVec S8192 32) : FVec Ideal S8192x128 .f32 :=
  select
    (broadcastInDim S8192x128 ![0] bcast_S8192_S8192x128_0
      (Host.reduce IntOp.andi
        (andi
          (cmpi .sge (takeGraphStarts s) (broadcastInDim S8192x1 ![] bcast_S_S8192x1 (constantI S_ 32 0#32)))
          (cmpi .sle (takeGraphStarts s)
            (broadcastInDim S8192x1 ![0, 1] bcast_S1x1_S8192x1_0_1 (broadcastInDim S1x1 ![1] bcast_S1_S1x1_1 (constantI S1 32 15#32)))))
        (constantI S_ 1 1#1) reducesTo_S8192x1_S8192_d1 h_S_))
    (Host.gather gather_S16x128_S8192x1_S8192x128_1_0_n_n_0_1_1128 x (takeGraphStarts s))
    (broadcastInDim S8192x128 ![] bcast_S_S8192x128 (constant (F := Ideal) S_ .f32 0x7FC00000#32))

end Cert.KernelIdeal.Hand

end
-- ==== Proof.StretchA.lean ====
/-
  What the kernel program's host stretches leave in the buffers the next region reads, as functions of what each
  stretch found.  Seven stretches: the two rows of the edge list (sources, targets); three row takes of the node table
  at the edge sources (one per round); and three stretches that each sum the round's messages into their target rows
  from a zero table and cut layer l of the four stacked weight and bias arrays (l = 0, 1, 2).  Every statement is over
  arbitrary starting contents: a stretch's result at a buffer depends only on the buffers its operations read.
-/
import proofs.«408839_j49065706390002_1_alg».proof.Proof.Gen.KernelIdeal.Launch
import proofs.«408839_j49065706390002_1_alg».proof.Proof.Stages
import proofs.«408839_j49065706390002_1_alg».proof.Proof.TakeDefs
import Idealize.ShloMosaic.Lib.StableHlo.Run

set_option maxRecDepth 16384

noncomputable section

namespace Cert.KernelIdeal.Hand

open Cert.KernelIdeal Cert.KernelIdeal.Gen
open Idealize.ShloMosaic Idealize.ShloMosaic.StableHlo

/-! ## The edge list's rows

Row 0 is cut as a [1, 600000] slice and read in row-major order as a vector of 600000; row 1 likewise. -/

/-- The source of every edge: row 0 of the edge list. -/
theorem read_hostOps0_v1 (X : Valuation τ sig (Elt Ideal)) :
    after (hostOps0 (F := Ideal)) X (Proc.devRef .tc main_v1) = Cert.Gnn.srcOf (X (Proc.devRef .tc main_arg1)) := by
  after_results
  rfl

/-- The target of every edge: row 1 of the edge list. -/
theorem read_hostOps0_v3 (X : Valuation τ sig (Elt Ideal)) :
    after (hostOps0 (F := Ideal)) X (Proc.devRef .tc main_v3) = Cert.Gnn.dstOf (X (Proc.devRef .tc main_arg1)) := by
  after_results
  rfl

/-! ## The row takes

A take turns each source into a start row (a negative one counted from the end), tests that the start row lies in
the table, gathers the table's rows at the start rows, and puts the fill row where the test fails.  The start rows
feed the two bounds' comparisons and the gather alike. -/

/-- Round 1: the rows of the node table at the edge sources. -/
theorem read_hostOps2_v6 (X : Valuation τ sig (Elt Ideal)) :
    after (hostOps2 (F := Ideal)) X (Proc.devRef .tc main_v6)
      = takeEdge (X (Proc.devRef .tc main_v4)) (X (Proc.devRef .tc main_v1)) := by
  after_results_simp
  simp only [TRef.ofBuf, TRef.toBuf, cast_eq]
  rfl

/-- Round 2: the same take of the node table after round 1. -/
theorem read_hostOps4_v20 (X : Valuation τ sig (Elt Ideal)) :
    after (hostOps4 (F := Ideal)) X (Proc.devRef .tc main_v20)
      = takeEdge (X (Proc.devRef .tc main_v19)) (X (Proc.devRef .tc main_v1)) := by
  after_results_simp
  simp only [TRef.ofBuf, TRef.toBuf, cast_eq]
  rfl

/-- Round 3: the same take of the node table after round 2. -/
theorem read_hostOps6_v34 (X : Valuation τ sig (Elt Ideal)) :
    after (hostOps6 (F := Ideal)) X (Proc.devRef .tc main_v34)
      = takeEdge (X (Proc.devRef .tc main_v33)) (X (Proc.devRef .tc main_v1)) := by
  after_results_simp
  simp only [TRef.ofBuf, TRef.toBuf, cast_eq]
  rfl

/-! ## The sums into the target rows, and layer 0 of the stacked weights -/

/-- Round 1's messages summed into their target rows, from a zero table. -/
theorem read_hostOps3_v10 (X : Valuation τ sig (Elt Ideal)) :
    after (hostOps3 (F := Ideal)) X (Proc.devRef .tc main_v10)
      = Cert.Gnn.sumInto (X (Proc.devRef .tc main_v7)) (X (Proc.devRef .tc main_v3)) := by
  after_results
  rfl

/-- Layer 0 of the first stacked weight array. -/
theorem read_hostOps3_v12 (X : Valuation τ sig (Elt Ideal)) :
    after (hostOps3 (F := Ideal)) X (Proc.devRef .tc main_v12) = Cert.Gnn.w0 (X (Proc.devRef .tc main_arg12)) := by
  after_results
  rfl

/-- Layer 0 of the first stacked bias array. -/
theorem read_hostOps3_v14 (X : Valuation τ sig (Elt Ideal)) :
    after (hostOps3 (F := Ideal)) X (Proc.devRef .tc main_v14) = Cert.Gnn.b0 (X (Proc.devRef .tc main_arg13)) := by
  after_results
  rfl

/-- Layer 0 of the second stacked weight array. -/
theorem read_hostOps3_v16 (X : Valuation τ sig (Elt Ideal)) :
    after (hostOps3 (F := Ideal)) X (Proc.devRef .tc main_v16) = Cert.Gnn.w0 (X (Proc.devRef .tc main_arg14)) := by
  after_results
  rfl

/-- Layer 0 of the second stacked bias array. -/
theorem read_hostOps3_v18 (X : Valuation τ sig (Elt Ideal)) :
    after (hostOps3 (F := Ideal)) X (Proc.devRef .tc main_v18) = Cert.Gnn.b0 (X (Proc.devRef .tc main_arg15)) := by
  after_results
  rfl

/-! ## The same for round 2, with layer 1 -/

/-- Round 2's messages summed into their target rows, from a zero table. -/
theorem read_hostOps5_v24 (X : Valuation τ sig (Elt Ideal)) :
    after (hostOps5 (F := Ideal)) X (Proc.devRef .tc main_v24)
      = Cert.Gnn.sumInto (X (Proc.devRef .tc main_v21)) (X (Proc.devRef .tc main_v3)) := by
  after_results
  rfl

/-- Layer 1 of the first stacked weight array. -/
theorem read_hostOps5_v26 (X : Valuation τ sig (Elt Ideal)) :
    after (hostOps5 (F := Ideal)) X (Proc.devRef .tc main_v26) = Cert.Gnn.w1 (X (Proc.devRef .tc main_arg12)) := by
  after_results
  rfl

/-- Layer 1 of the first stacked bias array. -/
theorem read_hostOps5_v28 (X : Valuation τ sig (Elt Ideal)) :
    after (hostOps5 (F := Ideal)) X (Proc.devRef .tc main_v28) = Cert.Gnn.b1 (X (Proc.devRef .tc main_arg13)) := by
  after_results
  rfl

/-- Layer 1 of the second stacked weight array. -/
theorem read_hostOps5_v30 (X : Valuation τ sig (Elt Ideal)) :
    after (hostOps5 (F := Ideal)) X (Proc.devRef .tc main_v30) = Cert.Gnn.w1 (X (Proc.devRef .tc main_arg14)) := by
  after_results
  rfl

/-- Layer 1 of the second stacked bias array. -/
theorem read_hostOps5_v32 (X : Valuation τ sig (Elt Ideal)) :
    after (hostOps5 (F := Ideal)) X (Proc.devRef .tc main_v32) = Cert.Gnn.b1 (X (Proc.devRef .tc main_arg15)) := by
  after_results
  rfl

/-! ## The same for round 3, with layer 2 -/

/-- Round 3's messages summed into their target rows, from a zero table. -/
theorem read_hostOps7_v38 (X : Valuation τ sig (Elt Ideal)) :
    after (hostOps7 (F := Ideal)) X (Proc.devRef .tc main_v38)
      = Cert.Gnn.sumInto (X (Proc.devRef .tc main_v35)) (X (Proc.devRef .tc main_v3)) := by
  after_results
  rfl

/-- Layer 2 of the first stacked weight array. -/
theorem read_hostOps7_v40 (X : Valuation τ sig (Elt Ideal)) :
    after (hostOps7 (F := Ideal)) X (Proc.devRef .tc main_v40) = Cert.Gnn.w2 (X (Proc.devRef .tc main_arg12)) := by
  after_results
  rfl

/-- Layer 2 of the first stacked bias array. -/
theorem read_hostOps7_v42 (X : Valuation τ sig (Elt Ideal)) :
    after (hostOps7 (F := Ideal)) X (Proc.devRef .tc main_v42) = Cert.Gnn.b2 (X (Proc.devRef .tc main_arg13)) := by
  after_results
  rfl

/-- Layer 2 of the second stacked weight array. -/
theorem read_hostOps7_v44 (X : Valuation τ sig (Elt Ideal)) :
    after (hostOps7 (F := Ideal)) X (Proc.devRef .tc main_v44) = Cert.Gnn.w2 (X (Proc.devRef .tc main_arg14)) := by
  after_results
  rfl

/-- Layer 2 of the second stacked bias array. -/
theorem read_hostOps7_v46 (X : Valuation τ sig (Elt Ideal)) :
    after (hostOps7 (F := Ideal)) X (Proc.devRef .tc main_v46) = Cert.Gnn.b2 (X (Proc.devRef .tc main_arg15)) := by
  after_results
  rfl

end Cert.KernelIdeal.Hand

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Region0.lean ====
/-
  Region 0: the input map of the node features.

  The grid has 20 points; point t holds rows 5000 t … 5000 t + 4999 of the node features (all 64 columns), the whole
  weight matrix [64, 128] and the whole bias [128], and writes rows 5000 t … 5000 t + 4999 of the output [100000, 128].
  Entry (p, q) of the block written at t is  Σ_κ x(p, κ) · w(κ, q) + b(q)  over the block's rows, which is entry
  (5000 t + p, q) of  features · weight + bias  taken over the whole arrays: a product row depends only on the same
  row of the left operand. The 20 row blocks tile the output, so the output array is the affine map of the arrays the
  region finds.
-/
import proofs.«408839_j49065706390002_1_alg».proof.Proof.Gen.KernelIdeal.Frame
import proofs.«408839_j49065706390002_1_alg».proof.Proof.Stages
import proofs.«408839_j49065706390002_1_alg».proof.Proof.LibPlainDot
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## One entry of a block, and one entry of the affine map -/

/-- Entry (p, q) of what the body computes from its three blocks: row p of x against column q of w, plus b(q).
    The narrowing of the operands is the identity on extended reals, the product into the zero accumulator is the
    plain sum, and the bias is spread over the rows. -/
theorem region0_block_entry (x : FVec Ideal S5000x64 .f32) (w : FVec Ideal S64x128 .f32) (b : FVec Ideal S128 .f32)
    (p : Fin 5000) (q : Fin 128) :
    k0_pay1 x w b (ix2 p q) = (∑ κ : Fin 64, x (ix2 p κ) * w (ix2 κ q)) + b (ix1 q) := by
  have hm := PlainDot.matmul_zero_plain dot_S5000x64_S64x128_S5000x128_1_0_0_1_n_n ⟨rfl, rfl, rfl, rfl, rfl, rfl⟩ none
    (truncf .bf16 x bitsLt_bf16_f32) (truncf .bf16 w bitsLt_bf16_f32) p q
  have hb : broadcastTo S5000x128 (shapeCast S1x128 b shapeCasts_S128_S1x128) broadcasts_S1x128_S5000x128 (ix2 p q) = b (ix1 q) :=
    (broadcastTo_1b_ab_apply _ _ p q).trans (shapeCast_a_1a_apply b _ 0 q)
  unfold k0_pay1
  exact congr (congrArg (· + ·) hm) hb

/-- Entry (r, q) of the affine map over the whole arrays: row r of X against column q of W, plus B(q). -/
theorem region0_affIn_entry (X : FVec Ideal Cert.ReferenceIdeal.S100000x64 .f32) (W : FVec Ideal Cert.ReferenceIdeal.S64x128 .f32)
    (B : FVec Ideal Cert.ReferenceIdeal.S128 .f32) (r : Fin 100000) (q : Fin 128) :
    Cert.Gnn.affIn X W B (ix2 r q) = (∑ κ : Fin 64, X (ix2 r κ) * W (ix2 κ q)) + B (ix1 q) := by
  have hd := PlainDot.dotGeneral_plain Cert.ReferenceIdeal.dot_S100000x64_S64x128_S100000x128_1_0_0_1_n_n
    ⟨rfl, rfl, rfl, rfl, rfl, rfl⟩ none HostSchedule.single X W r q
  have hb : ∀ (h1 : Cert.ReferenceIdeal.S1x128.BroadcastsInDim Cert.ReferenceIdeal.S100000x128 ![0, 1])
      (h2 : Cert.ReferenceIdeal.S128.BroadcastsInDim Cert.ReferenceIdeal.S1x128 ![1]),
      broadcastInDim Cert.ReferenceIdeal.S100000x128 ![0, 1] h1
        (broadcastInDim Cert.ReferenceIdeal.S1x128 ![1] h2 B) (ix2 r q) = B (ix1 q) := fun h1 h2 =>
    (broadcastInDim_apply _ h1 _ (ix2 r q) (ix2 (0 : Fin 1) q) (fun a => match a with | ⟨0, _⟩ => rfl | ⟨1, _⟩ => rfl)).trans
      (broadcastInDim_apply _ h2 B (ix2 (0 : Fin 1) q) (ix1 q) (fun a => match a with | ⟨0, _⟩ => rfl))
  unfold Cert.Gnn.affIn
  exact congr (congrArg (· + ·) hd) (hb _ _)

/-- An entry y of the block computed from blocks x, w, b is entry i of the affine map of arrays X, W, B whenever
    i and y name the same column, row (y 0) of x is row (i 0) of X, and w, b are W, B. -/
theorem region0_entry_eq (X : FVec Ideal S100000x64 .f32) (W : FVec Ideal S64x128 .f32) (B : FVec Ideal S128 .f32)
    (x : FVec Ideal S5000x64 .f32) (w : FVec Ideal S64x128 .f32) (b : FVec Ideal S128 .f32)
    (y : S5000x128.Idx) (i : S100000x128.Idx) (hcol : (i 1).val = (y 1).val)
    (hx : ∀ (u : S5000x64.Idx) (v : S100000x64.Idx), (u 0).val = (y 0).val → (v 0).val = (i 0).val → (u 1).val = (v 1).val → x u = X v)
    (hw : w = W) (hb : b = B) :
    k0_pay1 x w b y = Cert.Gnn.affIn X W B i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hcol
  subst hw hb
  rw [region0_block_entry, region0_affIn_entry]
  exact congrArg (· + b (ix1 q')) (Finset.sum_congr rfl fun κ _ => by rw [hx (ix2 p κ) (ix2 r κ) rfl rfl rfl])

/-! ## The windows' block indices over the grid -/

theorem region0_zero2 : (![0, 0] : Fin 2 → Nat) = fun _ => 0 := funext fun a => match a with | ⟨0, _⟩ => rfl | ⟨1, _⟩ => rfl
theorem region0_zero1 : (![0] : Fin 1 → Nat) = fun _ => 0 := funext fun a => match a with | ⟨0, _⟩ => rfl

/-- The printed index maps, decided over the 20 points: the feature window and the output window are both at row
    block t and column block 0; the weight and the bias windows stay at block 0. -/
theorem region0_index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section Value

variable (V : (c : Dev nD) → (b : Ref sig .tc) → Buf (Elt Ideal) ((c : Thread nD τ).loc b))

/-- What point t writes back is block t of the affine map of the arrays the region finds. -/
theorem region0_flushed_eq (c : Dev nD) (t : Fin cfg0.N) :
    (dat0 V c).flushed 3 t = ((cfg0.win 3).blk t).view.read (Elt Ideal)
      (Cert.Gnn.affIn (V c main_arg0) (V c main_arg8) (V c main_arg9)) := by
  show (cfg0.win 3).cut (grid0.coords t) ((dat0 V c).after 3 t) = _
  rw [after0_3]
  unfold out0_3
  rw [View.canon_unit_zero region0_zero2]
  simp only [View.ld_unit_zero (S := S5000x64) region0_zero2, View.ld_unit_zero (S := S64x128) region0_zero2,
    View.ld_unit_zero (S := S128) region0_zero1]
  obtain ⟨e0, e1, e2, e3, e4, e5, e6⟩ := region0_index_facts t
  funext j
  show k0_pay1 (iblk0 V c 0 t) (iblk0 V c 1 t) (iblk0 V c 2 t) ((cfg0.win 3).xinj (grid0.coords t) j)
    = Cert.Gnn.affIn (V c main_arg0) (V c main_arg8) (V c main_arg9) (((cfg0.win 3).blk t).view.emb j)
  refine region0_entry_eq (V c main_arg0) (V c main_arg8) (V c main_arg9) (iblk0 V c 0 t) (iblk0 V c 1 t) (iblk0 V c 2 t)
    ((cfg0.win 3).xinj (grid0.coords t) j) (((cfg0.win 3).blk t).view.emb j) ?_ ?_ ?_ ?_
  · show win0_3.index t (1 : Fin 2) * 128 + 1 * (j 1).val = (j 1).val
    omega
  · intro u v h0 h1 h2
    have h0' : (u 0).val = (j 0).val := h0
    have h1' : (v 0).val = win0_3.index t (0 : Fin 2) * 5000 + 1 * (j 0).val := h1
    show V c main_arg0 (((cfg0.win 0).blk t).view.emb u) = V c main_arg0 v
    refine congrArg (V c main_arg0) (funext fun a => Fin.ext ?_)
    match a with
    | ⟨0, _⟩ => show win0_0.index t (0 : Fin 2) * 5000 + 1 * (u 0).val = (v 0).val; omega
    | ⟨1, _⟩ => show win0_0.index t (1 : Fin 2) * 64 + 1 * (u 1).val = (v 1).val; omega
  · funext u
    show V c main_arg8 (((cfg0.win 1).blk t).view.emb u) = V c main_arg8 u
    refine congrArg (V c main_arg8) (funext fun a => Fin.ext ?_)
    match a with
    | ⟨0, _⟩ => show win0_1.index t (0 : Fin 2) * 64 + 1 * (u 0).val = (u 0).val; omega
    | ⟨1, _⟩ => show win0_1.index t (1 : Fin 2) * 128 + 1 * (u 1).val = (u 1).val; omega
  · funext u
    show V c main_arg9 (((cfg0.win 2).blk t).view.emb u) = V c main_arg9 u
    refine congrArg (V c main_arg9) (funext fun a => Fin.ext ?_)
    match a with
    | ⟨0, _⟩ => show win0_2.index t (0 : Fin 1) * 128 + 1 * (u 0).val = (u 0).val; omega

end Value

/-! ## The row blocks tile the output -/

/-- An index of the output array is in point t's block iff each coordinate is in the block's range on its axis. -/
theorem region0_mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v4).slice (win0_3.rect t)).set ↔ _
  rw [View.set_slice_whole, Rect.mem_set_unit]
  exact Iff.rfl

/-- Row r of the output lies in the block of point r / 5000, and every point writes its block back. -/
theorem region0_covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_3 t, ?_⟩
  rw [region0_mem_block]
  obtain ⟨-, -, -, -, -, e5, e6⟩ := region0_index_facts t
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-! ## The output array -/

section Result

variable (V : (c : Dev nD) → (b : Ref sig .tc) → Buf (Elt Ideal) ((c : Thread nD τ).loc b))

/-- After region 0 the output array is the affine map  features · weight + bias  of the arrays the region finds. -/
theorem region0_value (c : Dev nD) :
    (dat0 V c).arrAt 3 cfg0.N = Cert.Gnn.affIn (V c main_arg0) (V c main_arg8) (V c main_arg9) :=
  (dat0 V c).arrAt_eq_of_cover 3 (Cert.Gnn.affIn (V c main_arg0) (V c main_arg8) (V c main_arg9))
    (fun t _ => region0_flushed_eq V c t) region0_covered

end Result

end Cert.KernelIdeal.Hand

end
-- ==== Proof.Region1.lean ====
/-
  Region 1: the edge scalar into the hidden width.  The grid has 100 points; point t works on rows
  6000 t … 6000 t + 5999 of the edge column, with the one weight row and the bias whole at every point, and
  writes rows 6000 t … 6000 t + 5999 of the [600000, 128] output.  An entry (r, q) of a block is
  a(r) · w(q) + b(q); the host's affine map over a contraction of extent one is the same single product plus
  the same bias, so the output array is the host's edge term of the three arrays as the region finds them.
-/
import proofs.«408839_j49065706390002_1_alg».proof.Proof.Gen.KernelIdeal.Frame
import proofs.«408839_j49065706390002_1_alg».proof.Proof.Stages
import proofs.«408839_j49065706390002_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

namespace Region1

/-! ## One entry of a block, and one entry of the host's edge term -/

/-- Entry (r, q) of what a point stores: the block's scalar of row r times the weight at q, plus the bias at q.
    The scalar column is spread along the 128 lanes, the weight row and the bias (as a row) along the 6000 rows. -/
theorem edgeBlock_apply (x0 : FVec Ideal S6000x1 .f32) (x1 : FVec Ideal S1x128 .f32) (x2 : FVec Ideal S128 .f32)
    (r : Fin 6000) (q : Fin 128) :
    (k1_pay1 (F := Ideal) x0 x1 x2) (ix2 r q) = x0 (ix2 r (0 : Fin 1)) * x1 (ix2 (0 : Fin 1) q) + x2 (ix1 q) := by
  have e2 : broadcastTo S6000x128 x0 broadcasts_S6000x1_S6000x128 (ix2 r q) = x0 (ix2 r (0 : Fin 1)) :=
    broadcastTo_apply x0 _ (ix2 r q) (ix2 r (0 : Fin 1)) fun a => by
      match a with
      | ⟨0, _⟩ => rfl
      | ⟨1, _⟩ => rfl
  have e3 : broadcastTo S6000x128 x1 broadcasts_S1x128_S6000x128 (ix2 r q) = x1 (ix2 (0 : Fin 1) q) :=
    broadcastTo_1b_ab_apply x1 _ r q
  have e7 : broadcastTo S6000x128 (shapeCast S1x128 x2 shapeCasts_S128_S1x128) broadcasts_S1x128_S6000x128 (ix2 r q)
      = x2 (ix1 q) :=
    (broadcastTo_1b_ab_apply _ _ r q).trans (shapeCast_a_1a_apply x2 _ (0 : Fin 1) q)
  unfold k1_pay1
  show broadcastTo S6000x128 x0 broadcasts_S6000x1_S6000x128 (ix2 r q)
        * broadcastTo S6000x128 x1 broadcasts_S1x128_S6000x128 (ix2 r q)
      + broadcastTo S6000x128 (shapeCast S1x128 x2 shapeCasts_S128_S1x128) broadcasts_S1x128_S6000x128 (ix2 r q) = _
  rw [e2, e3, e7]

/-- Entry (p, q) of the host's edge term: the contraction has extent one, so the sum is its one product a(p) · w(q);
    the bias, made a row and spread over the rows, adds b(q). -/
theorem affEdge_apply (a : FVec Ideal Cert.ReferenceIdeal.S600000x1 .f32) (w : FVec Ideal Cert.ReferenceIdeal.S1x128 .f32)
    (b : FVec Ideal Cert.ReferenceIdeal.S128 .f32) (p : Fin 600000) (q : Fin 128) :
    Cert.Gnn.affEdge a w b (ix2 p q) = a (ix2 p (0 : Fin 1)) * w (ix2 (0 : Fin 1) q) + b (ix1 q) := by
  have hdot : Host.dotGeneral (F := Ideal) Cert.ReferenceIdeal.dot_S600000x1_S1x128_S600000x128_1_0_0_1_n_n none a w (ix2 p q)
      = a (ix2 p (0 : Fin 1)) * w (ix2 (0 : Fin 1) q) :=
    (Idealize.ShloMosaic.PlainDot.dotGeneral_plain Cert.ReferenceIdeal.dot_S600000x1_S1x128_S600000x128_1_0_0_1_n_n
      ⟨rfl, rfl, rfl, rfl, rfl, rfl⟩ none HostSchedule.single a w p q).trans
      (Fin.sum_univ_one fun κ : Fin 1 => a (ix2 p κ) * w (ix2 κ q))
  have hb1 : ∀ h, broadcastInDim Cert.ReferenceIdeal.S1x128 ![1] h b (ix2 (0 : Fin 1) q) = b (ix1 q) := fun h =>
    broadcastInDim_apply _ h b (ix2 (0 : Fin 1) q) (ix1 q) fun ax => by
      match ax with
      | ⟨0, _⟩ => rfl
  have hb2 : ∀ h h', broadcastInDim Cert.ReferenceIdeal.S600000x128 ![0, 1] h
      (broadcastInDim Cert.ReferenceIdeal.S1x128 ![1] h' b) (ix2 p q) = b (ix1 q) := fun h h' =>
    (broadcastInDim_apply _ h _ (ix2 p q) (ix2 (0 : Fin 1) q) fun ax => by
      match ax with
      | ⟨0, _⟩ => rfl
      | ⟨1, _⟩ => rfl).trans (hb1 h')
  unfold Cert.Gnn.affEdge
  show Host.dotGeneral (F := Ideal) Cert.ReferenceIdeal.dot_S600000x1_S1x128_S600000x128_1_0_0_1_n_n none a w (ix2 p q)
      + broadcastInDim Cert.ReferenceIdeal.S600000x128 ![0, 1] _
          (broadcastInDim Cert.ReferenceIdeal.S1x128 ![1] _ b) (ix2 p q) = _
  rw [hdot, hb2]

/-- So an entry of a block is the host's edge term at row p of the arrays, once the block's scalar of row r is the
    array's at row p and the weight row and the bias are the arrays' own. -/
theorem edgeBlock_eq_affEdge (A : FVec Ideal S600000x1 .f32) (W : FVec Ideal S1x128 .f32) (B : FVec Ideal S128 .f32)
    (x0 : FVec Ideal S6000x1 .f32) (x1 : FVec Ideal S1x128 .f32) (x2 : FVec Ideal S128 .f32)
    (r : Fin 6000) (q : Fin 128) (p : Fin 600000)
    (h0 : x0 (ix2 r (0 : Fin 1)) = A (ix2 p (0 : Fin 1))) (h1 : x1 (ix2 (0 : Fin 1) q) = W (ix2 (0 : Fin 1) q))
    (h2 : x2 (ix1 q) = B (ix1 q)) :
    (k1_pay1 (F := Ideal) x0 x1 x2) (ix2 r q) = Cert.Gnn.affEdge A W B (ix2 p q) :=
  (edgeBlock_apply x0 x1 x2 r q).trans
    ((congrArg₂ (· + ·) (congrArg₂ (· * ·) h0 h1) h2).trans (affEdge_apply A W B p q).symm)

/-! ## The region's arrays and blocks -/

section Region
variable (V : (c : Dev nD) → (b : Ref sig .tc) → Buf (Elt Ideal) ((c : Thread nD τ).loc b))

/-- The edge column, the weight row and the bias as the region finds them. -/
abbrev edgeArr (c : Dev nD) : FVec Ideal S600000x1 .f32 := V c main_arg2
abbrev weightArr (c : Dev nD) : FVec Ideal S1x128 .f32 := V c main_arg10
abbrev biasArr (c : Dev nD) : FVec Ideal S128 .f32 := V c main_arg11

/-- Their blocks at point t. -/
abbrev edgeBlk (c : Dev nD) (t : Fin cfg1.N) : FVec Ideal S6000x1 .f32 := iblk1 V c 0 t
abbrev weightBlk (c : Dev nD) (t : Fin cfg1.N) : FVec Ideal S1x128 .f32 := iblk1 V c 1 t
abbrev biasBlk (c : Dev nD) (t : Fin cfg1.N) : FVec Ideal S128 .f32 := iblk1 V c 2 t

theorem zeros2 : (![0, 0] : Fin 2 → Nat) = fun _ => 0 := funext fun a => by fin_cases a <;> rfl
theorem zeros1 : (![0] : Fin 1 → Nat) = fun _ => 0 := funext fun a => by fin_cases a <;> rfl

/-- The block indices over the grid: the edge column's and the output's blocks are block t along the rows, the weight
    row's and the bias's are the whole arrays at every point. -/
theorem blockIdx1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row r of the scalar block at point t is row 6000 t + r of the edge column. -/
theorem edgeBlk_apply (c : Dev nD) (t : Fin cfg1.N) (r : Fin 6000) (p : Fin 600000) (hp : p.val = t.val * 6000 + r.val) :
    edgeBlk V c t (ix2 r (0 : Fin 1)) = edgeArr V c (ix2 p (0 : Fin 1)) := by
  obtain ⟨e00, e01, -⟩ := blockIdx1 t
  show V c main_arg2 (((cfg1.win 0).blk t).view.emb (ix2 r (0 : Fin 1))) = V c main_arg2 (ix2 p (0 : Fin 1))
  refine congrArg (V c main_arg2) (funext fun a => Fin.ext ?_)
  match a with
  | ⟨0, _⟩ => show win1_0.index t (0 : Fin 2) * 6000 + 1 * r.val = p.val; omega
  | ⟨1, _⟩ => show win1_0.index t (1 : Fin 2) * 1 + 1 * 0 = 0; omega

/-- The weight block is the weight row. -/
theorem weightBlk_apply (c : Dev nD) (t : Fin cfg1.N) (q : Fin 128) :
    weightBlk V c t (ix2 (0 : Fin 1) q) = weightArr V c (ix2 (0 : Fin 1) q) := by
  obtain ⟨-, -, e10, e11, -⟩ := blockIdx1 t
  show V c main_arg10 (((cfg1.win 1).blk t).view.emb (ix2 (0 : Fin 1) q)) = V c main_arg10 (ix2 (0 : Fin 1) q)
  refine congrArg (V c main_arg10) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The bias block is the bias. -/
theorem biasBlk_apply (c : Dev nD) (t : Fin cfg1.N) (q : Fin 128) :
    biasBlk V c t (ix1 q) = biasArr V c (ix1 q) := by
  obtain ⟨-, -, -, -, e20, -⟩ := blockIdx1 t
  show V c main_arg11 (((cfg1.win 2).blk t).view.emb (ix1 q)) = V c main_arg11 (ix1 q)
  refine congrArg (V c main_arg11) (funext fun a => Fin.ext ?_)
  match a with
  | ⟨0, _⟩ => show win1_2.index t (0 : Fin 1) * 128 + 1 * q.val = q.val; omega

/-! ## What a point writes back, and the whole array -/

/-- Point t writes back block t of the host's edge term of the region's arrays: entry (r, q) of the stored block
    sits at row 6000 t + r, column q of the output. -/
theorem edgeFlushed_eq (c : Dev nD) (t : Fin cfg1.N) :
    (dat1 V c).flushed 3 t = ((cfg1.win 3).blk t).view.read (Elt Ideal)
      (Cert.Gnn.affEdge (edgeArr V c) (weightArr V c) (biasArr V c)) := by
  show (cfg1.win 3).cut (grid1.coords t) ((dat1 V c).after 3 t) = _
  rw [after1_3]
  unfold out1_3
  rw [View.canon_unit_zero zeros2]
  simp only [View.ld_unit_zero (S := S6000x1) zeros2, View.ld_unit_zero (S := S1x128) zeros2,
    View.ld_unit_zero (S := S128) zeros1]
  obtain ⟨-, -, -, -, -, e30, e31⟩ := blockIdx1 t
  have hN : t.val < 100 := lt_of_lt_of_eq t.isLt N_1
  funext j
  have hj0 : (j 0).val < 6000 := (j 0).isLt
  have hj1 : (j 1).val < 128 := (j 1).isLt
  have hL : (cfg1.win 3).xinj (grid1.coords t) j = ix2 (⟨(j 0).val, hj0⟩ : Fin 6000) (⟨(j 1).val, hj1⟩ : Fin 128) :=
    funext fun a => by
      match a with
      | ⟨0, _⟩ => rfl
      | ⟨1, _⟩ => rfl
  have hR : ((cfg1.win 3).blk t).view.emb j
      = ix2 (⟨t.val * 6000 + (j 0).val, by omega⟩ : Fin 600000) (⟨(j 1).val, hj1⟩ : Fin 128) :=
    funext fun a => Fin.ext (by
      match a with
      | ⟨0, _⟩ => show win1_3.index t (0 : Fin 2) * 6000 + 1 * (j 0).val = t.val * 6000 + (j 0).val; omega
      | ⟨1, _⟩ => show win1_3.index t (1 : Fin 2) * 128 + 1 * (j 1).val = (j 1).val; omega)
  show (k1_pay1 (F := Ideal) (edgeBlk V c t) (weightBlk V c t) (biasBlk V c t)) ((cfg1.win 3).xinj (grid1.coords t) j)
      = Cert.Gnn.affEdge (edgeArr V c) (weightArr V c) (biasArr V c) (((cfg1.win 3).blk t).view.emb j)
  refine (congrArg (k1_pay1 (F := Ideal) (edgeBlk V c t) (weightBlk V c t) (biasBlk V c t)) hL).trans
    (Eq.trans ?_ (congrArg (Cert.Gnn.affEdge (edgeArr V c) (weightArr V c) (biasArr V c)) hR).symm)
  exact edgeBlock_eq_affEdge (edgeArr V c) (weightArr V c) (biasArr V c) (edgeBlk V c t) (weightBlk V c t) (biasBlk V c t)
    (⟨(j 0).val, hj0⟩ : Fin 6000) (⟨(j 1).val, hj1⟩ : Fin 128) (⟨t.val * 6000 + (j 0).val, by omega⟩ : Fin 600000)
    (edgeBlk_apply V c t _ _ rfl) (weightBlk_apply V c t _) (biasBlk_apply V c t _)

/-- An index of the output is in point t's block iff each coordinate is in the block's range on its axis. -/
theorem mem_rows (t : Fin cfg1.N) (i : S600000x128.Idx) :
    i ∈ ((cfg1.win 3).blk t).view.set ↔ ∀ a : Fin 2, win1_3.index t a * S6000x128.size a ≤ (i a).val
      ∧ (i a).val < win1_3.index t a * S6000x128.size a + S6000x128.size a := by
  show i ∈ ((View.whole main_v5).slice (win1_3.rect t)).set ↔ _
  rw [View.set_slice_whole, Rect.mem_set_unit]
  exact Iff.rfl

/-- Every row of the output is in some point's block: row p is in block p / 6000. -/
theorem rows_cover (i : S600000x128.Idx) :
    ∃ t : Fin cfg1.N, (cfg1.win 3).flush t = true ∧ i ∈ ((cfg1.win 3).blk t).view.set := by
  have hi0 : (i 0).val < 600000 := (i 0).isLt
  have hi1 : (i 1).val < 128 := (i 1).isLt
  obtain ⟨t, ht⟩ : ∃ t : Fin cfg1.N, t.val = (i 0).val / 6000 :=
    ⟨⟨(i 0).val / 6000, by rw [show cfg1.N = 100 from N_1]; omega⟩, rfl⟩
  obtain ⟨-, -, -, -, -, e30, e31⟩ := blockIdx1 t
  refine ⟨t, flush1_3 t, ?_⟩
  rw [mem_rows]
  intro a
  match a with
  | ⟨0, _⟩ =>
    show win1_3.index t (0 : Fin 2) * 6000 ≤ (i 0).val ∧ (i 0).val < win1_3.index t (0 : Fin 2) * 6000 + 6000
    omega
  | ⟨1, _⟩ =>
    show win1_3.index t (1 : Fin 2) * 128 ≤ (i 1).val ∧ (i 1).val < win1_3.index t (1 : Fin 2) * 128 + 128
    omega

end Region

end Region1

open Region1 in
/-- The output array after the region: the host's edge term of the edge column, the weight row and the bias as the
    region finds them. -/
theorem region1_value (V : (c : Dev nD) → (b : Ref sig .tc) → Buf (Elt Ideal) ((c : Thread nD τ).loc b)) (c : Dev nD) :
    (dat1 V c).arrAt 3 cfg1.N = Cert.Gnn.affEdge (V c main_arg2) (V c main_arg10) (V c main_arg11) :=
  (dat1 V c).arrAt_eq_of_cover 3 (Cert.Gnn.affEdge (edgeArr V c) (weightArr V c) (biasArr V c))
    (fun t _ => edgeFlushed_eq V c t) rows_cover

end Cert.KernelIdeal.Hand

end
-- ==== Proof.ChainStart.lean ====
import proofs.«408839_j49065706390002_1_alg».proof.Proof.Keep
import proofs.«408839_j49065706390002_1_alg».proof.Proof.StretchA
import proofs.«408839_j49065706390002_1_alg».proof.Proof.Region0
import proofs.«408839_j49065706390002_1_alg».proof.Proof.Region1

/-! The kernel program's first three segments, read as the network's first stages: the edge list's two rows, the
    node rows under the input map, the edge term. -/

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- An argument array of device `c` as launched. -/
abbrev A (c : Dev nD) (b : Ref sig .tc) : Buf (Elt Ideal) ((c : Thread nD τ).loc b) := m ((c : Thread nD τ).loc b)

/-- Every edge's source is a row of the node table. -/
abbrev SrcInRange : Prop :=
  ∀ (c : Dev nD) i, 0 ≤ (Cert.Gnn.srcOf (A m c main_arg1) i).toInt ∧ (Cert.Gnn.srcOf (A m c main_arg1) i).toInt < 100000

/-- Every pooled node number is a row of the node table. -/
abbrev PoolInRange : Prop :=
  ∀ (c : Dev nD) i, 0 ≤ ((A m c main_arg6 : IVec Cert.ReferenceIdeal.S262144 32) i).toInt
    ∧ ((A m c main_arg6 : IVec Cert.ReferenceIdeal.S262144 32) i).toInt < 100000

/-- Every candidate's graph number is a row of the per-graph table. -/
abbrev GraphInRange : Prop :=
  ∀ (c : Dev nD) i, 0 ≤ ((A m c main_arg4 : IVec Cert.ReferenceIdeal.S8192 32) i).toInt
    ∧ ((A m c main_arg4 : IVec Cert.ReferenceIdeal.S8192 32) i).toInt < 16

/-- After the first host stretch: the edges' source nodes (row 0 of the edge list). -/
theorem src_W1 (c : Dev nD) : W1 m ρ c (Proc.devRef .tc main_v1) = Cert.Gnn.srcOf (A m c main_arg1) :=
  read_hostOps0_v1 (W0 m ρ c)

/-- After the first host stretch: the edges' target nodes (row 1 of the edge list). -/
theorem dst_W1 (c : Dev nD) : W1 m ρ c (Proc.devRef .tc main_v3) = Cert.Gnn.dstOf (A m c main_arg1) :=
  read_hostOps0_v3 (W0 m ρ c)

/-- After the first kernel region: the node rows under the input map (the region read its three argument arrays
    as launched). -/
theorem x0_W2 (c : Dev nD) : W2 m ρ c (Proc.devRef .tc main_v4) = Cert.Gnn.x0 (A m c main_arg0) (A m c main_arg8) (A m c main_arg9) := by
  refine (W2_arr m ρ c 3).trans ((region0_value (V1 m ρ) c).trans ?_)
  show Cert.Gnn.affIn (W1 m ρ c (Proc.devRef .tc main_arg0)) (W1 m ρ c (Proc.devRef .tc main_arg8)) (W1 m ρ c (Proc.devRef .tc main_arg9)) = _
  rw [keep_arg0_W1 m ρ c, keep_arg8_W1 m ρ c, keep_arg9_W1 m ρ c]
  rfl

/-- After the second kernel region: the edge term. -/
theorem e_W3 (c : Dev nD) : W3 m ρ c (Proc.devRef .tc main_v5) = Cert.Gnn.edgeTerm (A m c main_arg2) (A m c main_arg10) (A m c main_arg11) := by
  refine (W3_arr m ρ c 3).trans ((region1_value (V2 m ρ) c).trans ?_)
  show Cert.Gnn.affEdge (W2 m ρ c (Proc.devRef .tc main_arg2)) (W2 m ρ c (Proc.devRef .tc main_arg10)) (W2 m ρ c (Proc.devRef .tc main_arg11)) = _
  rw [keep_arg2_W2 m ρ c, keep_arg10_W2 m ρ c, keep_arg11_W2 m ρ c]
  rfl

end Cert.KernelIdeal.Hand

end
-- ==== Proof.Region2.lean ====
/-
  An add-and-clamp region: the edge messages of one round of message passing.  The region walks the 600000 edge
  rows in 100 blocks of 6000 rows.  At each block it adds the block of gathered source rows to the same block
  of the edge term, clamps the sum at zero, and writes the block back.  Block t of the output is rows
  6000·t … 6000·t + 5999 of all 128 columns, and block t of each summand is the same rows: an output entry
  depends only on the two summands' entries at its own row and column.  The blocks tile the array (row r lies
  in block r / 6000), so after the region the output array is, entry by entry, max(a + b, 0): the clamp at
  zero of the sum, as the reference writes it.  The zero is the same word on both sides, spread over a block
  on one side and over the whole array on the other.
-/
import proofs.«408839_j49065706390002_1_alg».proof.Proof.Gen.KernelIdeal.Frame
import proofs.«408839_j49065706390002_1_alg».proof.Proof.Stages
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One entry: the clamped sum on both sides -/

/-- The body reads and writes whole blocks: offsets zero on both axes. -/
theorem zeroOff_r2 : (![0, 0] : Fin 2 → Nat) = fun _ => 0 := funext fun a => by fin_cases a <;> rfl

/-- An entry of the body's result: the two blocks' entries there, added, clamped at the zero word. -/
theorem blockEntry_r2 (x0 x1 : FVec Ideal S6000x128 .f32) (y : S6000x128.Idx) :
    k2_pay1 (F := Ideal) x0 x1 y = max (x0 y + x1 y) (Ideal.ofBits .f32 0x00000000#32) := by
  unfold k2_pay1
  rw [shapeCast_self x0, shapeCast_self x1]
  rfl

/-- An entry of the reference's clamp of a sum: the two arrays' entries there, added, clamped at the zero word. -/
theorem arrayEntry_r2 (A B : FVec Ideal Cert.ReferenceIdeal.S600000x128 .f32) (i : Cert.ReferenceIdeal.S600000x128.Idx) :
    Cert.Gnn.reluEdge (addf A B) i = max (A i + B i) (Ideal.ofBits .f32 0x00000000#32) := rfl

/-- So where the blocks' entries are the arrays' entries, the body's result is the reference's. -/
theorem entry_r2 (A B : FVec Ideal Cert.ReferenceIdeal.S600000x128 .f32) (x0 x1 : FVec Ideal S6000x128 .f32)
    (y : S6000x128.Idx) (i : Cert.ReferenceIdeal.S600000x128.Idx) (h0 : x0 y = A i) (h1 : x1 y = B i) :
    k2_pay1 (F := Ideal) x0 x1 y = Cert.Gnn.reluEdge (addf A B) i := by
  rw [blockEntry_r2, arrayEntry_r2, h0, h1]

/-! ## The blocks: block t of every window is rows 6000·t … of all columns -/

/-- The three windows' block indices at every point of the grid: the point's number on the rows, zero on the columns. -/
theorem blockIdx_r2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the clamped sum of the two summand arrays as the region finds them. -/
theorem written_r2 (c : Dev nD) (t : Fin cfg2.N) :
    (dat2 V c).flushed 2 t = ((cfg2.win 2).blk t).view.read (Elt Ideal)
      (Cert.Gnn.reluEdge (addf (V c main_v6 : FVec Ideal Cert.ReferenceIdeal.S600000x128 .f32) (V c main_v5))) := by
  show (cfg2.win 2).cut (grid2.coords t) ((dat2 V c).after 2 t) = _
  rw [after2_2]
  unfold out2_2
  rw [View.canon_unit_zero zeroOff_r2]
  simp only [View.ld_unit_zero (S := S6000x128) zeroOff_r2]
  obtain ⟨e00, e01, e10, e11, e20, e21⟩ := blockIdx_r2 t
  funext j
  have h0 : ((cfg2.win 0).blk t).view.emb j = ((cfg2.win 2).blk t).view.emb j := by
    funext a; apply Fin.ext
    match a with
    | ⟨0, _⟩ => show win2_0.index t (0 : Fin 2) * 6000 + 1 * (j 0).val = win2_2.index t (0 : Fin 2) * 6000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 6000 + 1 * (j 0).val = win2_2.index t (0 : Fin 2) * 6000 + 1 * (j 0).val; omega
    | ⟨1, _⟩ => show win2_1.index t (1 : Fin 2) * 128 + 1 * (j 1).val = win2_2.index t (1 : Fin 2) * 128 + 1 * (j 1).val; omega
  show k2_pay1 (F := Ideal) (iblk2 V c 0 t) (iblk2 V c 1 t) ((cfg2.win 2).xinj (grid2.coords t) j)
    = Cert.Gnn.reluEdge (addf (V c main_v6 : FVec Ideal Cert.ReferenceIdeal.S600000x128 .f32) (V c main_v5))
        (((cfg2.win 2).blk t).view.emb j)
  refine entry_r2 (V c main_v6) (V c main_v5) (iblk2 V c 0 t) (iblk2 V c 1 t)
    ((cfg2.win 2).xinj (grid2.coords t) j) (((cfg2.win 2).blk t).view.emb j) ?_ ?_
  · show V c main_v6 (((cfg2.win 0).blk t).view.emb j) = V c main_v6 (((cfg2.win 2).blk t).view.emb j)
    rw [h0]
  · show V c main_v5 (((cfg2.win 1).blk t).view.emb j) = V c main_v5 (((cfg2.win 2).blk t).view.emb j)
    rw [h1]

/-! ## The cover: row r is in block r / 6000 -/

/-- An index of the array is in point t's block iff each coordinate is in the block's range on its axis. -/
theorem inBlock_r2 (t : Fin cfg2.N) (i : S600000x128.Idx) :
    i ∈ ((cfg2.win 2).blk t).view.set ↔ ∀ a : Fin 2, win2_2.index t a * S6000x128.size a ≤ (i a).val
      ∧ (i a).val < win2_2.index t a * S6000x128.size a + S6000x128.size a := by
  show i ∈ ((View.whole main_v7).slice (win2_2.rect t)).set ↔ _
  rw [View.set_slice_whole, Rect.mem_set_unit]
  exact Iff.rfl

/-- Every index of the array is in the block of some point that writes back: the point numbered by its row over 6000. -/
theorem covered_r2 (i : S600000x128.Idx) :
    ∃ t : Fin cfg2.N, (cfg2.win 2).flush t = true ∧ i ∈ ((cfg2.win 2).blk t).view.set := by
  have hi0 : (i 0).val < 600000 := (i 0).isLt
  have hi1 : (i 1).val < 128 := (i 1).isLt
  have hN : cfg2.N = 100 := N_2
  obtain ⟨t, ht⟩ : ∃ t : Fin cfg2.N, t.val = (i 0).val / 6000 := ⟨⟨(i 0).val / 6000, by rw [hN]; omega⟩, rfl⟩
  obtain ⟨-, -, -, -, e20, e21⟩ := blockIdx_r2 t
  refine ⟨t, flush2_2 t, ?_⟩
  rw [inBlock_r2]
  intro a
  match a with
  | ⟨0, _⟩ => show win2_2.index t (0 : Fin 2) * 6000 ≤ (i 0).val ∧ (i 0).val < win2_2.index t (0 : Fin 2) * 6000 + 6000; omega
  | ⟨1, _⟩ => show win2_2.index t (1 : Fin 2) * 128 ≤ (i 1).val ∧ (i 1).val < win2_2.index t (1 : Fin 2) * 128 + 128; omega

/-! ## The array after the region -/

/-- After the region the output array is the clamp at zero of the sum of the two summand arrays. -/
theorem region2_value (c : Dev nD) :
    (dat2 V c).arrAt 2 cfg2.N
      = Cert.Gnn.reluEdge (addf (V c main_v6 : FVec Ideal Cert.ReferenceIdeal.S600000x128 .f32) (V c main_v5)) :=
  (dat2 V c).arrAt_eq_of_cover 2
    (Cert.Gnn.reluEdge (addf (V c main_v6 : FVec Ideal Cert.ReferenceIdeal.S600000x128 .f32) (V c main_v5)))
    (fun t _ => written_r2 V c t) (fun i => covered_r2 i)

end Cert.KernelIdeal.Hand

end
-- ==== Proof.Region3.lean ====
/-
  One perceptron region of the network.  On a grid of 20 points, point t takes rows 5000·t … 5000·t + 4999 of the node
  rows and of the incoming sums, both weight matrices and both biases whole, and writes the same rows of the output.
  The body adds the two row blocks, multiplies by the first weights, adds the first bias spread over the rows and
  clamps at zero, then does the same with the second weights and bias.  Entry (p, q) of a block's result is a sum
  over the coordinates of row p alone, so it is entry (5000·t + p, q) of the same two layers applied to all 100000
  rows; the 20 row blocks fill the array, so the output array ends holding the perceptron of the arrays the region finds.
-/
import proofs.«408839_j49065706390002_1_alg».proof.Proof.Gen.KernelIdeal.Frame
import proofs.«408839_j49065706390002_1_alg».proof.Proof.Stages
import proofs.«408839_j49065706390002_1_alg».proof.Proof.LibPlainDot
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

namespace Mlp3

/-- Zero offsets on both axes of a matrix, and on the one axis of a vector. -/
theorem hz : (![0, 0] : Fin 2 → Nat) = fun _ => 0 := funext fun a => by fin_cases a <;> rfl
theorem hz1 : (![0] : Fin 1 → Nat) = fun _ => 0 := funext fun a => by fin_cases a <;> rfl

/-- The zero the clamp compares with, as an extended real. -/
abbrev zeroE : EReal := Ideal.ofBits .f32 0x00000000#32

/-! ## The arithmetic of one block of 5000 rows -/

/-- One affine layer on a block: the rows times the weights, plus the bias spread over the rows. -/
def affBlock (x : FVec Ideal S5000x128 .f32) (w : FVec Ideal S128x128 .f32) (b : FVec Ideal S128 .f32) : FVec Ideal S5000x128 .f32 :=
  addf (matmul dot_S5000x128_S128x128_S5000x128_1_0_0_1_n_n none (truncf .bf16 x bitsLt_bf16_f32) (truncf .bf16 w bitsLt_bf16_f32)
      (constant (F := Ideal) S5000x128 .f32 0x00000000#32))
    (broadcastTo S5000x128 (shapeCast S1x128 b shapeCasts_S128_S1x128) broadcasts_S1x128_S5000x128)

/-- The clamp at zero on a block. -/
def clampBlock (x : FVec Ideal S5000x128 .f32) : FVec Ideal S5000x128 .f32 :=
  maximumf x (broadcast S5000x128 (Scalar.ofBits (F := Ideal) .f32 0x00000000#32))

/-- The body's arithmetic is two affine layers, each clamped, on the sum of the two row blocks. -/
theorem pay_fold (x a : FVec Ideal S5000x128 .f32) (w1 : FVec Ideal S128x128 .f32) (b1 : FVec Ideal S128 .f32)
    (w2 : FVec Ideal S128x128 .f32) (b2 : FVec Ideal S128 .f32) :
    k3_pay1 (F := Ideal) x a w1 b1 w2 b2 = clampBlock (affBlock (clampBlock (affBlock (addf x a) w1 b1)) w2 b2) := by
  unfold k3_pay1 clampBlock affBlock
  simp only [shapeCast_self]

/-- An affine layer of a block at (p, q): row p against column q of the weights, plus entry q of the bias. -/
theorem affBlock_apply (x : FVec Ideal S5000x128 .f32) (w : FVec Ideal S128x128 .f32) (b : FVec Ideal S128 .f32) (p : Fin 5000) (q : Fin 128) :
    affBlock x w b (ix2 p q) = (∑ κ : Fin 128, x (ix2 p κ) * w (ix2 κ q)) + b (ix1 q) := by
  unfold affBlock
  refine (addf_apply _ _ _).trans ?_
  refine congrArg₂ (· + ·) ?_ ?_
  · exact PlainDot.matmul_zero_plain dot_S5000x128_S128x128_S5000x128_1_0_0_1_n_n ⟨rfl, rfl, rfl, rfl, rfl, rfl⟩ none
      (truncf .bf16 x bitsLt_bf16_f32) (truncf .bf16 w bitsLt_bf16_f32) p q
  · exact (broadcastTo_1b_ab_apply _ _ p q).trans (shapeCast_a_1a_apply b _ 0 q)

/-! ## The same layer over all 100000 rows, as the reference writes it -/

/-- The reference's affine layer at (r, q): row r against column q of the weights, plus entry q of the bias. -/
theorem affNode_apply (X : FVec Ideal S100000x128 .f32) (w : FVec Ideal S128x128 .f32) (b : FVec Ideal S128 .f32) (r : Fin 100000) (q : Fin 128) :
    Cert.Gnn.affNode X w b (ix2 r q) = (∑ κ : Fin 128, X (ix2 r κ) * w (ix2 κ q)) + b (ix1 q) := by
  unfold Cert.Gnn.affNode
  refine (addf_apply _ _ _).trans ?_
  refine congrArg₂ (· + ·) ?_ ?_
  · exact PlainDot.dotGeneral_plain Cert.ReferenceIdeal.dot_S100000x128_S128x128_S100000x128_1_0_0_1_n_n ⟨rfl, rfl, rfl, rfl, rfl, rfl⟩
      none .single X w r q
  · refine (broadcastInDim_apply _ _ _ (ix2 r q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl

/-! ## A row of the block against a row of the array -/

/-- A clamped affine layer depends, at a row, only on that row: where row p of the block is row r of the array, the
    block's layer at (p, q) is the array's layer at (r, q). -/
theorem layer_row (xb : FVec Ideal S5000x128 .f32) (X : FVec Ideal S100000x128 .f32) (w : FVec Ideal S128x128 .f32) (b : FVec Ideal S128 .f32)
    (p : Fin 5000) (r : Fin 100000) (h : ∀ κ : Fin 128, xb (ix2 p κ) = X (ix2 r κ)) (q : Fin 128) :
    clampBlock (affBlock xb w b) (ix2 p q) = Cert.Gnn.reluNode (Cert.Gnn.affNode X w b) (ix2 r q) := by
  show max (affBlock xb w b (ix2 p q)) zeroE = max (Cert.Gnn.affNode X w b (ix2 r q)) zeroE
  rw [affBlock_apply, affNode_apply]
  exact congrArg (fun s => max (s + b (ix1 q)) zeroE) (Finset.sum_congr rfl fun κ _ => by rw [h κ])

/-- The body's result at (p, q) of a block is the perceptron of the whole arrays at (r, q), where row p of each row
    block is row r of its array and the weights and biases are the arrays'. -/
theorem pay_row (xb ab : FVec Ideal S5000x128 .f32) (w1b : FVec Ideal S128x128 .f32) (b1b : FVec Ideal S128 .f32)
    (w2b : FVec Ideal S128x128 .f32) (b2b : FVec Ideal S128 .f32)
    (X A : FVec Ideal S100000x128 .f32) (W1 : FVec Ideal S128x128 .f32) (B1 : FVec Ideal S128 .f32)
    (W2 : FVec Ideal S128x128 .f32) (B2 : FVec Ideal S128 .f32)
    (hw1 : w1b = W1) (hb1 : b1b = B1) (hw2 : w2b = W2) (hb2 : b2b = B2)
    (p : Fin 5000) (r : Fin 100000) (hx : ∀ κ : Fin 128, xb (ix2 p κ) = X (ix2 r κ))
    (ha : ∀ κ : Fin 128, ab (ix2 p κ) = A (ix2 r κ)) (q : Fin 128) :
    k3_pay1 (F := Ideal) xb ab w1b b1b w2b b2b (ix2 p q) = Cert.Gnn.perceptron X A W1 B1 W2 B2 (ix2 r q) := by
  subst hw1 hb1 hw2 hb2
  refine (congrFun (pay_fold xb ab w1b b1b w2b b2b) (ix2 p q)).trans ?_
  unfold Cert.Gnn.perceptron
  refine layer_row _ _ w2b b2b p r (fun κ => ?_) q
  refine layer_row _ _ w1b b1b p r (fun κ' => ?_) κ
  show xb (ix2 p κ') + ab (ix2 p κ') = X (ix2 r κ') + A (ix2 r κ')
  rw [hx, ha]

/-! ## The windows' blocks as parts of the arrays the region finds -/

variable (V : (c : Dev nD) → (b : Ref sig .tc) → Buf (Elt Ideal) ((c : Thread nD τ).loc b))

/-- The block numbers at grid point t: the two row windows and the output are at block t of their rows, the weights
    and biases at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Row p of the first row window's block at point t is row 5000·t + p of its array. -/
theorem blk_x (c : Dev nD) (t : Fin cfg3.N) (p : Fin 5000) (hr : 5000 * t.val + p.val < 100000) (κ : Fin 128) :
    (iblk3 V c 0 t : FVec Ideal S5000x128 .f32) (ix2 p κ)
      = (V c main_v4 : FVec Ideal S100000x128 .f32) (ix2 ⟨5000 * t.val + p.val, hr⟩ κ) := by
  obtain ⟨e0, e1, -⟩ := idx_facts t
  unfold iblk3
  rw [View.read_apply]
  show V c main_v4 _ = V c main_v4 _
  refine congrArg (V c main_v4 : FVec Ideal S100000x128 .f32) (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 128 + 1 * κ.val = κ.val; rw [e1]; omega

/-- Row p of the second row window's block at point t is row 5000·t + p of its array. -/
theorem blk_a (c : Dev nD) (t : Fin cfg3.N) (p : Fin 5000) (hr : 5000 * t.val + p.val < 100000) (κ : Fin 128) :
    (iblk3 V c 1 t : FVec Ideal S5000x128 .f32) (ix2 p κ)
      = (V c main_v10 : FVec Ideal S100000x128 .f32) (ix2 ⟨5000 * t.val + p.val, hr⟩ κ) := by
  obtain ⟨-, -, e0, e1, -⟩ := idx_facts t
  unfold iblk3
  rw [View.read_apply]
  show V c main_v10 _ = V c main_v10 _
  refine congrArg (V c main_v10 : FVec Ideal S100000x128 .f32) (funext fun a => Fin.ext ?_)
  match a with
  | ⟨0, _⟩ => show win3_1.index t (0 : Fin 2) * 5000 + 1 * p.val = 5000 * t.val + p.val; rw [e0]; omega
  | ⟨1, _⟩ => show win3_1.index t (1 : Fin 2) * 128 + 1 * κ.val = κ.val; rw [e1]; omega

/-- The first weights' window holds the whole array at every point. -/
theorem blk_w1 (c : Dev nD) (t : Fin cfg3.N) :
    (iblk3 V c 2 t : FVec Ideal S128x128 .f32) = (V c main_v12 : FVec Ideal S128x128 .f32) := by
  obtain ⟨-, -, -, -, e0, e1, -⟩ := idx_facts t
  funext j
  unfold iblk3
  rw [View.read_apply]
  show V c main_v12 _ = V c main_v12 _
  refine congrArg (V c main_v12 : FVec Ideal S128x128 .f32) (funext fun a => Fin.ext ?_)
  match a with
  | ⟨0, _⟩ => show win3_2.index t (0 : Fin 2) * 128 + 1 * (j 0).val = (j 0).val; rw [e0]; omega
  | ⟨1, _⟩ => show win3_2.index t (1 : Fin 2) * 128 + 1 * (j 1).val = (j 1).val; rw [e1]; omega

/-- The first bias's window holds the whole array at every point. -/
theorem blk_b1 (c : Dev nD) (t : Fin cfg3.N) :
    (iblk3 V c 3 t : FVec Ideal S128 .f32) = (V c main_v14 : FVec Ideal S128 .f32) := by
  obtain ⟨-, -, -, -, -, -, e0, -⟩ := idx_facts t
  funext j
  unfold iblk3
  rw [View.read_apply]
  show V c main_v14 _ = V c main_v14 _
  refine congrArg (V c main_v14 : FVec Ideal S128 .f32) (funext fun a => Fin.ext ?_)
  match a with
  | ⟨0, _⟩ => show win3_3.index t (0 : Fin 1) * 128 + 1 * (j 0).val = (j 0).val; rw [e0]; omega

/-- The second weights' window holds the whole array at every point. -/
theorem blk_w2 (c : Dev nD) (t : Fin cfg3.N) :
    (iblk3 V c 4 t : FVec Ideal S128x128 .f32) = (V c main_v16 : FVec Ideal S128x128 .f32) := by
  obtain ⟨-, -, -, -, -, -, -, e0, e1, -⟩ := idx_facts t
  funext j
  unfold iblk3
  rw [View.read_apply]
  show V c main_v16 _ = V c main_v16 _
  refine congrArg (V c main_v16 : FVec Ideal S128x128 .f32) (funext fun a => Fin.ext ?_)
  match a with
  | ⟨0, _⟩ => show win3_4.index t (0 : Fin 2) * 128 + 1 * (j 0).val = (j 0).val; rw [e0]; omega
  | ⟨1, _⟩ => show win3_4.index t (1 : Fin 2) * 128 + 1 * (j 1).val = (j 1).val; rw [e1]; omega

/-- The second bias's window holds the whole array at every point. -/
theorem blk_b2 (c : Dev nD) (t : Fin cfg3.N) :
    (iblk3 V c 5 t : FVec Ideal S128 .f32) = (V c main_v18 : FVec Ideal S128 .f32) := by
  obtain ⟨-, -, -, -, -, -, -, -, -, e0, -⟩ := idx_facts t
  funext j
  unfold iblk3
  rw [View.read_apply]
  show V c main_v18 _ = V c main_v18 _
  refine congrArg (V c main_v18 : FVec Ideal S128 .f32) (funext fun a => Fin.ext ?_)
  match a with
  | ⟨0, _⟩ => show win3_5.index t (0 : Fin 1) * 128 + 1 * (j 0).val = (j 0).val; rw [e0]; omega

/-! ## From the blocks to the array -/

/-- What the region leaves in its output array: the perceptron of the arrays it finds. -/
abbrev target (c : Dev nD) : FVec Ideal S100000x128 .f32 :=
  Cert.Gnn.perceptron (V c main_v4) (V c main_v10) (V c main_v12) (V c main_v14) (V c main_v16) (V c main_v18)

/-- What point t writes back is rows 5000·t … 5000·t + 4999 of the perceptron of the whole arrays: an entry of the
    body's result depends only on its own row of the two row blocks. -/
theorem flushed_eq (c : Dev nD) (t : Fin cfg3.N) :
    (dat3 V c).flushed 6 t = ((cfg3.win 6).blk t).view.read (Elt Ideal) (target V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S128) hz1]
  refine funext fun (j : S5000x128.Idx) => ?_
  obtain ⟨p, q, rfl⟩ : ∃ (p : Fin 5000) (q : Fin 128), j = ix2 p q := ⟨j 0, j 1, eq_ix2 j⟩
  have hN : cfg3.N = 20 := N_3
  have hr : 5000 * t.val + p.val < 100000 := by have := t.isLt; have := p.isLt; omega
  obtain ⟨-, -, -, -, -, -, -, -, -, -, e0, e1⟩ := idx_facts t
  show k3_pay1 (F := Ideal) (iblk3 V c 0 t) (iblk3 V c 1 t) (iblk3 V c 2 t) (iblk3 V c 3 t) (iblk3 V c 4 t) (iblk3 V c 5 t) (ix2 p q)
    = target V c (((cfg3.win 6).blk t).view.emb (ix2 p q))
  refine (pay_row (iblk3 V c 0 t) (iblk3 V c 1 t) (iblk3 V c 2 t) (iblk3 V c 3 t) (iblk3 V c 4 t) (iblk3 V c 5 t)
    (V c main_v4) (V c main_v10) (V c main_v12) (V c main_v14) (V c main_v16) (V c main_v18)
    (blk_w1 V c t) (blk_b1 V c t) (blk_w2 V c t) (blk_b2 V c t) p ⟨5000 * t.val + p.val, hr⟩
    (blk_x V c t p hr) (blk_a V c t p hr) q).trans ?_
  refine congrArg (target V c) (funext fun a => Fin.ext ?_)
  match a with
  | ⟨0, _⟩ => show 5000 * t.val + p.val = win3_6.index t (0 : Fin 2) * 5000 + 1 * p.val; rw [e0]; omega
  | ⟨1, _⟩ => show q.val = win3_6.index t (1 : Fin 2) * 128 + 1 * q.val; rw [e1]; omega

/-- An entry of the array is in point t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v19).slice (win3_6.rect t)).set ↔ _
  rw [View.set_slice_whole, Rect.mem_set_unit]
  exact Iff.rfl

/-- Every entry of the array is written back by some point: row r by point r / 5000. -/
theorem covered (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 :=
    ⟨⟨(i 0).val / 5000, Nat.lt_of_lt_of_eq (by omega : (i 0).val / 5000 < 20) hN.symm⟩, rfl⟩
  obtain ⟨-, -, -, -, -, -, -, -, -, -, e0, e1⟩ := idx_facts t
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    rw [e0, ht]; omega
  | ⟨1, _⟩ =>
    show win3_6.index t (1 : Fin 2) * 128 ≤ (i 1).val ∧ (i 1).val < win3_6.index t (1 : Fin 2) * 128 + 128
    rw [e1]; omega

end Mlp3

variable (V : (c : Dev nD) → (b : Ref sig .tc) → Buf (Elt Ideal) ((c : Thread nD τ).loc b))

/-- The output array after the region is the perceptron of the arrays the region finds: every point writes its
    rows of it, and the points' row blocks fill the array. -/
theorem region3_value (c : Dev nD) :
    (dat3 V c).arrAt 6 cfg3.N
      = Cert.Gnn.perceptron (V c main_v4) (V c main_v10) (V c main_v12) (V c main_v14) (V c main_v16) (V c main_v18) :=
  (dat3 V c).arrAt_eq_of_cover 6 (Mlp3.target V c) (fun t _ => Mlp3.flushed_eq V c t) (fun i => Mlp3.covered i)

end Cert.KernelIdeal.Hand

end
-- ==== Proof.Region4.lean ====
/-
  An add-and-clamp region: the edge messages of one round of message passing.  The region walks the 600000 edge
  rows in 100 blocks of 6000 rows.  At each block it adds the block of gathered source rows to the same block
  of the edge term, clamps the sum at zero, and writes the block back.  Block t of the output is rows
  6000·t … 6000·t + 5999 of all 128 columns, and block t of each summand is the same rows: an output entry
  depends only on the two summands' entries at its own row and column.  The blocks tile the array (row r lies
  in block r / 6000), so after the region the output array is, entry by entry, max(a + b, 0): the clamp at
  zero of the sum, as the reference writes it.  The zero is the same word on both sides, spread over a block
  on one side and over the whole array on the other.
-/
import proofs.«408839_j49065706390002_1_alg».proof.Proof.Gen.KernelIdeal.Frame
import proofs.«408839_j49065706390002_1_alg».proof.Proof.Stages
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One entry: the clamped sum on both sides -/

/-- The body reads and writes whole blocks: offsets zero on both axes. -/
theorem zeroOff_r4 : (![0, 0] : Fin 2 → Nat) = fun _ => 0 := funext fun a => by fin_cases a <;> rfl

/-- An entry of the body's result: the two blocks' entries there, added, clamped at the zero word. -/
theorem blockEntry_r4 (x0 x1 : FVec Ideal S6000x128 .f32) (y : S6000x128.Idx) :
    k4_pay1 (F := Ideal) x0 x1 y = max (x0 y + x1 y) (Ideal.ofBits .f32 0x00000000#32) := by
  unfold k4_pay1
  rw [shapeCast_self x0, shapeCast_self x1]
  rfl

/-- An entry of the reference's clamp of a sum: the two arrays' entries there, added, clamped at the zero word. -/
theorem arrayEntry_r4 (A B : FVec Ideal Cert.ReferenceIdeal.S600000x128 .f32) (i : Cert.ReferenceIdeal.S600000x128.Idx) :
    Cert.Gnn.reluEdge (addf A B) i = max (A i + B i) (Ideal.ofBits .f32 0x00000000#32) := rfl

/-- So where the blocks' entries are the arrays' entries, the body's result is the reference's. -/
theorem entry_r4 (A B : FVec Ideal Cert.ReferenceIdeal.S600000x128 .f32) (x0 x1 : FVec Ideal S6000x128 .f32)
    (y : S6000x128.Idx) (i : Cert.ReferenceIdeal.S600000x128.Idx) (h0 : x0 y = A i) (h1 : x1 y = B i) :
    k4_pay1 (F := Ideal) x0 x1 y = Cert.Gnn.reluEdge (addf A B) i := by
  rw [blockEntry_r4, arrayEntry_r4, h0, h1]

/-! ## The blocks: block t of every window is rows 6000·t … of all columns -/

/-- The three windows' block indices at every point of the grid: the point's number on the rows, zero on the columns. -/
theorem blockIdx_r4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the clamped sum of the two summand arrays as the region finds them. -/
theorem written_r4 (c : Dev nD) (t : Fin cfg4.N) :
    (dat4 V c).flushed 2 t = ((cfg4.win 2).blk t).view.read (Elt Ideal)
      (Cert.Gnn.reluEdge (addf (V c main_v20 : FVec Ideal Cert.ReferenceIdeal.S600000x128 .f32) (V c main_v5))) := by
  show (cfg4.win 2).cut (grid4.coords t) ((dat4 V c).after 2 t) = _
  rw [after4_2]
  unfold out4_2
  rw [View.canon_unit_zero zeroOff_r4]
  simp only [View.ld_unit_zero (S := S6000x128) zeroOff_r4]
  obtain ⟨e00, e01, e10, e11, e20, e21⟩ := blockIdx_r4 t
  funext j
  have h0 : ((cfg4.win 0).blk t).view.emb j = ((cfg4.win 2).blk t).view.emb j := by
    funext a; apply Fin.ext
    match a with
    | ⟨0, _⟩ => show win4_0.index t (0 : Fin 2) * 6000 + 1 * (j 0).val = win4_2.index t (0 : Fin 2) * 6000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 6000 + 1 * (j 0).val = win4_2.index t (0 : Fin 2) * 6000 + 1 * (j 0).val; omega
    | ⟨1, _⟩ => show win4_1.index t (1 : Fin 2) * 128 + 1 * (j 1).val = win4_2.index t (1 : Fin 2) * 128 + 1 * (j 1).val; omega
  show k4_pay1 (F := Ideal) (iblk4 V c 0 t) (iblk4 V c 1 t) ((cfg4.win 2).xinj (grid4.coords t) j)
    = Cert.Gnn.reluEdge (addf (V c main_v20 : FVec Ideal Cert.ReferenceIdeal.S600000x128 .f32) (V c main_v5))
        (((cfg4.win 2).blk t).view.emb j)
  refine entry_r4 (V c main_v20) (V c main_v5) (iblk4 V c 0 t) (iblk4 V c 1 t)
    ((cfg4.win 2).xinj (grid4.coords t) j) (((cfg4.win 2).blk t).view.emb j) ?_ ?_
  · show V c main_v20 (((cfg4.win 0).blk t).view.emb j) = V c main_v20 (((cfg4.win 2).blk t).view.emb j)
    rw [h0]
  · show V c main_v5 (((cfg4.win 1).blk t).view.emb j) = V c main_v5 (((cfg4.win 2).blk t).view.emb j)
    rw [h1]

/-! ## The cover: row r is in block r / 6000 -/

/-- An index of the array is in point t's block iff each coordinate is in the block's range on its axis. -/
theorem inBlock_r4 (t : Fin cfg4.N) (i : S600000x128.Idx) :
    i ∈ ((cfg4.win 2).blk t).view.set ↔ ∀ a : Fin 2, win4_2.index t a * S6000x128.size a ≤ (i a).val
      ∧ (i a).val < win4_2.index t a * S6000x128.size a + S6000x128.size a := by
  show i ∈ ((View.whole main_v21).slice (win4_2.rect t)).set ↔ _
  rw [View.set_slice_whole, Rect.mem_set_unit]
  exact Iff.rfl

/-- Every index of the array is in the block of some point that writes back: the point numbered by its row over 6000. -/
theorem covered_r4 (i : S600000x128.Idx) :
    ∃ t : Fin cfg4.N, (cfg4.win 2).flush t = true ∧ i ∈ ((cfg4.win 2).blk t).view.set := by
  have hi0 : (i 0).val < 600000 := (i 0).isLt
  have hi1 : (i 1).val < 128 := (i 1).isLt
  have hN : cfg4.N = 100 := N_4
  obtain ⟨t, ht⟩ : ∃ t : Fin cfg4.N, t.val = (i 0).val / 6000 := ⟨⟨(i 0).val / 6000, by rw [hN]; omega⟩, rfl⟩
  obtain ⟨-, -, -, -, e20, e21⟩ := blockIdx_r4 t
  refine ⟨t, flush4_2 t, ?_⟩
  rw [inBlock_r4]
  intro a
  match a with
  | ⟨0, _⟩ => show win4_2.index t (0 : Fin 2) * 6000 ≤ (i 0).val ∧ (i 0).val < win4_2.index t (0 : Fin 2) * 6000 + 6000; omega
  | ⟨1, _⟩ => show win4_2.index t (1 : Fin 2) * 128 ≤ (i 1).val ∧ (i 1).val < win4_2.index t (1 : Fin 2) * 128 + 128; omega

/-! ## The array after the region -/

/-- After the region the output array is the clamp at zero of the sum of the two summand arrays. -/
theorem region4_value (c : Dev nD) :
    (dat4 V c).arrAt 2 cfg4.N
      = Cert.Gnn.reluEdge (addf (V c main_v20 : FVec Ideal Cert.ReferenceIdeal.S600000x128 .f32) (V c main_v5)) :=
  (dat4 V c).arrAt_eq_of_cover 2
    (Cert.Gnn.reluEdge (addf (V c main_v20 : FVec Ideal Cert.ReferenceIdeal.S600000x128 .f32) (V c main_v5)))
    (fun t _ => written_r4 V c t) (fun i => covered_r4 i)

end Cert.KernelIdeal.Hand

end
-- ==== Proof.Region5.lean ====
/-
  One perceptron region of the network.  On a grid of 20 points, point t takes rows 5000·t … 5000·t + 4999 of the node
  rows and of the incoming sums, both weight matrices and both biases whole, and writes the same rows of the output.
  The body adds the two row blocks, multiplies by the first weights, adds the first bias spread over the rows and
  clamps at zero, then does the same with the second weights and bias.  Entry (p, q) of a block's result is a sum
  over the coordinates of row p alone, so it is entry (5000·t + p, q) of the same two layers applied to all 100000
  rows; the 20 row blocks fill the array, so the output array ends holding the perceptron of the arrays the region finds.
-/
import proofs.«408839_j49065706390002_1_alg».proof.Proof.Gen.KernelIdeal.Frame
import proofs.«408839_j49065706390002_1_alg».proof.Proof.Stages
import proofs.«408839_j49065706390002_1_alg».proof.Proof.LibPlainDot
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

namespace Mlp5

/-- Zero offsets on both axes of a matrix, and on the one axis of a vector. -/
theorem hz : (![0, 0] : Fin 2 → Nat) = fun _ => 0 := funext fun a => by fin_cases a <;> rfl
theorem hz1 : (![0] : Fin 1 → Nat) = fun _ => 0 := funext fun a => by fin_cases a <;> rfl

/-- The zero the clamp compares with, as an extended real. -/
abbrev zeroE : EReal := Ideal.ofBits .f32 0x00000000#32

/-! ## The arithmetic of one block of 5000 rows -/

/-- One affine layer on a block: the rows times the weights, plus the bias spread over the rows. -/
def affBlock (x : FVec Ideal S5000x128 .f32) (w : FVec Ideal S128x128 .f32) (b : FVec Ideal S128 .f32) : FVec Ideal S5000x128 .f32 :=
  addf (matmul dot_S5000x128_S128x128_S5000x128_1_0_0_1_n_n none (truncf .bf16 x bitsLt_bf16_f32) (truncf .bf16 w bitsLt_bf16_f32)
      (constant (F := Ideal) S5000x128 .f32 0x00000000#32))
    (broadcastTo S5000x128 (shapeCast S1x128 b shapeCasts_S128_S1x128) broadcasts_S1x128_S5000x128)

/-- The clamp at zero on a block. -/
def clampBlock (x : FVec Ideal S5000x128 .f32) : FVec Ideal S5000x128 .f32 :=
  maximumf x (broadcast S5000x128 (Scalar.ofBits (F := Ideal) .f32 0x00000000#32))

/-- The body's arithmetic is two affine layers, each clamped, on the sum of the two row blocks. -/
theorem pay_fold (x a : FVec Ideal S5000x128 .f32) (w1 : FVec Ideal S128x128 .f32) (b1 : FVec Ideal S128 .f32)
    (w2 : FVec Ideal S128x128 .f32) (b2 : FVec Ideal S128 .f32) :
    k5_pay1 (F := Ideal) x a w1 b1 w2 b2 = clampBlock (affBlock (clampBlock (affBlock (addf x a) w1 b1)) w2 b2) := by
  unfold k5_pay1 clampBlock affBlock
  simp only [shapeCast_self]

/-- An affine layer of a block at (p, q): row p against column q of the weights, plus entry q of the bias. -/
theorem affBlock_apply (x : FVec Ideal S5000x128 .f32) (w : FVec Ideal S128x128 .f32) (b : FVec Ideal S128 .f32) (p : Fin 5000) (q : Fin 128) :
    affBlock x w b (ix2 p q) = (∑ κ : Fin 128, x (ix2 p κ) * w (ix2 κ q)) + b (ix1 q) := by
  unfold affBlock
  refine (addf_apply _ _ _).trans ?_
  refine congrArg₂ (· + ·) ?_ ?_
  · exact PlainDot.matmul_zero_plain dot_S5000x128_S128x128_S5000x128_1_0_0_1_n_n ⟨rfl, rfl, rfl, rfl, rfl, rfl⟩ none
      (truncf .bf16 x bitsLt_bf16_f32) (truncf .bf16 w bitsLt_bf16_f32) p q
  · exact (broadcastTo_1b_ab_apply _ _ p q).trans (shapeCast_a_1a_apply b _ 0 q)

/-! ## The same layer over all 100000 rows, as the reference writes it -/

/-- The reference's affine layer at (r, q): row r against column q of the weights, plus entry q of the bias. -/
theorem affNode_apply (X : FVec Ideal S100000x128 .f32) (w : FVec Ideal S128x128 .f32) (b : FVec Ideal S128 .f32) (r : Fin 100000) (q : Fin 128) :
    Cert.Gnn.affNode X w b (ix2 r q) = (∑ κ : Fin 128, X (ix2 r κ) * w (ix2 κ q)) + b (ix1 q) := by
  unfold Cert.Gnn.affNode
  refine (addf_apply _ _ _).trans ?_
  refine congrArg₂ (· + ·) ?_ ?_
  · exact PlainDot.dotGeneral_plain Cert.ReferenceIdeal.dot_S100000x128_S128x128_S100000x128_1_0_0_1_n_n ⟨rfl, rfl, rfl, rfl, rfl, rfl⟩
      none .single X w r q
  · refine (broadcastInDim_apply _ _ _ (ix2 r q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl

/-! ## A row of the block against a row of the array -/

/-- A clamped affine layer depends, at a row, only on that row: where row p of the block is row r of the array, the
    block's layer at (p, q) is the array's layer at (r, q). -/
theorem layer_row (xb : FVec Ideal S5000x128 .f32) (X : FVec Ideal S100000x128 .f32) (w : FVec Ideal S128x128 .f32) (b : FVec Ideal S128 .f32)
    (p : Fin 5000) (r : Fin 100000) (h : ∀ κ : Fin 128, xb (ix2 p κ) = X (ix2 r κ)) (q : Fin 128) :
    clampBlock (affBlock xb w b) (ix2 p q) = Cert.Gnn.reluNode (Cert.Gnn.affNode X w b) (ix2 r q) := by
  show max (affBlock xb w b (ix2 p q)) zeroE = max (Cert.Gnn.affNode X w b (ix2 r q)) zeroE
  rw [affBlock_apply, affNode_apply]
  exact congrArg (fun s => max (s + b (ix1 q)) zeroE) (Finset.sum_congr rfl fun κ _ => by rw [h κ])

/-- The body's result at (p, q) of a block is the perceptron of the whole arrays at (r, q), where row p of each row
    block is row r of its array and the weights and biases are the arrays'. -/
theorem pay_row (xb ab : FVec Ideal S5000x128 .f32) (w1b : FVec Ideal S128x128 .f32) (b1b : FVec Ideal S128 .f32)
    (w2b : FVec Ideal S128x128 .f32) (b2b : FVec Ideal S128 .f32)
    (X A : FVec Ideal S100000x128 .f32) (W1 : FVec Ideal S128x128 .f32) (B1 : FVec Ideal S128 .f32)
    (W2 : FVec Ideal S128x128 .f32) (B2 : FVec Ideal S128 .f32)
    (hw1 : w1b = W1) (hb1 : b1b = B1) (hw2 : w2b = W2) (hb2 : b2b = B2)
    (p : Fin 5000) (r : Fin 100000) (hx : ∀ κ : Fin 128, xb (ix2 p κ) = X (ix2 r κ))
    (ha : ∀ κ : Fin 128, ab (ix2 p κ) = A (ix2 r κ)) (q : Fin 128) :
    k5_pay1 (F := Ideal) xb ab w1b b1b w2b b2b (ix2 p q) = Cert.Gnn.perceptron X A W1 B1 W2 B2 (ix2 r q) := by
  subst hw1 hb1 hw2 hb2
  refine (congrFun (pay_fold xb ab w1b b1b w2b b2b) (ix2 p q)).trans ?_
  unfold Cert.Gnn.perceptron
  refine layer_row _ _ w2b b2b p r (fun κ => ?_) q
  refine layer_row _ _ w1b b1b p r (fun κ' => ?_) κ
  show xb (ix2 p κ') + ab (ix2 p κ') = X (ix2 r κ') + A (ix2 r κ')
  rw [hx, ha]

/-! ## The windows' blocks as parts of the arrays the region finds -/

variable (V : (c : Dev nD) → (b : Ref sig .tc) → Buf (Elt Ideal) ((c : Thread nD τ).loc b))

/-- The block numbers at grid point t: the two row windows and the output are at block t of their rows, the weights
    and biases at their one block. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- Row p of the first row window's block at point t is row 5000·t + p of its array. -/
theorem blk_x (c : Dev nD) (t : Fin cfg5.N) (p : Fin 5000) (hr : 5000 * t.val + p.val < 100000) (κ : Fin 128) :
    (iblk5 V c 0 t : FVec Ideal S5000x128 .f32) (ix2 p κ)
      = (V c main_v19 : FVec Ideal S100000x128 .f32) (ix2 ⟨5000 * t.val + p.val, hr⟩ κ) := by
  obtain ⟨e0, e1, -⟩ := idx_facts t
  unfold iblk5
  rw [View.read_apply]
  show V c main_v19 _ = V c main_v19 _
  refine congrArg (V c main_v19 : FVec Ideal S100000x128 .f32) (funext fun a => Fin.ext ?_)
  match a with
  | ⟨0, _⟩ => show win5_0.index t (0 : Fin 2) * 5000 + 1 * p.val = 5000 * t.val + p.val; rw [e0]; omega
  | ⟨1, _⟩ => show win5_0.index t (1 : Fin 2) * 128 + 1 * κ.val = κ.val; rw [e1]; omega

/-- Row p of the second row window's block at point t is row 5000·t + p of its array. -/
theorem blk_a (c : Dev nD) (t : Fin cfg5.N) (p : Fin 5000) (hr : 5000 * t.val + p.val < 100000) (κ : Fin 128) :
    (iblk5 V c 1 t : FVec Ideal S5000x128 .f32) (ix2 p κ)
      = (V c main_v24 : FVec Ideal S100000x128 .f32) (ix2 ⟨5000 * t.val + p.val, hr⟩ κ) := by
  obtain ⟨-, -, e0, e1, -⟩ := idx_facts t
  unfold iblk5
  rw [View.read_apply]
  show V c main_v24 _ = V c main_v24 _
  refine congrArg (V c main_v24 : FVec Ideal S100000x128 .f32) (funext fun a => Fin.ext ?_)
  match a with
  | ⟨0, _⟩ => show win5_1.index t (0 : Fin 2) * 5000 + 1 * p.val = 5000 * t.val + p.val; rw [e0]; omega
  | ⟨1, _⟩ => show win5_1.index t (1 : Fin 2) * 128 + 1 * κ.val = κ.val; rw [e1]; omega

/-- The first weights' window holds the whole array at every point. -/
theorem blk_w1 (c : Dev nD) (t : Fin cfg5.N) :
    (iblk5 V c 2 t : FVec Ideal S128x128 .f32) = (V c main_v26 : FVec Ideal S128x128 .f32) := by
  obtain ⟨-, -, -, -, e0, e1, -⟩ := idx_facts t
  funext j
  unfold iblk5
  rw [View.read_apply]
  show V c main_v26 _ = V c main_v26 _
  refine congrArg (V c main_v26 : FVec Ideal S128x128 .f32) (funext fun a => Fin.ext ?_)
  match a with
  | ⟨0, _⟩ => show win5_2.index t (0 : Fin 2) * 128 + 1 * (j 0).val = (j 0).val; rw [e0]; omega
  | ⟨1, _⟩ => show win5_2.index t (1 : Fin 2) * 128 + 1 * (j 1).val = (j 1).val; rw [e1]; omega

/-- The first bias's window holds the whole array at every point. -/
theorem blk_b1 (c : Dev nD) (t : Fin cfg5.N) :
    (iblk5 V c 3 t : FVec Ideal S128 .f32) = (V c main_v28 : FVec Ideal S128 .f32) := by
  obtain ⟨-, -, -, -, -, -, e0, -⟩ := idx_facts t
  funext j
  unfold iblk5
  rw [View.read_apply]
  show V c main_v28 _ = V c main_v28 _
  refine congrArg (V c main_v28 : FVec Ideal S128 .f32) (funext fun a => Fin.ext ?_)
  match a with
  | ⟨0, _⟩ => show win5_3.index t (0 : Fin 1) * 128 + 1 * (j 0).val = (j 0).val; rw [e0]; omega

/-- The second weights' window holds the whole array at every point. -/
theorem blk_w2 (c : Dev nD) (t : Fin cfg5.N) :
    (iblk5 V c 4 t : FVec Ideal S128x128 .f32) = (V c main_v30 : FVec Ideal S128x128 .f32) := by
  obtain ⟨-, -, -, -, -, -, -, e0, e1, -⟩ := idx_facts t
  funext j
  unfold iblk5
  rw [View.read_apply]
  show V c main_v30 _ = V c main_v30 _
  refine congrArg (V c main_v30 : FVec Ideal S128x128 .f32) (funext fun a => Fin.ext ?_)
  match a with
  | ⟨0, _⟩ => show win5_4.index t (0 : Fin 2) * 128 + 1 * (j 0).val = (j 0).val; rw [e0]; omega
  | ⟨1, _⟩ => show win5_4.index t (1 : Fin 2) * 128 + 1 * (j 1).val = (j 1).val; rw [e1]; omega

/-- The second bias's window holds the whole array at every point. -/
theorem blk_b2 (c : Dev nD) (t : Fin cfg5.N) :
    (iblk5 V c 5 t : FVec Ideal S128 .f32) = (V c main_v32 : FVec Ideal S128 .f32) := by
  obtain ⟨-, -, -, -, -, -, -, -, -, e0, -⟩ := idx_facts t
  funext j
  unfold iblk5
  rw [View.read_apply]
  show V c main_v32 _ = V c main_v32 _
  refine congrArg (V c main_v32 : FVec Ideal S128 .f32) (funext fun a => Fin.ext ?_)
  match a with
  | ⟨0, _⟩ => show win5_5.index t (0 : Fin 1) * 128 + 1 * (j 0).val = (j 0).val; rw [e0]; omega

/-! ## From the blocks to the array -/

/-- What the region leaves in its output array: the perceptron of the arrays it finds. -/
abbrev target (c : Dev nD) : FVec Ideal S100000x128 .f32 :=
  Cert.Gnn.perceptron (V c main_v19) (V c main_v24) (V c main_v26) (V c main_v28) (V c main_v30) (V c main_v32)

/-- What point t writes back is rows 5000·t … 5000·t + 4999 of the perceptron of the whole arrays: an entry of the
    body's result depends only on its own row of the two row blocks. -/
theorem flushed_eq (c : Dev nD) (t : Fin cfg5.N) :
    (dat5 V c).flushed 6 t = ((cfg5.win 6).blk t).view.read (Elt Ideal) (target V c) := by
  show (cfg5.win 6).cut (grid5.coords t) ((dat5 V c).after 6 t) = _
  rw [after5_6]
  unfold out5_6
  rw [View.canon_unit_zero hz]
  simp only [View.ld_unit_zero (S := S5000x128) hz, View.ld_unit_zero (S := S128x128) hz, View.ld_unit_zero (S := S128) hz1]
  refine funext fun (j : S5000x128.Idx) => ?_
  obtain ⟨p, q, rfl⟩ : ∃ (p : Fin 5000) (q : Fin 128), j = ix2 p q := ⟨j 0, j 1, eq_ix2 j⟩
  have hN : cfg5.N = 20 := N_5
  have hr : 5000 * t.val + p.val < 100000 := by have := t.isLt; have := p.isLt; omega
  obtain ⟨-, -, -, -, -, -, -, -, -, -, e0, e1⟩ := idx_facts t
  show k5_pay1 (F := Ideal) (iblk5 V c 0 t) (iblk5 V c 1 t) (iblk5 V c 2 t) (iblk5 V c 3 t) (iblk5 V c 4 t) (iblk5 V c 5 t) (ix2 p q)
    = target V c (((cfg5.win 6).blk t).view.emb (ix2 p q))
  refine (pay_row (iblk5 V c 0 t) (iblk5 V c 1 t) (iblk5 V c 2 t) (iblk5 V c 3 t) (iblk5 V c 4 t) (iblk5 V c 5 t)
    (V c main_v19) (V c main_v24) (V c main_v26) (V c main_v28) (V c main_v30) (V c main_v32)
    (blk_w1 V c t) (blk_b1 V c t) (blk_w2 V c t) (blk_b2 V c t) p ⟨5000 * t.val + p.val, hr⟩
    (blk_x V c t p hr) (blk_a V c t p hr) q).trans ?_
  refine congrArg (target V c) (funext fun a => Fin.ext ?_)
  match a with
  | ⟨0, _⟩ => show 5000 * t.val + p.val = win5_6.index t (0 : Fin 2) * 5000 + 1 * p.val; rw [e0]; omega
  | ⟨1, _⟩ => show q.val = win5_6.index t (1 : Fin 2) * 128 + 1 * q.val; rw [e1]; omega

/-- An entry of the array is in point t's block iff each coordinate is in the block's range on its axis. -/
theorem mem_blk (t : Fin cfg5.N) (i : S100000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v33).slice (win5_6.rect t)).set ↔ _
  rw [View.set_slice_whole, Rect.mem_set_unit]
  exact Iff.rfl

/-- Every entry of the array is written back by some point: row r by point r / 5000. -/
theorem covered (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 :=
    ⟨⟨(i 0).val / 5000, Nat.lt_of_lt_of_eq (by omega : (i 0).val / 5000 < 20) hN.symm⟩, rfl⟩
  obtain ⟨-, -, -, -, -, -, -, -, -, -, e0, e1⟩ := idx_facts t
  refine ⟨t, flush5_6 t, ?_⟩
  rw [mem_blk]
  intro a
  match a with
  | ⟨0, _⟩ =>
    show win5_6.index t (0 : Fin 2) * 5000 ≤ (i 0).val ∧ (i 0).val < win5_6.index t (0 : Fin 2) * 5000 + 5000
    rw [e0, ht]; omega
  | ⟨1, _⟩ =>
    show win5_6.index t (1 : Fin 2) * 128 ≤ (i 1).val ∧ (i 1).val < win5_6.index t (1 : Fin 2) * 128 + 128
    rw [e1]; omega

end Mlp5

variable (V : (c : Dev nD) → (b : Ref sig .tc) → Buf (Elt Ideal) ((c : Thread nD τ).loc b))

/-- The output array after the region is the perceptron of the arrays the region finds: every point writes its
    rows of it, and the points' row blocks fill the array. -/
theorem region5_value (c : Dev nD) :
    (dat5 V c).arrAt 6 cfg5.N
      = Cert.Gnn.perceptron (V c main_v19) (V c main_v24) (V c main_v26) (V c main_v28) (V c main_v30) (V c main_v32) :=
  (dat5 V c).arrAt_eq_of_cover 6 (Mlp5.target V c) (fun t _ => Mlp5.flushed_eq V c t) (fun i => Mlp5.covered i)

end Cert.KernelIdeal.Hand

end
-- ==== Proof.Region6.lean ====
/-
  An add-and-clamp region: the edge messages of one round of message passing.  The region walks the 600000 edge
  rows in 100 blocks of 6000 rows.  At each block it adds the block of gathered source rows to the same block
  of the edge term, clamps the sum at zero, and writes the block back.  Block t of the output is rows
  6000·t … 6000·t + 5999 of all 128 columns, and block t of each summand is the same rows: an output entry
  depends only on the two summands' entries at its own row and column.  The blocks tile the array (row r lies
  in block r / 6000), so after the region the output array is, entry by entry, max(a + b, 0): the clamp at
  zero of the sum, as the reference writes it.  The zero is the same word on both sides, spread over a block
  on one side and over the whole array on the other.
-/
import proofs.«408839_j49065706390002_1_alg».proof.Proof.Gen.KernelIdeal.Frame
import proofs.«408839_j49065706390002_1_alg».proof.Proof.Stages
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## One entry: the clamped sum on both sides -/

/-- The body reads and writes whole blocks: offsets zero on both axes. -/
theorem zeroOff_r6 : (![0, 0] : Fin 2 → Nat) = fun _ => 0 := funext fun a => by fin_cases a <;> rfl

/-- An entry of the body's result: the two blocks' entries there, added, clamped at the zero word. -/
theorem blockEntry_r6 (x0 x1 : FVec Ideal S6000x128 .f32) (y : S6000x128.Idx) :
    k6_pay1 (F := Ideal) x0 x1 y = max (x0 y + x1 y) (Ideal.ofBits .f32 0x00000000#32) := by
  unfold k6_pay1
  rw [shapeCast_self x0, shapeCast_self x1]
  rfl

/-- An entry of the reference's clamp of a sum: the two arrays' entries there, added, clamped at the zero word. -/
theorem arrayEntry_r6 (A B : FVec Ideal Cert.ReferenceIdeal.S600000x128 .f32) (i : Cert.ReferenceIdeal.S600000x128.Idx) :
    Cert.Gnn.reluEdge (addf A B) i = max (A i + B i) (Ideal.ofBits .f32 0x00000000#32) := rfl

/-- So where the blocks' entries are the arrays' entries, the body's result is the reference's. -/
theorem entry_r6 (A B : FVec Ideal Cert.ReferenceIdeal.S600000x128 .f32) (x0 x1 : FVec Ideal S6000x128 .f32)
    (y : S6000x128.Idx) (i : Cert.ReferenceIdeal.S600000x128.Idx) (h0 : x0 y = A i) (h1 : x1 y = B i) :
    k6_pay1 (F := Ideal) x0 x1 y = Cert.Gnn.reluEdge (addf A B) i := by
  rw [blockEntry_r6, arrayEntry_r6, h0, h1]

/-! ## The blocks: block t of every window is rows 6000·t … of all columns -/

/-- The three windows' block indices at every point of the grid: the point's number on the rows, zero on the columns. -/
theorem blockIdx_r6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is block t of the clamped sum of the two summand arrays as the region finds them. -/
theorem written_r6 (c : Dev nD) (t : Fin cfg6.N) :
    (dat6 V c).flushed 2 t = ((cfg6.win 2).blk t).view.read (Elt Ideal)
      (Cert.Gnn.reluEdge (addf (V c main_v34 : FVec Ideal Cert.ReferenceIdeal.S600000x128 .f32) (V c main_v5))) := by
  show (cfg6.win 2).cut (grid6.coords t) ((dat6 V c).after 2 t) = _
  rw [after6_2]
  unfold out6_2
  rw [View.canon_unit_zero zeroOff_r6]
  simp only [View.ld_unit_zero (S := S6000x128) zeroOff_r6]
  obtain ⟨e00, e01, e10, e11, e20, e21⟩ := blockIdx_r6 t
  funext j
  have h0 : ((cfg6.win 0).blk t).view.emb j = ((cfg6.win 2).blk t).view.emb j := by
    funext a; apply Fin.ext
    match a with
    | ⟨0, _⟩ => show win6_0.index t (0 : Fin 2) * 6000 + 1 * (j 0).val = win6_2.index t (0 : Fin 2) * 6000 + 1 * (j 0).val; omega
    | ⟨1, _⟩ => show win6_0.index t (1 : Fin 2) * 128 + 1 * (j 1).val = win6_2.index t (1 : Fin 2) * 128 + 1 * (j 1).val; omega
  have h1 : ((cfg6.win 1).blk t).view.emb j = ((cfg6.win 2).blk t).view.emb j := by
    funext a; apply Fin.ext
    match a with
    | ⟨0, _⟩ => show win6_1.index t (0 : Fin 2) * 6000 + 1 * (j 0).val = win6_2.index t (0 : Fin 2) * 6000 + 1 * (j 0).val; omega
    | ⟨1, _⟩ => show win6_1.index t (1 : Fin 2) * 128 + 1 * (j 1).val = win6_2.index t (1 : Fin 2) * 128 + 1 * (j 1).val; omega
  show k6_pay1 (F := Ideal) (iblk6 V c 0 t) (iblk6 V c 1 t) ((cfg6.win 2).xinj (grid6.coords t) j)
    = Cert.Gnn.reluEdge (addf (V c main_v34 : FVec Ideal Cert.ReferenceIdeal.S600000x128 .f32) (V c main_v5))
        (((cfg6.win 2).blk t).view.emb j)
  refine entry_r6 (V c main_v34) (V c main_v5) (iblk6 V c 0 t) (iblk6 V c 1 t)
    ((cfg6.win 2).xinj (grid6.coords t) j) (((cfg6.win 2).blk t).view.emb j) ?_ ?_
  · show V c main_v34 (((cfg6.win 0).blk t).view.emb j) = V c main_v34 (((cfg6.win 2).blk t).view.emb j)
    rw [h0]
  · show V c main_v5 (((cfg6.win 1).blk t).view.emb j) = V c main_v5 (((cfg6.win 2).blk t).view.emb j)
    rw [h1]

/-! ## The cover: row r is in block r / 6000 -/

/-- An index of the array is in point t's block iff each coordinate is in the block's range on its axis. -/
theorem inBlock_r6 (t : Fin cfg6.N) (i : S600000x128.Idx) :
    i ∈ ((cfg6.win 2).blk t).view.set ↔ ∀ a : Fin 2, win6_2.index t a * S6000x128.size a ≤ (i a).val
      ∧ (i a).val < win6_2.index t a * S6000x128.size a + S6000x128.size a := by
  show i ∈ ((View.whole main_v35).slice (win6_2.rect t)).set ↔ _
  rw [View.set_slice_whole, Rect.mem_set_unit]
  exact Iff.rfl

/-- Every index of the array is in the block of some point that writes back: the point numbered by its row over 6000. -/
theorem covered_r6 (i : S600000x128.Idx) :
    ∃ t : Fin cfg6.N, (cfg6.win 2).flush t = true ∧ i ∈ ((cfg6.win 2).blk t).view.set := by
  have hi0 : (i 0).val < 600000 := (i 0).isLt
  have hi1 : (i 1).val < 128 := (i 1).isLt
  have hN : cfg6.N = 100 := N_6
  obtain ⟨t, ht⟩ : ∃ t : Fin cfg6.N, t.val = (i 0).val / 6000 := ⟨⟨(i 0).val / 6000, by rw [hN]; omega⟩, rfl⟩
  obtain ⟨-, -, -, -, e20, e21⟩ := blockIdx_r6 t
  refine ⟨t, flush6_2 t, ?_⟩
  rw [inBlock_r6]
  intro a
  match a with
  | ⟨0, _⟩ => show win6_2.index t (0 : Fin 2) * 6000 ≤ (i 0).val ∧ (i 0).val < win6_2.index t (0 : Fin 2) * 6000 + 6000; omega
  | ⟨1, _⟩ => show win6_2.index t (1 : Fin 2) * 128 ≤ (i 1).val ∧ (i 1).val < win6_2.index t (1 : Fin 2) * 128 + 128; omega

/-! ## The array after the region -/

/-- After the region the output array is the clamp at zero of the sum of the two summand arrays. -/
theorem region6_value (c : Dev nD) :
    (dat6 V c).arrAt 2 cfg6.N
      = Cert.Gnn.reluEdge (addf (V c main_v34 : FVec Ideal Cert.ReferenceIdeal.S600000x128 .f32) (V c main_v5)) :=
  (dat6 V c).arrAt_eq_of_cover 2
    (Cert.Gnn.reluEdge (addf (V c main_v34 : FVec Ideal Cert.ReferenceIdeal.S600000x128 .f32) (V c main_v5)))
    (fun t _ => written_r6 V c t) (fun i => covered_r6 i)

end Cert.KernelIdeal.Hand

end
-- ==== Proof.Region7.lean ====
/-
  One perceptron region of the network.  On a grid of 20 points, point t takes rows 5000·t … 5000·t + 4999 of the node
  rows and of the incoming sums, both weight matrices and both biases whole, and writes the same rows of the output.
  The body adds the two row blocks, multiplies by the first weights, adds the first bias spread over the rows and
  clamps at zero, then does the same with the second weights and bias.  Entry (p, q) of a block's result is a sum
  over the coordinates of row p alone, so it is entry (5000·t + p, q) of the same two layers applied to all 100000
  rows; the 20 row blocks fill the array, so the output array ends holding the perceptron of the arrays the region finds.
-/
import proofs.«408839_j49065706390002_1_alg».proof.Proof.Gen.KernelIdeal.Frame
import proofs.«408839_j49065706390002_1_alg».proof.Proof.Stages
import proofs.«408839_j49065706390002_1_alg».proof.Proof.LibPlainDot
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

namespace Mlp7

/-- Zero offsets on both axes of a matrix, and on the one axis of a vector. -/
theorem hz : (![0, 0] : Fin 2 → Nat) = fun _ => 0 := funext fun a => by fin_cases a <;> rfl
theorem hz1 : (![0] : Fin 1 → Nat) = fun _ => 0 := funext fun a => by fin_cases a <;> rfl

/-- The zero the clamp compares with, as an extended real. -/
abbrev zeroE : EReal := Ideal.ofBits .f32 0x00000000#32

/-! ## The arithmetic of one block of 5000 rows -/

/-- One affine layer on a block: the rows times the weights, plus the bias spread over the rows. -/
def affBlock (x : FVec Ideal S5000x128 .f32) (w : FVec Ideal S128x128 .f32) (b : FVec Ideal S128 .f32) : FVec Ideal S5000x128 .f32 :=
  addf (matmul dot_S5000x128_S128x128_S5000x128_1_0_0_1_n_n none (truncf .bf16 x bitsLt_bf16_f32) (truncf .bf16 w bitsLt_bf16_f32)
      (constant (F := Ideal) S5000x128 .f32 0x00000000#32))
    (broadcastTo S5000x128 (shapeCast S1x128 b shapeCasts_S128_S1x128) broadcasts_S1x128_S5000x128)

/-- The clamp at zero on a block. -/
def clampBlock (x : FVec Ideal S5000x128 .f32) : FVec Ideal S5000x128 .f32 :=
  maximumf x (broadcast S5000x128 (Scalar.ofBits (F := Ideal) .f32 0x00000000#32))

/-- The body's arithmetic is two affine layers, each clamped, on the sum of the two row blocks. -/
theorem pay_fold (x a : FVec Ideal S5000x128 .f32) (w1 : FVec Ideal S128x128 .f32) (b1 : FVec Ideal S128 .f32)
    (w2 : FVec Ideal S128x128 .f32) (b2 : FVec Ideal S128 .f32) :
    k7_pay1 (F := Ideal) x a w1 b1 w2 b2 = clampBlock (affBlock (clampBlock (affBlock (addf x a) w1 b1)) w2 b2) := by
  unfold k7_pay1 clampBlock affBlock
  simp only [shapeCast_self]

/-- An affine layer of a block at (p, q): row p against column q of the weights, plus entry q of the bias. -/
theorem affBlock_apply (x : FVec Ideal S5000x128 .f32) (w : FVec Ideal S128x128 .f32) (b : FVec Ideal S128 .f32) (p : Fin 5000) (q : Fin 128) :
    affBlock x w b (ix2 p q) = (∑ κ : Fin 128, x (ix2 p κ) * w (ix2 κ q)) + b (ix1 q) := by
  unfold affBlock
  refine (addf_apply _ _ _).trans ?_
  refine congrArg₂ (· + ·) ?_ ?_
  · exact PlainDot.matmul_zero_plain dot_S5000x128_S128x128_S5000x128_1_0_0_1_n_n ⟨rfl, rfl, rfl, rfl, rfl, rfl⟩ none
      (truncf .bf16 x bitsLt_bf16_f32) (truncf .bf16 w bitsLt_bf16_f32) p q
  · exact (broadcastTo_1b_ab_apply _ _ p q).trans (shapeCast_a_1a_apply b _ 0 q)

/-! ## The same layer over all 100000 rows, as the reference writes it -/

/-- The reference's affine layer at (r, q): row r against column q of the weights, plus entry q of the bias. -/
theorem affNode_apply (X : FVec Ideal S100000x128 .f32) (w : FVec Ideal S128x128 .f32) (b : FVec Ideal S128 .f32) (r : Fin 100000) (q : Fin 128) :
    Cert.Gnn.affNode X w b (ix2 r q) = (∑ κ : Fin 128, X (ix2 r κ) * w (ix2 κ q)) + b (ix1 q) := by
  unfold Cert.Gnn.affNode
  refine (addf_apply _ _ _).trans ?_
  refine congrArg₂ (· + ·) ?_ ?_
  · exact PlainDot.dotGeneral_plain Cert.ReferenceIdeal.dot_S100000x128_S128x128_S100000x128_1_0_0_1_n_n ⟨rfl, rfl, rfl, rfl, rfl, rfl⟩
      none .single X w r q
  · refine (broadcastInDim_apply _ _ _ (ix2 r q) (ix2 (0 : Fin 1) q) fun a => ?_).trans ?_
    · match a with
      | ⟨0, _⟩ => rfl
      | ⟨1, _⟩ => rfl
    · refine broadcastInDim_apply _ _ _ (ix2 (0 : Fin 1) q) (ix1 q) fun a => ?_
      match a with
      | ⟨0, _⟩ => rfl

/-! ## A row of the block against a row of the array -/

/-- A clamped affine layer depends, at a row, only on that row: where row p of the block is row r of the array, the
    block's layer at (p, q) is the array's layer at (r, q). -/
theorem layer_row (xb : FVec Ideal S5000x128 .f32) (X : FVec Ideal S100000x128 .f32) (w : FVec Ideal S128x128 .f32) (b : FVec Ideal S128 .f32)
    (p : Fin 5000) (r : Fin 100000) (h : ∀ κ : Fin 128, xb (ix2 p κ) = X (ix2 r κ)) (q : Fin 128) :
    clampBlock (affBlock xb w b) (ix2 p q) = Cert.Gnn.reluNode (Cert.Gnn.affNode X w b) (ix2 r q) := by
  show max (affBlock xb w b (ix2 p q)) zeroE = max (Cert.Gnn.affNode X w b (ix2 r q)) zeroE
  rw [affBlock_apply, affNode_apply]
  exact congrArg (fun s => max (s + b (ix1 q)) zeroE) (Finset.sum_congr rfl fun κ _ => by rw [h κ])

/-- The body's result at (p, q) of a block is the perceptron of the whole arrays at (r, q), where row p of each row
    block is row r of its array and the weights and biases are the arrays'. -/
theorem pay_row (xb ab : FVec Ideal S5000x128 .f32) (w1b : FVec Ideal S128x128 .f32) (b1b : FVec Ideal S128 .f32)
    (w2b : FVec Ideal S128x128 .f32) (b2b : FVec Ideal S128 .f32)
    (X A : FVec Ideal S100000x128 .f32) (W1 : FVec Ideal S128x128 .f32) (B1 : FVec Ideal S128 .f32)
    (W2 : FVec Ideal S128x128 .f32) (B2 : FVec Ideal S128 .f32)
    (hw1 : w1b = W1) (hb1 : b1b = B1) (hw2 : w2b = W2) (hb2 : b2b = B2)
    (p : Fin 5000) (r : Fin 100000) (hx : ∀ κ : Fin 128, xb (ix2 p κ) = X (ix2 r κ))
    (ha : ∀ κ : Fin 128, ab (ix2 p κ) = A (ix2 r κ)) (q : Fin 128) :
    k7_pay1 (F := Ideal) xb ab w1b b1b w2b b2b (ix2 p q) = Cert.Gnn.perceptron X A W1 B1 W2 B2 (ix2 r q) := by
  subst hw1 hb1 hw2 hb2
  refine (congrFun (pay_fold xb ab w1b b1b w2b b2b) (ix2 p q)).trans ?_
  unfold Cert.Gnn.perceptron
  refine layer_row _ _ w2b b2b p r (fun κ => ?_) q
  refine layer_row _ _ w1b b1b p r (fun κ' => ?_) κ
  show xb (ix2 p κ') + ab (ix2 p κ') = X (ix2 r κ') + A (ix2 r κ')
  rw [hx, ha]

/-! ## The windows' blocks as parts of the arrays the region finds -/

variable (V : (c : Dev nD) → (b : Ref sig .tc) → Buf (Elt Ideal) ((c : Thread nD τ).loc b))

/-- The block numbers at grid point t: the two row windows and the output are at block t of their rows, the weights
    and biases at their one block. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 1) = 0
    ∧ win7_4.index t (0 : Fin 2) = 0 ∧ win7_4.index t (1 : Fin 2) = 0
    ∧ win7_5.index t (0 : Fin 1) = 0
    ∧ win7_6.index t (0 : Fin 2) = t.val ∧ win7_6.index t (1 : Fin 2) = 0 :=
  (by decide +kernel : ∀ t : Fin grid7.N, _)

/-- Row p of the first row window's block at point t is row 5000·t + p of its array. -/
theorem blk_x (c : Dev nD) (t : Fin cfg7.N) (p : Fin 5000) (hr : 5000 * t.val + p.val < 100000) (κ : Fin 128) :
    (iblk7 V c 0 t : FVec Ideal S5000x128 .f32) (ix2 p κ)
      = (V c main_v33 : FVec Ideal S100000x128 .f32) (ix2 ⟨5000 * t.val + p.val, hr⟩ κ) := by
  obtain ⟨e0, e1, -⟩ := idx_facts t
  unfold iblk7
  rw [View.read_apply]
  show V c main_v33 _ = V c main_v33 _
  refine congrArg (V c main_v33 : FVec Ideal S100000x128 .f32) (funext fun a => Fin.ext ?_)
  match a with
  | ⟨0, _⟩ => show win7_0.index t (0 : Fin 2) * 5000 + 1 * p.val = 5000 * t.val + p.val; rw [e0]; omega
  | ⟨1, _⟩ => show win7_0.index t (1 : Fin 2) * 128 + 1 * κ.val = κ.val; rw [e1]; omega

/-- Row p of the second row window's block at point t is row 5000·t + p of its array. -/
theorem blk_a (c : Dev nD) (t : Fin cfg7.N) (p : Fin 5000) (hr : 5000 * t.val + p.val < 100000) (κ : Fin 128) :
    (iblk7 V c 1 t : FVec Ideal S5000x128 .f32) (ix2 p κ)
      = (V c main_v38 : FVec Ideal S100000x128 .f32) (ix2 ⟨5000 * t.val + p.val, hr⟩ κ) := by
  obtain ⟨-, -, e0, e1, -⟩ := idx_facts t
  unfold iblk7
  rw [View.read_apply]
  show V c main_v38 _ = V c main_v38 _
  refine congrArg (V c main_v38 : FVec Ideal S100000x128 .f32) (funext fun a => Fin.ext ?_)
  match a with
  | ⟨0, _⟩ => show win7_1.index t (0 : Fin 2) * 5000 + 1 * p.val = 5000 * t.val + p.val; rw [e0]; omega
  | ⟨1, _⟩ => show win7_1.index t (1 : Fin 2) * 128 + 1 * κ.val = κ.val; rw [e1]; omega

/-- The first weights' window holds the whole array at every point. -/
theorem blk_w1 (c : Dev nD) (t : Fin cfg7.N) :
    (iblk7 V c 2 t : FVec Ideal S128x128 .f32) = (V c main_v40 : FVec Ideal S128x128 .f32) := by
  obtain ⟨-, -, -, -, e0, e1, -⟩ := idx_facts t
  funext j
  unfold iblk7
  rw [View.read_apply]
  show V c main_v40 _ = V c main_v40 _
  refine congrArg (V c main_v40 : FVec Ideal S128x128 .f32) (funext fun a => Fin.ext ?_)
  match a with
  | ⟨0, _⟩ => show win7_2.index t (0 : Fin 2) * 128 + 1 * (j 0).val = (j 0).val; rw [e0]; omega
  | ⟨1, _⟩ => show win7_2.index t (1 : Fin 2) * 128 + 1 * (j 1).val = (j 1).val; rw [e1]; omega

/-- The first bias's window holds the whole array at every point. -/
theorem blk_b1 (c : Dev nD) (t : Fin cfg7.N) :
    (iblk7 V c 3 t : FVec Ideal S128 .f32) = (V c main_v42 : FVec Ideal S128 .f32) := by
  obtain ⟨-, -, -, -, -, -, e0, -⟩ := idx_facts t
  funext j
  unfold iblk7
  rw [View.read_apply]
  show V c main_v42 _ = V c main_v42 _
  refine congrArg (V c main_v42 : FVec Ideal S128 .f32) (funext fun a => Fin.ext ?_)
  match a with
  | ⟨0, _⟩ => show win7_3.index t (0 : Fin 1) * 128 + 1 * (j 0).val = (j 0).val; rw [e0]; omega

/-- The second weights' window holds the whole array at every point. -/
theorem blk_w2 (c : Dev nD) (t : Fin cfg7.N) :
    (iblk7 V c 4 t : FVec Ideal S128x128 .f32) = (V c main_v44 : FVec Ideal S128x128 .f32) := by
  obtain ⟨-, -, -, -, -, -, -, e0, e1, -⟩ := idx_facts t
  funext j
  unfold iblk7
  rw [View.read_apply]
  show V c main_v44 _ = V c main_v44 _
  refine congrArg (V c main_v44 : FVec Ideal S128x128 .f32) (funext fun a => Fin.ext ?_)
  match a with
  | ⟨0, _⟩ => show win7_4.index t (0 : Fin 2) * 128 + 1 * (j 0).val = (j 0).val; rw [e0]; omega
  | ⟨1, _⟩ => show win7_4.index t (1 : Fin 2) * 128 + 1 * (j 1).val = (j 1).val; rw [e1]; omega

/-- The second bias's window holds the whole array at every point. -/
theorem blk_b2 (c : Dev nD) (t : Fin cfg7.N) :
    (iblk7 V c 5 t : FVec Ideal S128 .f32) = (V c main_v46 : FVec Ideal S128 .f32) := by
  obtain ⟨-, -, -, -, -, -, -, -, -, e0, -⟩ := idx_facts t
  funext j
  unfold iblk7
  rw [View.read_apply]
  show V c main_v46 _ = V c main_v46 _
  refine congrArg (V c main_v46 : FVec Ideal S128 .f32) (funext fun a => Fin.ext ?_)
  match a with
  | ⟨0, _⟩ => show win7_5.index t (0 : Fin 1) * 128 + 1 * (j 0).val = (j 0).val; rw [e0]; omega

/-! ## From the blocks to the array -/

/-- What the region leaves in its output array: the perceptron of the arrays it finds. -/
abbrev target (c : Dev nD) : FVec Ideal S100000x128 .f32 :=
  Cert.Gnn.perceptron (V c main_v33) (V c main_v38) (V c main_v40) (V c main_v42) (V c main_v44) (V c main_v46)

/-- What point t writes back is rows 5000·t … 5000·t + 4999 of the perceptron of the whole arrays: an entry of the
    body's result depends only on its own row of the two row blocks. -/
theorem flushed_eq (c : Dev nD) (t : Fin cfg7.N) :
    (dat7 V c).flushed 6 t = ((cfg7.win 6).blk t).view.read (Elt Ideal) (target V c) := by
  show (cfg7.win 6).cut (grid7.coords t) ((dat7 V c).after 6 t) = _
  rw [after7_6]
  unfold out7_6
  rw [View.canon_unit_zero hz]
  simp only [View.ld_unit_zero (S := S5000x128) hz, View.ld_unit_zero (S := S128x128) hz, View.ld_unit_zero (S := S128) hz1]
  refine funext fun (j : S5000x128.Idx) => ?_
  obtain ⟨p, q, rfl⟩ : ∃ (p : Fin 5000) (q : Fin 128), j = ix2 p q := ⟨j 0, j 1, eq_ix2 j⟩
  have hN : cfg7.N = 20 := N_7
  have hr : 5000 * t.val + p.val < 100000 := by have := t.isLt; have := p.isLt; omega
  obtain ⟨-, -, -, -, -, -, -, -, -, -, e0, e1⟩ := idx_facts t
  show k7_pay1 (F := Ideal) (iblk7 V c 0 t) (iblk7 V c 1 t) (iblk7 V c 2 t) (iblk7 V c 3 t) (iblk7 V c 4 t) (iblk7 V c 5 t) (ix2 p q)
    = target V c (((cfg7.win 6).blk t).view.emb (ix2 p q))
  refine (pay_row (iblk7 V c 0 t) (iblk7 V c 1 t) (iblk7 V c 2 t) (iblk7 V c 3 t) (iblk7 V c 4 t) (iblk7 V c 5 t)
    (V c main_v33) (V c main_v38) (V c main_v40) (V c main_v42) (V c main_v44) (V c main_v46)
    (blk_w1 V c t) (blk_b1 V c t) (blk_w2 V c t) (blk_b2 V c t) p ⟨5000 * t.val + p.val, hr⟩
    (blk_x V c t p hr) (blk_a V c t p hr) q).trans ?_
  refine congrArg (target V c) (funext fun a => Fin.ext ?_)
  match a with
  | ⟨0, _⟩ => show 5000 * t.val + p.val = win7_6.index t (0 : Fin 2) * 5000 + 1 * p.val; rw [e0]; omega
  | ⟨1, _⟩ => show q.val = win7_6.index t (1 : Fin 2) * 128 + 1 * q.val; rw [e1]; omega

/-- An entry of the array is in point t's block iff each coordinate is in the block's range on its axis. -/
theorem mem_blk (t : Fin cfg7.N) (i : S100000x128.Idx) :
    i ∈ ((cfg7.win 6).blk t).view.set ↔ ∀ a : Fin 2, win7_6.index t a * S5000x128.size a ≤ (i a).val
      ∧ (i a).val < win7_6.index t a * S5000x128.size a + S5000x128.size a := by
  show i ∈ ((View.whole main_v47).slice (win7_6.rect t)).set ↔ _
  rw [View.set_slice_whole, Rect.mem_set_unit]
  exact Iff.rfl

/-- Every entry of the array is written back by some point: row r by point r / 5000. -/
theorem covered (i : S100000x128.Idx) :
    ∃ t : Fin cfg7.N, (cfg7.win 6).flush t = true ∧ i ∈ ((cfg7.win 6).blk t).view.set := by
  have hi0 : (i 0).val < 100000 := (i 0).isLt
  have hi1 : (i 1).val < 128 := (i 1).isLt
  have hN : cfg7.N = 20 := N_7
  obtain ⟨t, ht⟩ : ∃ t : Fin cfg7.N, t.val = (i 0).val / 5000 :=
    ⟨⟨(i 0).val / 5000, Nat.lt_of_lt_of_eq (by omega : (i 0).val / 5000 < 20) hN.symm⟩, rfl⟩
  obtain ⟨-, -, -, -, -, -, -, -, -, -, e0, e1⟩ := idx_facts t
  refine ⟨t, flush7_6 t, ?_⟩
  rw [mem_blk]
  intro a
  match a with
  | ⟨0, _⟩ =>
    show win7_6.index t (0 : Fin 2) * 5000 ≤ (i 0).val ∧ (i 0).val < win7_6.index t (0 : Fin 2) * 5000 + 5000
    rw [e0, ht]; omega
  | ⟨1, _⟩ =>
    show win7_6.index t (1 : Fin 2) * 128 ≤ (i 1).val ∧ (i 1).val < win7_6.index t (1 : Fin 2) * 128 + 128
    rw [e1]; omega

end Mlp7

variable (V : (c : Dev nD) → (b : Ref sig .tc) → Buf (Elt Ideal) ((c : Thread nD τ).loc b))

/-- The output array after the region is the perceptron of the arrays the region finds: every point writes its
    rows of it, and the points' row blocks fill the array. -/
theorem region7_value (c : Dev nD) :
    (dat7 V c).arrAt 6 cfg7.N
      = Cert.Gnn.perceptron (V c main_v33) (V c main_v38) (V c main_v40) (V c main_v42) (V c main_v44) (V c main_v46) :=
  (dat7 V c).arrAt_eq_of_cover 6 (Mlp7.target V c) (fun t _ => Mlp7.flushed_eq V c t) (fun i => Mlp7.covered i)

end Cert.KernelIdeal.Hand

end
-- ==== Proof.TakeMask.lean ====
/-
  The kernel program's three row takes are the reference's three gathers when every start index names a row of the
  table.  A take tests each row's start index against the table (0 ≤ start ≤ height − 1, as signed words), reduces the
  test with "and" over the start column's one entry per row, spreads it over the row's 128 columns, and keeps the
  gathered row where the test holds and a fill row elsewhere.  For an index that is no less than 0 the "negative index
  counts from the end" branch is not taken, so the start index is the index itself; with the index below the height the
  test holds on every row, an "and" over ones from the initial one is one, and the selection keeps every gathered row.
  The gathered rows are the same operation on the same start column in both programs.
-/
import proofs.«408839_j49065706390002_1_alg».proof.Proof.TakeDefs
import proofs.«408839_j49065706390002_1_alg».proof.Proof.Stages
import Idealize.ShloMosaic.Lib.ReduceAll
import Idealize.ShloMosaic.Lib.ValueIdx

set_option maxRecDepth 16384

noncomputable section

namespace Cert.KernelIdeal.Hand.TakeMask

open Idealize.ShloMosaic

/-! ## Words -/

/-- A left fold by "and" from one over one-bit words that are all one is one. -/
theorem foldl_andi_ones {ι : Type} (f : ι → BitVec 1) (hf : ∀ i, f i = 1#1) :
    ∀ l : List ι, l.foldl (fun r n => IntOp.andi r (f n)) 1#1 = 1#1
  | [] => rfl
  | a :: l => by
    show List.foldl (fun r n => IntOp.andi r (f n)) (IntOp.andi 1#1 (f a)) l = 1#1
    rw [hf a, show IntOp.andi (1#1 : BitVec 1) 1#1 = 1#1 from by decide]
    exact foldl_andi_ones f hf l

/-- A reduction by "and" of an array of ones, from the initial one, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-- For a word that is no less than 0 signed, "the word plus the height where the word is negative, else the word" is the word. -/
theorem wrap_of_nonneg (w N : BitVec 32) (h : 0 ≤ w.toInt) :
    Scalar.select (IntOp.cmpi .slt w 0#32) (IntOp.addi w N) w = w := by
  have e : IntOp.cmpi .slt w 0#32 = 0#1 := by
    apply ValueIdx.eq_zero_of_ne_one
    rw [IntOp.cmpi_slt, show (0#32 : BitVec 32).toInt = 0 from by decide]
    omega
  exact (congrArg (fun c => Scalar.select c (IntOp.addi w N) w) e).trans (ValueIdx.select_zero _ _)

/-- The row test 0 ≤ w ≤ M (two signed compares, and-ed) holds of a word in that range. -/
theorem test_of_range (w M : BitVec 32) (h0 : 0 ≤ w.toInt) (h1 : w.toInt ≤ M.toInt) :
    IntOp.andi (IntOp.cmpi .sge w 0#32) (IntOp.cmpi .sle w M) = 1#1 := by
  rw [IntOp.andi_eq_one, IntOp.cmpi_sge, IntOp.cmpi_sle, show (0#32 : BitVec 32).toInt = 0 from by decide]
  exact ⟨h0, h1⟩

/-! ## Arrays -/

/-- A broadcast of an array whose every entry is c reads c everywhere. -/
theorem bcast_const {α : Type} {s1 sc : Shape} (v : s1.Idx → α) (dims : Fin s1.rank → Fin sc.rank)
    (hb : s1.BroadcastsInDim sc dims) (c : α) (hv : ∀ k, v k = c) (i : sc.Idx) :
    broadcastInDim sc dims hb v i = c := by
  show v _ = c; exact hv _

/-- A broadcast of an array of words that all lie in [lo, hi) signed reads such a word everywhere. -/
theorem bcast_range {s1 sc : Shape} (v : IVec s1 32) (dims : Fin s1.rank → Fin sc.rank)
    (hb : s1.BroadcastsInDim sc dims) (lo hi : ℤ) (hv : ∀ k, lo ≤ (v k).toInt ∧ (v k).toInt < hi) (i : sc.Idx) :
    lo ≤ (broadcastInDim sc dims hb v i).toInt ∧ (broadcastInDim sc dims hb v i).toInt < hi := by
  show lo ≤ (v _).toInt ∧ (v _).toInt < hi; exact hv _

/-- Indices that are no less than 0: wrapping the negative ones changes nothing. -/
theorem wrapped_eq {s0 s1 : Shape} (d0 : Fin s0.rank → Fin s1.rank) (hb0 : s0.BroadcastsInDim s1 d0) (s : IVec s1 32)
    (N : BitVec 32) (hs : ∀ k, 0 ≤ (s k).toInt) :
    select (cmpi .slt s (broadcastInDim s1 d0 hb0 (constantI s0 32 0#32)))
      (addi s (broadcastInDim s1 d0 hb0 (constantI s0 32 N))) s = s := by
  funext k
  show Scalar.select (IntOp.cmpi .slt (s k) 0#32) (IntOp.addi (s k) N) (s k) = s k
  exact wrap_of_nonneg _ _ (hs k)

/-- The column of start indices made of indices in [0, B) holds words in [0, B). -/
theorem starts_range {s0 s1 sc : Shape} (d0 : Fin s0.rank → Fin s1.rank) (hb0 : s0.BroadcastsInDim s1 d0)
    (dims : Fin s1.rank → Fin sc.rank) (hb : s1.BroadcastsInDim sc dims) (s : IVec s1 32) (N : BitVec 32) (B : ℤ)
    (hs : ∀ k, 0 ≤ (s k).toInt ∧ (s k).toInt < B) (i : sc.Idx) :
    0 ≤ (broadcastInDim sc dims hb (select (cmpi .slt s (broadcastInDim s1 d0 hb0 (constantI s0 32 0#32)))
        (addi s (broadcastInDim s1 d0 hb0 (constantI s0 32 N))) s) i).toInt
    ∧ (broadcastInDim sc dims hb (select (cmpi .slt s (broadcastInDim s1 d0 hb0 (constantI s0 32 0#32)))
        (addi s (broadcastInDim s1 d0 hb0 (constantI s0 32 N))) s) i).toInt < B := by
  rw [wrapped_eq d0 hb0 s N (fun k => (hs k).1)]
  exact bcast_range s dims hb 0 B hs i

/-- THE ROW TEST. When every start index st i has 0 ≤ st i ≤ M signed, the test (0 ≤ st, st ≤ M, and-ed, reduced by
    "and" from one, spread over the result) is one everywhere, and the selection on it keeps its first operand. -/
theorem select_rowTest {α : Type} {s0 s2 s3 sc sr so u : Shape} {axes : List (Fin sc.rank)}
    (d0 : Fin s0.rank → Fin sc.rank) (hb0 : s0.BroadcastsInDim sc d0)
    (d1 : Fin s2.rank → Fin sc.rank) (hb1 : s2.BroadcastsInDim sc d1)
    (d2 : Fin s3.rank → Fin s2.rank) (hb2 : s3.BroadcastsInDim s2 d2)
    (st : IVec sc 32) (M : BitVec 32) (hR : sc.ReducesTo axes sr) (hu : 0 < u.numel)
    (dims : Fin sr.rank → Fin so.rank) (hb : sr.BroadcastsInDim so dims) (a b : so.Idx → α)
    (hst : ∀ i, 0 ≤ (st i).toInt ∧ (st i).toInt ≤ M.toInt) :
    select (broadcastInDim so dims hb (Host.reduce IntOp.andi
      (andi (cmpi .sge st (broadcastInDim sc d0 hb0 (constantI s0 32 0#32)))
        (cmpi .sle st (broadcastInDim sc d1 hb1 (broadcastInDim s2 d2 hb2 (constantI s3 32 M)))))
      (constantI u 1 1#1) hR hu)) a b = a := by
  funext j
  have e : broadcastInDim so dims hb (Host.reduce IntOp.andi
      (andi (cmpi .sge st (broadcastInDim sc d0 hb0 (constantI s0 32 0#32)))
        (cmpi .sle st (broadcastInDim sc d1 hb1 (broadcastInDim s2 d2 hb2 (constantI s3 32 M)))))
      (constantI u 1 1#1) hR hu) j = 1#1 := by
    refine bcast_const _ dims hb 1#1 (fun k => ?_) j
    refine reduce_andi_ones _ _ hR hu (fun i => ?_) rfl k
    show IntOp.andi (IntOp.cmpi .sge (st i) 0#32) (IntOp.cmpi .sle (st i) M) = 1#1
    exact test_of_range _ _ (hst i).1 (hst i).2
  exact (congrArg (fun c => Scalar.select c (a j) (b j)) e).trans (ValueIdx.select_one _ _)

end Cert.KernelIdeal.Hand.TakeMask

namespace Cert.KernelIdeal.Hand

open Cert.KernelIdeal
open Idealize.ShloMosaic

/-- Edge sources that name rows of the node table: the take is the reference's gather of the source rows. -/
theorem takeEdge_eq (x : FVec Ideal S100000x128 .f32) (s : IVec S600000 32)
    (hs : ∀ i, 0 ≤ (s i).toInt ∧ (s i).toInt < 100000) : takeEdge x s = Cert.Gnn.gatherSrc x s := by
  have hst : ∀ i, 0 ≤ (takeEdgeStarts s i).toInt ∧ (takeEdgeStarts s i).toInt ≤ (99999#32 : BitVec 32).toInt := by
    intro i
    have h : 0 ≤ (takeEdgeStarts s i).toInt ∧ (takeEdgeStarts s i).toInt < 100000 :=
      TakeMask.starts_range _ _ _ _ s 100000#32 100000 hs i
    have h1 := h.1
    have h2 := h.2
    rw [show (99999#32 : BitVec 32).toInt = 99999 from by decide]
    exact ⟨h1, by omega⟩
  unfold takeEdge
  refine (TakeMask.select_rowTest _ _ _ _ _ _ (takeEdgeStarts s) 99999#32 _ _ _ _ _ _ hst).trans ?_
  rfl

/-- Pooled node numbers that name rows of the node table: the take is the reference's gather of the pooled rows. -/
theorem takePool_eq (x : FVec Ideal S100000x128 .f32) (s : IVec S262144 32)
    (hs : ∀ i, 0 ≤ (s i).toInt ∧ (s i).toInt < 100000) : takePool x s = Cert.Gnn.gatherPool x s := by
  have hst : ∀ i, 0 ≤ (takePoolStarts s i).toInt ∧ (takePoolStarts s i).toInt ≤ (99999#32 : BitVec 32).toInt := by
    intro i
    have h : 0 ≤ (takePoolStarts s i).toInt ∧ (takePoolStarts s i).toInt < 100000 :=
      TakeMask.starts_range _ _ _ _ s 100000#32 100000 hs i
    have h1 := h.1
    have h2 := h.2
    rw [show (99999#32 : BitVec 32).toInt = 99999 from by decide]
    exact ⟨h1, by omega⟩
  unfold takePool
  refine (TakeMask.select_rowTest _ _ _ _ _ _ (takePoolStarts s) 99999#32 _ _ _ _ _ _ hst).trans ?_
  rfl

/-- Candidates' graph numbers that name rows of the per-graph table: the take is the reference's gather of the graph rows. -/
theorem takeGraph_eq (t : FVec Ideal S16x128 .f32) (s : IVec S8192 32)
    (hs : ∀ i, 0 ≤ (s i).toInt ∧ (s i).toInt < 16) : takeGraph t s = Cert.Gnn.gatherGraph t s := by
  have hst : ∀ i, 0 ≤ (takeGraphStarts s i).toInt ∧ (takeGraphStarts s i).toInt ≤ (15#32 : BitVec 32).toInt := by
    intro i
    have h : 0 ≤ (takeGraphStarts s i).toInt ∧ (takeGraphStarts s i).toInt < 16 :=
      TakeMask.starts_range _ _ _ _ s 16#32 16 hs i
    have h1 := h.1
    have h2 := h.2
    rw [show (15#32 : BitVec 32).toInt = 15 from by decide]
    exact ⟨h1, by omega⟩
  unfold takeGraph
  refine (TakeMask.select_rowTest _ _ _ _ _ _ (takeGraphStarts s) 15#32 _ _ _ _ _ _ hst).trans ?_
  rfl

end Cert.KernelIdeal.Hand

end
-- ==== Proof.ChainRounds.lean ====
import proofs.«408839_j49065706390002_1_alg».proof.Proof.ChainStart
import proofs.«408839_j49065706390002_1_alg».proof.Proof.Region2
import proofs.«408839_j49065706390002_1_alg».proof.Proof.Region3
import proofs.«408839_j49065706390002_1_alg».proof.Proof.Region4
import proofs.«408839_j49065706390002_1_alg».proof.Proof.Region5
import proofs.«408839_j49065706390002_1_alg».proof.Proof.Region6
import proofs.«408839_j49065706390002_1_alg».proof.Proof.Region7
import proofs.«408839_j49065706390002_1_alg».proof.Proof.TakeMask

/-! The kernel program's node rows after each round.  A round reads four segment boundaries: a host stretch takes
    the source rows of the node table; a kernel region adds the edge term and clamps at zero; a host stretch sums the
    messages at their targets and cuts the round's layer out of the stacked weights; a kernel region applies the
    perceptron to "own row + incoming sum".  Every buffer a later segment reads is either written by the segment
    just before it or kept since an earlier one. -/

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ### Round 1 -/

/-- The source rows of the node table, one per edge: every source is a row of the table, so the fill row is never taken. -/
theorem take1_W4 (hsrc : SrcInRange m) (c : Dev nD) : W4 m ρ c (Proc.devRef .tc main_v6) = Cert.Gnn.gatherSrc (Cert.Gnn.x0 (A m c main_arg0) (A m c main_arg8) (A m c main_arg9)) (Cert.Gnn.srcOf (A m c main_arg1)) := by
  refine (read_hostOps2_v6 (W3 m ρ c)).trans ?_
  rw [keep_v4_W3 m ρ c, x0_W2 m ρ c, keep_v1_W3 m ρ c, src_W1 m ρ c]
  exact takeEdge_eq _ _ (hsrc c)

/-- The messages: source row plus edge term, clamped at zero. -/
theorem msg1_W5 (hsrc : SrcInRange m) (c : Dev nD) : W5 m ρ c (Proc.devRef .tc main_v7) = Cert.Gnn.message (Cert.Gnn.x0 (A m c main_arg0) (A m c main_arg8) (A m c main_arg9)) (Cert.Gnn.edgeTerm (A m c main_arg2) (A m c main_arg10) (A m c main_arg11)) (Cert.Gnn.srcOf (A m c main_arg1)) := by
  refine (W5_arr m ρ c 2).trans ((region2_value (V4 m ρ) c).trans ?_)
  show Cert.Gnn.reluEdge (addf (W4 m ρ c (Proc.devRef .tc main_v6)) (W4 m ρ c (Proc.devRef .tc main_v5))) = _
  rw [take1_W4 m ρ hsrc c, keep_v5_W4 m ρ c, e_W3 m ρ c]
  rfl

/-- The messages summed at their targets. -/
theorem aggr1_W6 (hsrc : SrcInRange m) (c : Dev nD) : W6 m ρ c (Proc.devRef .tc main_v10) = Cert.Gnn.sumInto (Cert.Gnn.message (Cert.Gnn.x0 (A m c main_arg0) (A m c main_arg8) (A m c main_arg9)) (Cert.Gnn.edgeTerm (A m c main_arg2) (A m c main_arg10) (A m c main_arg11)) (Cert.Gnn.srcOf (A m c main_arg1))) (Cert.Gnn.dstOf (A m c main_arg1)) := by
  refine (read_hostOps3_v10 (W5 m ρ c)).trans ?_
  rw [msg1_W5 m ρ hsrc c, keep_v3_W5 m ρ c, dst_W1 m ρ c]

/-- The round's layer of the stacked weights and biases. -/
theorem w1_1_W6 (c : Dev nD) : W6 m ρ c (Proc.devRef .tc main_v12) = Cert.Gnn.w0 (A m c main_arg12) := by
  refine (read_hostOps3_v12 (W5 m ρ c)).trans ?_
  rw [keep_arg12_W5 m ρ c]
theorem b1_1_W6 (c : Dev nD) : W6 m ρ c (Proc.devRef .tc main_v14) = Cert.Gnn.b0 (A m c main_arg13) := by
  refine (read_hostOps3_v14 (W5 m ρ c)).trans ?_
  rw [keep_arg13_W5 m ρ c]
theorem w2_1_W6 (c : Dev nD) : W6 m ρ c (Proc.devRef .tc main_v16) = Cert.Gnn.w0 (A m c main_arg14) := by
  refine (read_hostOps3_v16 (W5 m ρ c)).trans ?_
  rw [keep_arg14_W5 m ρ c]
theorem b2_1_W6 (c : Dev nD) : W6 m ρ c (Proc.devRef .tc main_v18) = Cert.Gnn.b0 (A m c main_arg15) := by
  refine (read_hostOps3_v18 (W5 m ρ c)).trans ?_
  rw [keep_arg15_W5 m ρ c]

/-- The node rows after the round's perceptron. -/
theorem x1_W7 (hsrc : SrcInRange m) (c : Dev nD) : W7 m ρ c (Proc.devRef .tc main_v19) = (Cert.Gnn.x1 (A m c main_arg0) (A m c main_arg1) (A m c main_arg2) (A m c main_arg8) (A m c main_arg9) (A m c main_arg10) (A m c main_arg11) (A m c main_arg12) (A m c main_arg13) (A m c main_arg14) (A m c main_arg15)) := by
  refine (W7_arr m ρ c 6).trans ((region3_value (V6 m ρ) c).trans ?_)
  show Cert.Gnn.perceptron (W6 m ρ c (Proc.devRef .tc main_v4)) (W6 m ρ c (Proc.devRef .tc main_v10))
    (W6 m ρ c (Proc.devRef .tc main_v12)) (W6 m ρ c (Proc.devRef .tc main_v14))
    (W6 m ρ c (Proc.devRef .tc main_v16)) (W6 m ρ c (Proc.devRef .tc main_v18)) = _
  rw [keep_v4_W6 m ρ c, x0_W2 m ρ c, aggr1_W6 m ρ hsrc c, w1_1_W6 m ρ c, b1_1_W6 m ρ c, w2_1_W6 m ρ c, b2_1_W6 m ρ c]
  rfl

/-! ### Round 2 -/

/-- The source rows of the node table, one per edge: every source is a row of the table, so the fill row is never taken. -/
theorem take2_W8 (hsrc : SrcInRange m) (c : Dev nD) : W8 m ρ c (Proc.devRef .tc main_v20) = Cert.Gnn.gatherSrc (Cert.Gnn.x1 (A m c main_arg0) (A m c main_arg1) (A m c main_arg2) (A m c main_arg8) (A m c main_arg9) (A m c main_arg10) (A m c main_arg11) (A m c main_arg12) (A m c main_arg13) (A m c main_arg14) (A m c main_arg15)) (Cert.Gnn.srcOf (A m c main_arg1)) := by
  refine (read_hostOps4_v20 (W7 m ρ c)).trans ?_
  rw [x1_W7 m ρ hsrc c, keep_v1_W7 m ρ c, src_W1 m ρ c]
  exact takeEdge_eq _ _ (hsrc c)

/-- The messages: source row plus edge term, clamped at zero. -/
theorem msg2_W9 (hsrc : SrcInRange m) (c : Dev nD) : W9 m ρ c (Proc.devRef .tc main_v21) = Cert.Gnn.message (Cert.Gnn.x1 (A m c main_arg0) (A m c main_arg1) (A m c main_arg2) (A m c main_arg8) (A m c main_arg9) (A m c main_arg10) (A m c main_arg11) (A m c main_arg12) (A m c main_arg13) (A m c main_arg14) (A m c main_arg15)) (Cert.Gnn.edgeTerm (A m c main_arg2) (A m c main_arg10) (A m c main_arg11)) (Cert.Gnn.srcOf (A m c main_arg1)) := by
  refine (W9_arr m ρ c 2).trans ((region4_value (V8 m ρ) c).trans ?_)
  show Cert.Gnn.reluEdge (addf (W8 m ρ c (Proc.devRef .tc main_v20)) (W8 m ρ c (Proc.devRef .tc main_v5))) = _
  rw [take2_W8 m ρ hsrc c, keep_v5_W8 m ρ c, e_W3 m ρ c]
  rfl

/-- The messages summed at their targets. -/
theorem aggr2_W10 (hsrc : SrcInRange m) (c : Dev nD) : W10 m ρ c (Proc.devRef .tc main_v24) = Cert.Gnn.sumInto (Cert.Gnn.message (Cert.Gnn.x1 (A m c main_arg0) (A m c main_arg1) (A m c main_arg2) (A m c main_arg8) (A m c main_arg9) (A m c main_arg10) (A m c main_arg11) (A m c main_arg12) (A m c main_arg13) (A m c main_arg14) (A m c main_arg15)) (Cert.Gnn.edgeTerm (A m c main_arg2) (A m c main_arg10) (A m c main_arg11)) (Cert.Gnn.srcOf (A m c main_arg1))) (Cert.Gnn.dstOf (A m c main_arg1)) := by
  refine (read_hostOps5_v24 (W9 m ρ c)).trans ?_
  rw [msg2_W9 m ρ hsrc c, keep_v3_W9 m ρ c, dst_W1 m ρ c]

/-- The round's layer of the stacked weights and biases. -/
theorem w1_2_W10 (c : Dev nD) : W10 m ρ c (Proc.devRef .tc main_v26) = Cert.Gnn.w1 (A m c main_arg12) := by
  refine (read_hostOps5_v26 (W9 m ρ c)).trans ?_
  rw [keep_arg12_W9 m ρ c]
theorem b1_2_W10 (c : Dev nD) : W10 m ρ c (Proc.devRef .tc main_v28) = Cert.Gnn.b1 (A m c main_arg13) := by
  refine (read_hostOps5_v28 (W9 m ρ c)).trans ?_
  rw [keep_arg13_W9 m ρ c]
theorem w2_2_W10 (c : Dev nD) : W10 m ρ c (Proc.devRef .tc main_v30) = Cert.Gnn.w1 (A m c main_arg14) := by
  refine (read_hostOps5_v30 (W9 m ρ c)).trans ?_
  rw [keep_arg14_W9 m ρ c]
theorem b2_2_W10 (c : Dev nD) : W10 m ρ c (Proc.devRef .tc main_v32) = Cert.Gnn.b1 (A m c main_arg15) := by
  refine (read_hostOps5_v32 (W9 m ρ c)).trans ?_
  rw [keep_arg15_W9 m ρ c]

/-- The node rows after the round's perceptron. -/
theorem x2_W11 (hsrc : SrcInRange m) (c : Dev nD) : W11 m ρ c (Proc.devRef .tc main_v33) = (Cert.Gnn.x2 (A m c main_arg0) (A m c main_arg1) (A m c main_arg2) (A m c main_arg8) (A m c main_arg9) (A m c main_arg10) (A m c main_arg11) (A m c main_arg12) (A m c main_arg13) (A m c main_arg14) (A m c main_arg15)) := by
  refine (W11_arr m ρ c 6).trans ((region5_value (V10 m ρ) c).trans ?_)
  show Cert.Gnn.perceptron (W10 m ρ c (Proc.devRef .tc main_v19)) (W10 m ρ c (Proc.devRef .tc main_v24))
    (W10 m ρ c (Proc.devRef .tc main_v26)) (W10 m ρ c (Proc.devRef .tc main_v28))
    (W10 m ρ c (Proc.devRef .tc main_v30)) (W10 m ρ c (Proc.devRef .tc main_v32)) = _
  rw [keep_v19_W10 m ρ c, x1_W7 m ρ hsrc c, aggr2_W10 m ρ hsrc c, w1_2_W10 m ρ c, b1_2_W10 m ρ c, w2_2_W10 m ρ c, b2_2_W10 m ρ c]
  rfl

/-! ### Round 3 -/

/-- The source rows of the node table, one per edge: every source is a row of the table, so the fill row is never taken. -/
theorem take3_W12 (hsrc : SrcInRange m) (c : Dev nD) : W12 m ρ c (Proc.devRef .tc main_v34) = Cert.Gnn.gatherSrc (Cert.Gnn.x2 (A m c main_arg0) (A m c main_arg1) (A m c main_arg2) (A m c main_arg8) (A m c main_arg9) (A m c main_arg10) (A m c main_arg11) (A m c main_arg12) (A m c main_arg13) (A m c main_arg14) (A m c main_arg15)) (Cert.Gnn.srcOf (A m c main_arg1)) := by
  refine (read_hostOps6_v34 (W11 m ρ c)).trans ?_
  rw [x2_W11 m ρ hsrc c, keep_v1_W11 m ρ c, src_W1 m ρ c]
  exact takeEdge_eq _ _ (hsrc c)

/-- The messages: source row plus edge term, clamped at zero. -/
theorem msg3_W13 (hsrc : SrcInRange m) (c : Dev nD) : W13 m ρ c (Proc.devRef .tc main_v35) = Cert.Gnn.message (Cert.Gnn.x2 (A m c main_arg0) (A m c main_arg1) (A m c main_arg2) (A m c main_arg8) (A m c main_arg9) (A m c main_arg10) (A m c main_arg11) (A m c main_arg12) (A m c main_arg13) (A m c main_arg14) (A m c main_arg15)) (Cert.Gnn.edgeTerm (A m c main_arg2) (A m c main_arg10) (A m c main_arg11)) (Cert.Gnn.srcOf (A m c main_arg1)) := by
  refine (W13_arr m ρ c 2).trans ((region6_value (V12 m ρ) c).trans ?_)
  show Cert.Gnn.reluEdge (addf (W12 m ρ c (Proc.devRef .tc main_v34)) (W12 m ρ c (Proc.devRef .tc main_v5))) = _
  rw [take3_W12 m ρ hsrc c, keep_v5_W12 m ρ c, e_W3 m ρ c]
  rfl

/-- The messages summed at their targets. -/
theorem aggr3_W14 (hsrc : SrcInRange m) (c : Dev nD) : W14 m ρ c (Proc.devRef .tc main_v38) = Cert.Gnn.sumInto (Cert.Gnn.message (Cert.Gnn.x2 (A m c main_arg0) (A m c main_arg1) (A m c main_arg2) (A m c main_arg8) (A m c main_arg9) (A m c main_arg10) (A m c main_arg11) (A m c main_arg12) (A m c main_arg13) (A m c main_arg14) (A m c main_arg15)) (Cert.Gnn.edgeTerm (A m c main_arg2) (A m c main_arg10) (A m c main_arg11)) (Cert.Gnn.srcOf (A m c main_arg1))) (Cert.Gnn.dstOf (A m c main_arg1)) := by
  refine (read_hostOps7_v38 (W13 m ρ c)).trans ?_
  rw [msg3_W13 m ρ hsrc c, keep_v3_W13 m ρ c, dst_W1 m ρ c]

/-- The round's layer of the stacked weights and biases. -/
theorem w1_3_W14 (c : Dev nD) : W14 m ρ c (Proc.devRef .tc main_v40) = Cert.Gnn.w2 (A m c main_arg12) := by
  refine (read_hostOps7_v40 (W13 m ρ c)).trans ?_
  rw [keep_arg12_W13 m ρ c]
theorem b1_3_W14 (c : Dev nD) : W14 m ρ c (Proc.devRef .tc main_v42) = Cert.Gnn.b2 (A m c main_arg13) := by
  refine (read_hostOps7_v42 (W13 m ρ c)).trans ?_
  rw [keep_arg13_W13 m ρ c]
theorem w2_3_W14 (c : Dev nD) : W14 m ρ c (Proc.devRef .tc main_v44) = Cert.Gnn.w2 (A m c main_arg14) := by
  refine (read_hostOps7_v44 (W13 m ρ c)).trans ?_
  rw [keep_arg14_W13 m ρ c]
theorem b2_3_W14 (c : Dev nD) : W14 m ρ c (Proc.devRef .tc main_v46) = Cert.Gnn.b2 (A m c main_arg15) := by
  refine (read_hostOps7_v46 (W13 m ρ c)).trans ?_
  rw [keep_arg15_W13 m ρ c]

/-- The node rows after the round's perceptron. -/
theorem x3_W15 (hsrc : SrcInRange m) (c : Dev nD) : W15 m ρ c (Proc.devRef .tc main_v47) = (Cert.Gnn.x3 (A m c main_arg0) (A m c main_arg1) (A m c main_arg2) (A m c main_arg8) (A m c main_arg9) (A m c main_arg10) (A m c main_arg11) (A m c main_arg12) (A m c main_arg13) (A m c main_arg14) (A m c main_arg15)) := by
  refine (W15_arr m ρ c 6).trans ((region7_value (V14 m ρ) c).trans ?_)
  show Cert.Gnn.perceptron (W14 m ρ c (Proc.devRef .tc main_v33)) (W14 m ρ c (Proc.devRef .tc main_v38))
    (W14 m ρ c (Proc.devRef .tc main_v40)) (W14 m ρ c (Proc.devRef .tc main_v42))
    (W14 m ρ c (Proc.devRef .tc main_v44)) (W14 m ρ c (Proc.devRef .tc main_v46)) = _
  rw [keep_v33_W14 m ρ c, x2_W11 m ρ hsrc c, aggr3_W14 m ρ hsrc c, w1_3_W14 m ρ c, b1_3_W14 m ρ c, w2_3_W14 m ρ c, b2_3_W14 m ρ c]
  rfl

end Cert.KernelIdeal.Hand

end
-- ==== Proof.StretchB.lean ====
/-
  What the host stretches between the pooling regions leave in the buffers read later, each as a stage function of
  what the stretch found: the pooled rows taken from the node table, the candidates' mean and the per-graph mean, the
  per-graph rows taken back to the candidates, the two halves side by side, and the logits as a masked vector.
-/
import proofs.«408839_j49065706390002_1_alg».proof.Proof.Gen.KernelIdeal.Launch
import proofs.«408839_j49065706390002_1_alg».proof.Proof.Stages
import proofs.«408839_j49065706390002_1_alg».proof.Proof.TakeDefs
import Idealize.ShloMosaic.Lib.StableHlo.Run

set_option maxRecDepth 16384

noncomputable section

namespace Cert.KernelIdeal.Hand

open Cert.KernelIdeal Cert.KernelIdeal.Gen Idealize.ShloMosaic Idealize.ShloMosaic.StableHlo

/-! ## Transport along a buffer's type

A stretch printed inside a called function names its buffers together with the type of the value each holds, and
moves contents between that type and the buffer's own along the equality of the two.  There and back is the identity,
for every such buffer. -/

/-- Contents carried to a buffer's own type and back are what they were. -/
theorem ofBuf_toBuf {Val : EltTy → Type} {T : BufTy} (x : TRef sig T) (v : T.Contents Val) : x.ofBuf (x.toBuf v) = v := by
  obtain ⟨r, h, hd, hu⟩ := x
  subst h
  rfl

/-! ## The pooled rows taken from the node table

Start rows are the pooled node numbers with a negative number counted from the end; a row is kept where its start row
lies in the table, and is the fill row elsewhere. -/

/-- What the first take leaves: the node table's rows at the pooled node numbers. -/
theorem read_hostOps8_v48 (X : Valuation τ sig (Elt Ideal)) :
    after (hostOps8 (F := Ideal)) X (Proc.devRef .tc main_v48) =
      takePool (X (Proc.devRef .tc main_v47)) (X (Proc.devRef .tc main_arg6)) := by
  -- at the result buffer and at the two buffers read, the value's type is the buffer's own
  have hout : ∀ v : FVec Ideal S262144x128 .f32,
      (TRef.of main_v48 : TRef sig ⟨S262144x128, .f32⟩).toBuf (Val := Elt Ideal) v = v := fun _ => rfl
  have h47 : (TRef.of main_v47 : TRef sig ⟨S100000x128, .f32⟩).ofBuf (Val := Elt Ideal) (X (Proc.devRef .tc main_v47)) =
      X (Proc.devRef .tc main_v47) := rfl
  have h6 : (TRef.of main_arg6 : TRef sig ⟨S262144, .i32⟩).ofBuf (Val := Elt Ideal) (X (Proc.devRef .tc main_arg6)) =
      X (Proc.devRef .tc main_arg6) := rfl
  unfold hostOps8
  after_results_simp
  simp only [ofBuf_toBuf, hout, h47, h6]
  rfl

/-! ## The two means

The candidates' mean is the sum of the pooled rows per candidate over max(count, 1); the per-graph mean is the same
over the candidates' rows, per graph.  The second reads the first's result. -/

/-- The candidates' mean of the pooled rows. -/
theorem read_hostOps8_1_v59 (X : Valuation τ sig (Elt Ideal)) :
    after (hostOps8_1 (F := Ideal)) X (Proc.devRef .tc main_v59) =
      Cert.Gnn.candMean (X (Proc.devRef .tc main_v48)) (X (Proc.devRef .tc main_arg7)) := by
  unfold hostOps8_1
  after_results_simp
  rfl

/-- The per-graph mean of the candidates' means. -/
theorem read_hostOps8_1_v70 (X : Valuation τ sig (Elt Ideal)) :
    after (hostOps8_1 (F := Ideal)) X (Proc.devRef .tc main_v70) =
      Cert.Gnn.graphMean (Cert.Gnn.candMean (X (Proc.devRef .tc main_v48)) (X (Proc.devRef .tc main_arg7)))
        (X (Proc.devRef .tc main_arg4)) := by
  unfold hostOps8_1
  after_results_simp
  rfl

/-! ## The per-graph rows taken back to the candidates -/

/-- What the second take leaves: the per-graph table's rows at the candidates' graph numbers. -/
theorem read_hostOps8_2_v71 (X : Valuation τ sig (Elt Ideal)) :
    after (hostOps8_2 (F := Ideal)) X (Proc.devRef .tc main_v71) =
      takeGraph (X (Proc.devRef .tc main_v70)) (X (Proc.devRef .tc main_arg4)) := by
  -- at the result buffer and at the two buffers read, the value's type is the buffer's own
  have hout : ∀ v : FVec Ideal S8192x128 .f32,
      (TRef.of main_v71 : TRef sig ⟨S8192x128, .f32⟩).toBuf (Val := Elt Ideal) v = v := fun _ => rfl
  have h70 : (TRef.of main_v70 : TRef sig ⟨S16x128, .f32⟩).ofBuf (Val := Elt Ideal) (X (Proc.devRef .tc main_v70)) =
      X (Proc.devRef .tc main_v70) := rfl
  have h4 : (TRef.of main_arg4 : TRef sig ⟨S8192, .i32⟩).ofBuf (Val := Elt Ideal) (X (Proc.devRef .tc main_arg4)) =
      X (Proc.devRef .tc main_arg4) := rfl
  unfold hostOps8_2
  after_results_simp
  simp only [ofBuf_toBuf, hout, h70, h4]
  rfl

/-! ## The two halves side by side -/

/-- The one concatenation: the candidates' rows beside their graphs' rows. -/
theorem read_hostOps8_3_v72 (X : Valuation τ sig (Elt Ideal)) :
    after (hostOps8_3 (F := Ideal)) X (Proc.devRef .tc main_v72) =
      Cert.Gnn.sideBySide (X (Proc.devRef .tc main_v59)) (X (Proc.devRef .tc main_v71)) := by
  unfold hostOps8_3
  after_results
  rfl

/-! ## The logits as a masked vector

The column of logits is read as a vector (a reshape keeps the row-major order); then an entry is kept where the mask
is set and is the fill value elsewhere.  The first stretch writes the vector and the fill constant and leaves the mask
alone, so the second stretch's reads walk back to what the first found. -/

/-- The column of logits read as a vector. -/
theorem read_hostOps9_v74 (X : Valuation τ sig (Elt Ideal)) :
    after (hostOps9 (F := Ideal)) X (Proc.devRef .tc main_v74) =
      shapeCast Cert.ReferenceIdeal.S8192 (X (Proc.devRef .tc main_v73) : FVec Ideal Cert.ReferenceIdeal.S8192x1 .f32)
        Cert.ReferenceIdeal.Facts₀.shapeCasts_S8192x1_S8192 := by
  unfold hostOps9
  after_results
  rfl

/-- The masked logits, over both stretches. -/
theorem read_hostOps9_1_v75 (X : Valuation τ sig (Elt Ideal)) :
    after (hostOps9_1 (F := Ideal)) (after (hostOps9 (F := Ideal)) X) (Proc.devRef .tc main_v75) =
      Cert.Gnn.masked (X (Proc.devRef .tc main_arg5)) (X (Proc.devRef .tc main_v73)) := by
  unfold hostOps9_1 hostOps9
  after_results
  rfl

end Cert.KernelIdeal.Hand

end
-- ==== Proof.Region8.lean ====
import proofs.«408839_j49065706390002_1_alg».proof.Proof.Gen.KernelIdeal.Frame
import proofs.«408839_j49065706390002_1_alg».proof.Proof.Stages
import proofs.«408839_j49065706390002_1_alg».proof.Proof.LibPlainDot
import Idealize.ShloMosaic.Lib.Pipeline.Value
import Idealize.ShloMosaic.Lib.ValueLayout
import Idealize.ShloMosaic.Lib.KernelVsHost
import Idealize.ShloMosaic.Lib.IdealHost

/-!
  Region 8: the candidates' perceptron, 2048 rows at a point.

  The region's grid has four points; point t stages rows 2048 t … 2048 t + 2047 of the [8192, 256] array of candidate
  rows (a candidate's pooled row beside its graph's row), the three weight matrices and three biases whole, and writes
  rows 2048 t … 2048 t + 2047 of the [8192, 1] column of logits. The body is three affine layers, the first two clamped
  at zero; on the extended reals the narrowing of the operands is the identity and a product into a zero accumulator is
  the plain row-by-column sum. A layer's value at row p depends on row p of its operand only, so the body's value at
  row p of the block is the reference perceptron's value at row 2048 t + p of the whole array; the four blocks tile the
  column, so the column after the region is the reference perceptron of the arrays the region found.
-/

set_option maxRecDepth 16384

noncomputable section
namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## One affine layer at a point, in the kernel's and in the host's spelling -/

/-- The kernel's layer: both operands narrowed (the identity on the extended reals), multiplied into a zero
    accumulator, the bias cast to one row and spread down the rows. At (p, q): the sum over κ of x (p, κ) · w (κ, q),
    plus b q. -/
theorem kernel_affine_apply {M K N : Nat}
    (d : DotDims ⟨2, ![M, K]⟩ ⟨2, ![K, N]⟩ ⟨2, ![M, N]⟩) (hd : PlainDot.IsPlain d)
    (x : FVec Ideal ⟨2, ![M, K]⟩ .f32) (w : FVec Ideal ⟨2, ![K, N]⟩ .f32) (b : FVec Ideal ⟨1, ![N]⟩ .f32)
    (hlt : FTy.bits .bf16 < FTy.bits .f32)
    (h1 : (⟨1, ![N]⟩ : Shape).ShapeCasts ⟨2, ![1, N]⟩) (hb : (⟨2, ![1, N]⟩ : Shape).Broadcasts ⟨2, ![M, N]⟩)
    (p : Fin M) (q : Fin N) :
    addf (matmul d none (truncf .bf16 x hlt) (truncf .bf16 w hlt) (constant (F := Ideal) ⟨2, ![M, N]⟩ .f32 0x00000000#32))
        (broadcastTo ⟨2, ![M, N]⟩ (shapeCast ⟨2, ![1, N]⟩ b h1) hb) (ix2 p q)
      = (∑ κ : Fin K, x (ix2 p κ) * w (ix2 κ q)) + b (ix1 q) := by
  rw [addf_apply, broadcastTo_1b_ab_apply, shapeCast_a_1a_apply]
  exact congrArg (· + b (ix1 q)) (PlainDot.matmul_zero_plain d hd none (truncf .bf16 x hlt) (truncf .bf16 w hlt) p q)

/-- The host's layer: the dot product, the bias broadcast to one row and then down the rows. At (r, q): the same sum
    plus the same bias entry. -/
theorem host_affine_apply {M K N : Nat}
    (d : DotDims ⟨2, ![M, K]⟩ ⟨2, ![K, N]⟩ ⟨2, ![M, N]⟩) (hd : PlainDot.IsPlain d)
    (x : FVec Ideal ⟨2, ![M, K]⟩ .f32) (w : FVec Ideal ⟨2, ![K, N]⟩ .f32) (b : FVec Ideal ⟨1, ![N]⟩ .f32)
    (g1 : (⟨1, ![N]⟩ : Shape).BroadcastsInDim ⟨2, ![1, N]⟩ ![1])
    (g2 : (⟨2, ![1, N]⟩ : Shape).BroadcastsInDim ⟨2, ![M, N]⟩ ![0, 1])
    (r : Fin M) (q : Fin N) :
    addf (Host.dotGeneral (F := Ideal) d none x w)
        (broadcastInDim ⟨2, ![M, N]⟩ ![0, 1] g2 (broadcastInDim ⟨2, ![1, N]⟩ ![1] g1 b)) (ix2 r q)
      = (∑ κ : Fin K, x (ix2 r κ) * w (ix2 κ q)) + b (ix1 q) := by
  have e : broadcastInDim ⟨2, ![1, N]⟩ ![1] g1 b (ix2 (0 : Fin 1) q) = b (ix1 q) :=
    broadcastInDim_apply ![1] g1 b (ix2 (0 : Fin 1) q) (ix1 q) (fun a => by
      match a with
      | ⟨0, _⟩ =>
        show q.val = if N = 1 then 0 else q.val
        split
        · have := q.isLt; omega
        · rfl)
  rw [addf_apply, broadcastInDim_oneRow_apply, e]
  exact congrArg (· + b (ix1 q)) (PlainDot.dotGeneral_plain d hd none _ x w r q)

/-! ## Rows that agree give layers that agree -/

/-- If row p of `x` is row r of `X`, the kernel's affine layer of `x` at (p, q) is the host's of `X` at (r, q), for
    the same weights and bias: both are the sum over the row plus the bias entry. -/
theorem affine_agree {M R K N : Nat}
    (dk : DotDims ⟨2, ![M, K]⟩ ⟨2, ![K, N]⟩ ⟨2, ![M, N]⟩) (hdk : PlainDot.IsPlain dk)
    (dh : DotDims ⟨2, ![R, K]⟩ ⟨2, ![K, N]⟩ ⟨2, ![R, N]⟩) (hdh : PlainDot.IsPlain dh)
    (x : FVec Ideal ⟨2, ![M, K]⟩ .f32) (X : FVec Ideal ⟨2, ![R, K]⟩ .f32)
    (w : FVec Ideal ⟨2, ![K, N]⟩ .f32) (b : FVec Ideal ⟨1, ![N]⟩ .f32)
    (hlt : FTy.bits .bf16 < FTy.bits .f32)
    (h1 : (⟨1, ![N]⟩ : Shape).ShapeCasts ⟨2, ![1, N]⟩) (hb : (⟨2, ![1, N]⟩ : Shape).Broadcasts ⟨2, ![M, N]⟩)
    (g1 : (⟨1, ![N]⟩ : Shape).BroadcastsInDim ⟨2, ![1, N]⟩ ![1])
    (g2 : (⟨2, ![1, N]⟩ : Shape).BroadcastsInDim ⟨2, ![R, N]⟩ ![0, 1])
    (p : Fin M) (r : Fin R) (hx : ∀ κ : Fin K, x (ix2 p κ) = X (ix2 r κ)) (q : Fin N) :
    addf (matmul dk none (truncf .bf16 x hlt) (truncf .bf16 w hlt) (constant (F := Ideal) ⟨2, ![M, N]⟩ .f32 0x00000000#32))
        (broadcastTo ⟨2, ![M, N]⟩ (shapeCast ⟨2, ![1, N]⟩ b h1) hb) (ix2 p q)
      = addf (Host.dotGeneral (F := Ideal) dh none X w)
        (broadcastInDim ⟨2, ![R, N]⟩ ![0, 1] g2 (broadcastInDim ⟨2, ![1, N]⟩ ![1] g1 b)) (ix2 r q) :=
  (kernel_affine_apply dk hdk x w b hlt h1 hb p q).trans
    ((congrArg (· + b (ix1 q)) (Finset.sum_congr rfl fun κ _ => congrArg (· * w (ix2 κ q)) (hx κ))).trans
      (host_affine_apply dh hdh X w b g1 g2 r q).symm)

/-- The same with both sides clamped at zero: the kernel spreads the scalar zero, the host broadcasts a rank-0
    constant; each reads the zero word's value at every index. -/
theorem layer_agree {M R K N : Nat}
    (dk : DotDims ⟨2, ![M, K]⟩ ⟨2, ![K, N]⟩ ⟨2, ![M, N]⟩) (hdk : PlainDot.IsPlain dk)
    (dh : DotDims ⟨2, ![R, K]⟩ ⟨2, ![K, N]⟩ ⟨2, ![R, N]⟩) (hdh : PlainDot.IsPlain dh)
    (x : FVec Ideal ⟨2, ![M, K]⟩ .f32) (X : FVec Ideal ⟨2, ![R, K]⟩ .f32)
    (w : FVec Ideal ⟨2, ![K, N]⟩ .f32) (b : FVec Ideal ⟨1, ![N]⟩ .f32)
    (hlt : FTy.bits .bf16 < FTy.bits .f32)
    (h1 : (⟨1, ![N]⟩ : Shape).ShapeCasts ⟨2, ![1, N]⟩) (hb : (⟨2, ![1, N]⟩ : Shape).Broadcasts ⟨2, ![M, N]⟩)
    (g1 : (⟨1, ![N]⟩ : Shape).BroadcastsInDim ⟨2, ![1, N]⟩ ![1])
    (g2 : (⟨2, ![1, N]⟩ : Shape).BroadcastsInDim ⟨2, ![R, N]⟩ ![0, 1])
    (g0 : (⟨0, ![]⟩ : Shape).BroadcastsInDim ⟨2, ![R, N]⟩ ![])
    (p : Fin M) (r : Fin R) (hx : ∀ κ : Fin K, x (ix2 p κ) = X (ix2 r κ)) (q : Fin N) :
    maximumf (addf (matmul dk none (truncf .bf16 x hlt) (truncf .bf16 w hlt) (constant (F := Ideal) ⟨2, ![M, N]⟩ .f32 0x00000000#32))
        (broadcastTo ⟨2, ![M, N]⟩ (shapeCast ⟨2, ![1, N]⟩ b h1) hb))
        (broadcast ⟨2, ![M, N]⟩ (Scalar.ofBits (F := Ideal) .f32 0x00000000#32)) (ix2 p q)
      = maximumf (addf (Host.dotGeneral (F := Ideal) dh none X w)
        (broadcastInDim ⟨2, ![R, N]⟩ ![0, 1] g2 (broadcastInDim ⟨2, ![1, N]⟩ ![1] g1 b)))
        (broadcastInDim ⟨2, ![R, N]⟩ ![] g0 (constant (F := Ideal) ⟨0, ![]⟩ .f32 0x00000000#32)) (ix2 r q) := by
  rw [maximumf_apply, maximumf_apply, broadcastInDim_scalar_apply, broadcast_apply]
  exact congrArg (max · (Ideal.ofBits .f32 0x00000000#32))
    (affine_agree dk hdk dh hdh x X w b hlt h1 hb g1 g2 p r hx q)

/-! ## The body's value at a row is the reference perceptron's at the matching row -/

/-- The body of the region at row p of its block against the reference perceptron at row r of the whole array, when
    row p of the block is row r of the array and the six weight and bias operands are the same arrays: three layers,
    each row-local, so the agreement of the rows passes from layer to layer. -/
theorem payload_eq_head
    (x0 : Vec Ideal S2048x256 .f32) (x1 : Vec Ideal S256x128 .f32) (x2 : Vec Ideal S128 .f32)
    (x3 : Vec Ideal S128x128 .f32) (x4 : Vec Ideal S128 .f32) (x5 : Vec Ideal S128x1 .f32) (x6 : Vec Ideal S1 .f32)
    (H : FVec Ideal Cert.ReferenceIdeal.S8192x256 .f32) (wp1 : FVec Ideal Cert.ReferenceIdeal.S256x128 .f32)
    (bp1 : FVec Ideal Cert.ReferenceIdeal.S128 .f32) (wp2 : FVec Ideal Cert.ReferenceIdeal.S128x128 .f32)
    (bp2 : FVec Ideal Cert.ReferenceIdeal.S128 .f32) (wp3 : FVec Ideal Cert.ReferenceIdeal.S128x1 .f32)
    (bp3 : FVec Ideal Cert.ReferenceIdeal.S1 .f32)
    (e1 : x1 = wp1) (e2 : x2 = bp1) (e3 : x3 = wp2) (e4 : x4 = bp2) (e5 : x5 = wp3) (e6 : x6 = bp3)
    (p : Fin 2048) (r : Fin 8192) (hh : ∀ κ : Fin 256, x0 (ix2 p κ) = H (ix2 r κ)) (q : Fin 1) :
    k8_pay1 (F := Ideal) x0 x1 x2 x3 x4 x5 x6 (ix2 p q) = Cert.Gnn.head H wp1 bp1 wp2 bp2 wp3 bp3 (ix2 r q) := by
  subst e1 e2 e3 e4 e5 e6
  unfold k8_pay1 Cert.Gnn.head Cert.Gnn.affCand3 Cert.Gnn.reluCand Cert.Gnn.affCand2 Cert.Gnn.affCand1
  refine affine_agree dot_S2048x128_S128x1_S2048x1_1_0_0_1_n_n ⟨rfl, rfl, rfl, rfl, rfl, rfl⟩
    Cert.ReferenceIdeal.dot_S8192x128_S128x1_S8192x1_1_0_0_1_n_n ⟨rfl, rfl, rfl, rfl, rfl, rfl⟩
    _ _ _ _ _ _ _ _ _ p r (fun κ₂ => ?_) q
  refine layer_agree dot_S2048x128_S128x128_S2048x128_1_0_0_1_n_n ⟨rfl, rfl, rfl, rfl, rfl, rfl⟩
    Cert.ReferenceIdeal.dot_S8192x128_S128x128_S8192x128_1_0_0_1_n_n ⟨rfl, rfl, rfl, rfl, rfl, rfl⟩
    _ _ _ _ _ _ _ _ _ _ p r (fun κ₁ => ?_) κ₂
  refine layer_agree dot_S2048x256_S256x128_S2048x128_1_0_0_1_n_n ⟨rfl, rfl, rfl, rfl, rfl, rfl⟩
    Cert.ReferenceIdeal.dot_S8192x256_S256x128_S8192x128_1_0_0_1_n_n ⟨rfl, rfl, rfl, rfl, rfl, rfl⟩
    _ H _ _ _ _ _ _ _ _ p r (fun κ => ?_) κ₁
  rw [shapeCast_self]
  exact hh κ

/-! ## From the four blocks to the column -/

section Column

variable (V : (c : Dev nD) → (b : Ref sig .tc) → Buf (Elt Ideal) ((c : Thread nD τ).loc b))

theorem zero_offsets₂ : (![0, 0] : Fin 2 → Nat) = fun _ => 0 := funext fun a => by fin_cases a <;> rfl
theorem zero_offsets₁ : (![0] : Fin 1 → Nat) = fun _ => 0 := funext fun a => by fin_cases a <;> rfl

/-- The printed index maps over the grid: the candidates' rows and the logits' rows move with the point, block t at
    point t; every weight and bias window stays at block 0. -/
theorem index_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = 0 ∧ win8_3.index t (1 : Fin 2) = 0
    ∧ win8_4.index t (0 : Fin 1) = 0
    ∧ win8_5.index t (0 : Fin 2) = 0 ∧ win8_5.index t (1 : Fin 2) = 0
    ∧ win8_6.index t (0 : Fin 1) = 0
    ∧ win8_7.index t (0 : Fin 2) = t.val ∧ win8_7.index t (1 : Fin 2) = 0 :=
  (by decide +kernel : ∀ t : Fin grid8.N, _)

/-- Window 0's block at point t is rows 2048 t … 2048 t + 2047 of the candidates' array. -/
theorem rows_block (c : Dev nD) (t : Fin cfg8.N) (p : Fin 2048) (κ : Fin 256) (r : Fin 8192)
    (hr : r.val = 2048 * t.val + p.val) :
    (iblk8 V c 0 t : Vec Ideal S2048x256 .f32) (ix2 p κ) = (V c main_v72 : Vec Ideal S8192x256 .f32) (ix2 r κ) := by
  obtain ⟨e0, e1, -⟩ := index_facts t
  unfold iblk8
  rw [View.read_apply]
  show V c main_v72 _ = V c main_v72 _
  congr 1
  funext a
  apply Fin.ext
  match a with
  | ⟨0, _⟩ => show win8_0.index t (0 : Fin 2) * 2048 + 1 * p.val = r.val; rw [e0, hr]; omega
  | ⟨1, _⟩ => show win8_0.index t (1 : Fin 2) * 256 + 1 * κ.val = κ.val; rw [e1]; omega

/-- Each weight or bias window's block, at any point, is its whole array. -/
theorem whole_block_1 (c : Dev nD) (t : Fin cfg8.N) : (iblk8 V c 1 t : Vec Ideal S256x128 .f32) = V c main_arg16 := by
  obtain ⟨-, -, e0, e1, -⟩ := index_facts t
  funext y
  unfold iblk8
  rw [View.read_apply]
  show V c main_arg16 _ = V c main_arg16 y
  congr 1
  funext a
  apply Fin.ext
  match a with
  | ⟨0, _⟩ => show win8_1.index t (0 : Fin 2) * 256 + 1 * (y 0).val = (y 0).val; rw [e0]; omega
  | ⟨1, _⟩ => show win8_1.index t (1 : Fin 2) * 128 + 1 * (y 1).val = (y 1).val; rw [e1]; omega

theorem whole_block_2 (c : Dev nD) (t : Fin cfg8.N) : (iblk8 V c 2 t : Vec Ideal S128 .f32) = V c main_arg17 := by
  obtain ⟨-, -, -, -, e0, -⟩ := index_facts t
  funext y
  unfold iblk8
  rw [View.read_apply]
  show V c main_arg17 _ = V c main_arg17 y
  congr 1
  funext a
  apply Fin.ext
  match a with
  | ⟨0, _⟩ => show win8_2.index t (0 : Fin 1) * 128 + 1 * (y 0).val = (y 0).val; rw [e0]; omega

theorem whole_block_3 (c : Dev nD) (t : Fin cfg8.N) : (iblk8 V c 3 t : Vec Ideal S128x128 .f32) = V c main_arg18 := by
  obtain ⟨-, -, -, -, -, e0, e1, -⟩ := index_facts t
  funext y
  unfold iblk8
  rw [View.read_apply]
  show V c main_arg18 _ = V c main_arg18 y
  congr 1
  funext a
  apply Fin.ext
  match a with
  | ⟨0, _⟩ => show win8_3.index t (0 : Fin 2) * 128 + 1 * (y 0).val = (y 0).val; rw [e0]; omega
  | ⟨1, _⟩ => show win8_3.index t (1 : Fin 2) * 128 + 1 * (y 1).val = (y 1).val; rw [e1]; omega

theorem whole_block_4 (c : Dev nD) (t : Fin cfg8.N) : (iblk8 V c 4 t : Vec Ideal S128 .f32) = V c main_arg19 := by
  obtain ⟨-, -, -, -, -, -, -, e0, -⟩ := index_facts t
  funext y
  unfold iblk8
  rw [View.read_apply]
  show V c main_arg19 _ = V c main_arg19 y
  congr 1
  funext a
  apply Fin.ext
  match a with
  | ⟨0, _⟩ => show win8_4.index t (0 : Fin 1) * 128 + 1 * (y 0).val = (y 0).val; rw [e0]; omega

theorem whole_block_5 (c : Dev nD) (t : Fin cfg8.N) : (iblk8 V c 5 t : Vec Ideal S128x1 .f32) = V c main_arg20 := by
  obtain ⟨-, -, -, -, -, -, -, -, e0, e1, -⟩ := index_facts t
  funext y
  unfold iblk8
  rw [View.read_apply]
  show V c main_arg20 _ = V c main_arg20 y
  congr 1
  funext a
  apply Fin.ext
  match a with
  | ⟨0, _⟩ => show win8_5.index t (0 : Fin 2) * 128 + 1 * (y 0).val = (y 0).val; rw [e0]; omega
  | ⟨1, _⟩ => show win8_5.index t (1 : Fin 2) * 1 + 1 * (y 1).val = (y 1).val; rw [e1]; omega

theorem whole_block_6 (c : Dev nD) (t : Fin cfg8.N) : (iblk8 V c 6 t : Vec Ideal S1 .f32) = V c main_arg21 := by
  obtain ⟨-, -, -, -, -, -, -, -, -, -, e0, -⟩ := index_facts t
  funext y
  unfold iblk8
  rw [View.read_apply]
  show V c main_arg21 _ = V c main_arg21 y
  congr 1
  funext a
  apply Fin.ext
  match a with
  | ⟨0, _⟩ => show win8_6.index t (0 : Fin 1) * 1 + 1 * (y 0).val = (y 0).val; rw [e0]; omega

/-- The body's value on the blocks of point t, at an index j of the block, is the reference perceptron of the arrays
    the region found, at the index i whose row is 2048 t + j's row. -/
theorem block_point (c : Dev nD) (t : Fin cfg8.N) (j : S2048x1.Idx) (i : S8192x1.Idx)
    (h0 : (i 0).val = 2048 * t.val + (j 0).val) (h1 : (i 1).val = (j 1).val) :
    k8_pay1 (F := Ideal) (iblk8 V c 0 t) (iblk8 V c 1 t) (iblk8 V c 2 t) (iblk8 V c 3 t) (iblk8 V c 4 t) (iblk8 V c 5 t)
        (iblk8 V c 6 t) j
      = Cert.Gnn.head (V c main_v72) (V c main_arg16) (V c main_arg17) (V c main_arg18) (V c main_arg19) (V c main_arg20)
        (V c main_arg21) i := by
  obtain ⟨p, q, rfl⟩ : ∃ (p : Fin 2048) (q : Fin 1), j = ix2 p q := ⟨j 0, j 1, eq_ix2 j⟩
  obtain ⟨r, q', rfl⟩ : ∃ (r : Fin 8192) (q' : Fin 1), i = ix2 r q' := ⟨i 0, i 1, eq_ix2 i⟩
  obtain rfl : q' = q := Fin.ext h1
  exact payload_eq_head (iblk8 V c 0 t) (iblk8 V c 1 t) (iblk8 V c 2 t) (iblk8 V c 3 t) (iblk8 V c 4 t) (iblk8 V c 5 t)
    (iblk8 V c 6 t) (V c main_v72) (V c main_arg16) (V c main_arg17) (V c main_arg18) (V c main_arg19) (V c main_arg20)
    (V c main_arg21) (whole_block_1 V c t) (whole_block_2 V c t) (whole_block_3 V c t) (whole_block_4 V c t)
    (whole_block_5 V c t) (whole_block_6 V c t) p r (fun κ => rows_block V c t p κ r h0) _

/-- What point t writes back is block t of the reference perceptron of the arrays the region found. -/
theorem flushed_eq (c : Dev nD) (t : Fin cfg8.N) :
    (dat8 V c).flushed 7 t = ((cfg8.win 7).blk t).view.read (Elt Ideal)
      (Cert.Gnn.head (V c main_v72) (V c main_arg16) (V c main_arg17) (V c main_arg18) (V c main_arg19) (V c main_arg20)
        (V c main_arg21)) := by
  show (cfg8.win 7).cut (grid8.coords t) ((dat8 V c).after 7 t) = _
  rw [after8_7]
  unfold out8_7
  rw [View.canon_unit_zero zero_offsets₂]
  simp only [View.ld_unit_zero (S := S2048x256) zero_offsets₂, View.ld_unit_zero (S := S256x128) zero_offsets₂,
    View.ld_unit_zero (S := S128) zero_offsets₁, View.ld_unit_zero (S := S128x128) zero_offsets₂,
    View.ld_unit_zero (S := S128x1) zero_offsets₂, View.ld_unit_zero (S := S1) zero_offsets₁]
  obtain ⟨-, -, -, -, -, -, -, -, -, -, -, e0, e1⟩ := index_facts t
  funext y
  refine block_point V c t ((cfg8.win 7).xinj (grid8.coords t) y) (((cfg8.win 7).blk t).view.emb y) ?_ ?_
  · show win8_7.index t (0 : Fin 2) * 2048 + 1 * (y 0).val = 2048 * t.val + (y 0).val
    rw [e0]; omega
  · show win8_7.index t (1 : Fin 2) * 1 + 1 * (y 1).val = (y 1).val
    rw [e1]; omega

/-- An index of the column is in point t's block iff each coordinate is in the block's range on its axis. -/
theorem mem_block (t : Fin cfg8.N) (i : S8192x1.Idx) :
    i ∈ ((cfg8.win 7).blk t).view.set ↔ ∀ a : Fin 2, win8_7.index t a * S2048x1.size a ≤ (i a).val
      ∧ (i a).val < win8_7.index t a * S2048x1.size a + S2048x1.size a := by
  show i ∈ ((View.whole main_v73).slice (win8_7.rect t)).set ↔ _
  rw [View.set_slice_whole, Rect.mem_set_unit]
  exact Iff.rfl

/-- Every row of the column is in some point's block: row r in the block of point r / 2048, and every point writes
    its block back. -/
theorem covered (i : S8192x1.Idx) :
    ∃ t : Fin cfg8.N, (cfg8.win 7).flush t = true ∧ i ∈ ((cfg8.win 7).blk t).view.set := by
  have hi0 : (i 0).val < 8192 := (i 0).isLt
  have hi1 : (i 1).val < 1 := (i 1).isLt
  obtain ⟨t, ht⟩ : ∃ t : Fin grid8.N, t.val = (i 0).val / 2048 := ⟨⟨(i 0).val / 2048, by rw [N_8]; omega⟩, rfl⟩
  obtain ⟨-, -, -, -, -, -, -, -, -, -, -, e0, e1⟩ := index_facts t
  refine ⟨t, flush8_7 t, ?_⟩
  rw [mem_block]
  intro a
  match a with
  | ⟨0, _⟩ =>
    show win8_7.index t (0 : Fin 2) * 2048 ≤ (i 0).val ∧ (i 0).val < win8_7.index t (0 : Fin 2) * 2048 + 2048
    rw [e0, ht]; omega
  | ⟨1, _⟩ =>
    show win8_7.index t (1 : Fin 2) * 1 ≤ (i 1).val ∧ (i 1).val < win8_7.index t (1 : Fin 2) * 1 + 1
    rw [e1]; omega

/-- THE COLUMN OF LOGITS after the region: the reference perceptron of the arrays the region found. -/
theorem region8_value (c : Dev nD) :
    (dat8 V c).arrAt 7 cfg8.N = Cert.Gnn.head (V c main_v72) (V c main_arg16) (V c main_arg17) (V c main_arg18)
      (V c main_arg19) (V c main_arg20) (V c main_arg21) :=
  (dat8 V c).arrAt_eq_of_cover 7 _ (fun t _ => flushed_eq V c t) fun i => covered i

end Column

end Cert.KernelIdeal.Hand

end
-- ==== Proof.ChainTail.lean ====
import proofs.«408839_j49065706390002_1_alg».proof.Proof.ChainRounds
import proofs.«408839_j49065706390002_1_alg».proof.Proof.StretchB
import proofs.«408839_j49065706390002_1_alg».proof.Proof.Region8

/-! The kernel program's last segments, read as the network's last stages: the pooled node rows, the candidates'
    mean rows, the per-graph means gathered back, the two halves side by side, the candidates' perceptron and the
    masked result. -/

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The pooled node rows: every pooled node number is a row of the table, so the fill row is never taken. -/
theorem pool_W16 (hsrc : SrcInRange m) (hpool : PoolInRange m) (c : Dev nD) : W16 m ρ c (Proc.devRef .tc main_v48) = Cert.Gnn.gatherPool (Cert.Gnn.x3 (A m c main_arg0) (A m c main_arg1) (A m c main_arg2) (A m c main_arg8) (A m c main_arg9) (A m c main_arg10) (A m c main_arg11) (A m c main_arg12) (A m c main_arg13) (A m c main_arg14) (A m c main_arg15)) (A m c main_arg6) := by
  refine (read_hostOps8_v48 (W15 m ρ c)).trans ?_
  rw [x3_W15 m ρ hsrc c, keep_arg6_W15 m ρ c]
  exact takePool_eq _ _ (hpool c)

/-- The candidates' mean rows. -/
theorem z_W17 (hsrc : SrcInRange m) (hpool : PoolInRange m) (c : Dev nD) : W17 m ρ c (Proc.devRef .tc main_v59) = (Cert.Gnn.zRows (A m c main_arg0) (A m c main_arg1) (A m c main_arg2) (A m c main_arg6) (A m c main_arg7) (A m c main_arg8) (A m c main_arg9) (A m c main_arg10) (A m c main_arg11) (A m c main_arg12) (A m c main_arg13) (A m c main_arg14) (A m c main_arg15)) := by
  refine (read_hostOps8_1_v59 (W16 m ρ c)).trans ?_
  rw [pool_W16 m ρ hsrc hpool c, keep_arg7_W16 m ρ c]
  rfl

/-- The per-graph mean rows. -/
theorem graph_W17 (hsrc : SrcInRange m) (hpool : PoolInRange m) (c : Dev nD) : W17 m ρ c (Proc.devRef .tc main_v70) = Cert.Gnn.graphMean (Cert.Gnn.zRows (A m c main_arg0) (A m c main_arg1) (A m c main_arg2) (A m c main_arg6) (A m c main_arg7) (A m c main_arg8) (A m c main_arg9) (A m c main_arg10) (A m c main_arg11) (A m c main_arg12) (A m c main_arg13) (A m c main_arg14) (A m c main_arg15)) (A m c main_arg4) := by
  refine (read_hostOps8_1_v70 (W16 m ρ c)).trans ?_
  rw [pool_W16 m ρ hsrc hpool c, keep_arg7_W16 m ρ c, keep_arg4_W16 m ρ c]
  rfl

/-- Each candidate's graph row: every graph number is a row of the per-graph table. -/
theorem ctx_W18 (hsrc : SrcInRange m) (hpool : PoolInRange m) (hgraph : GraphInRange m) (c : Dev nD) : W18 m ρ c (Proc.devRef .tc main_v71) = (Cert.Gnn.ctxRows (A m c main_arg0) (A m c main_arg1) (A m c main_arg2) (A m c main_arg4) (A m c main_arg6) (A m c main_arg7) (A m c main_arg8) (A m c main_arg9) (A m c main_arg10) (A m c main_arg11) (A m c main_arg12) (A m c main_arg13) (A m c main_arg14) (A m c main_arg15)) := by
  refine (read_hostOps8_2_v71 (W17 m ρ c)).trans ?_
  rw [graph_W17 m ρ hsrc hpool c, keep_arg4_W17 m ρ c]
  exact takeGraph_eq _ _ (hgraph c)

/-- A candidate's row beside its graph's row. -/
theorem side_W19 (hsrc : SrcInRange m) (hpool : PoolInRange m) (hgraph : GraphInRange m) (c : Dev nD) : W19 m ρ c (Proc.devRef .tc main_v72) = Cert.Gnn.sideBySide (Cert.Gnn.zRows (A m c main_arg0) (A m c main_arg1) (A m c main_arg2) (A m c main_arg6) (A m c main_arg7) (A m c main_arg8) (A m c main_arg9) (A m c main_arg10) (A m c main_arg11) (A m c main_arg12) (A m c main_arg13) (A m c main_arg14) (A m c main_arg15)) (Cert.Gnn.ctxRows (A m c main_arg0) (A m c main_arg1) (A m c main_arg2) (A m c main_arg4) (A m c main_arg6) (A m c main_arg7) (A m c main_arg8) (A m c main_arg9) (A m c main_arg10) (A m c main_arg11) (A m c main_arg12) (A m c main_arg13) (A m c main_arg14) (A m c main_arg15)) := by
  refine (read_hostOps8_3_v72 (W18 m ρ c)).trans ?_
  rw [keep_v59_W18 m ρ c, z_W17 m ρ hsrc hpool c, ctx_W18 m ρ hsrc hpool hgraph c]

/-- The column of logits after the last kernel region. -/
theorem logits_W20 (hsrc : SrcInRange m) (hpool : PoolInRange m) (hgraph : GraphInRange m) (c : Dev nD) : W20 m ρ c (Proc.devRef .tc main_v73)
    = Cert.Gnn.head (Cert.Gnn.sideBySide (Cert.Gnn.zRows (A m c main_arg0) (A m c main_arg1) (A m c main_arg2) (A m c main_arg6) (A m c main_arg7) (A m c main_arg8) (A m c main_arg9) (A m c main_arg10) (A m c main_arg11) (A m c main_arg12) (A m c main_arg13) (A m c main_arg14) (A m c main_arg15)) (Cert.Gnn.ctxRows (A m c main_arg0) (A m c main_arg1) (A m c main_arg2) (A m c main_arg4) (A m c main_arg6) (A m c main_arg7) (A m c main_arg8) (A m c main_arg9) (A m c main_arg10) (A m c main_arg11) (A m c main_arg12) (A m c main_arg13) (A m c main_arg14) (A m c main_arg15))) (A m c main_arg16) (A m c main_arg17) (A m c main_arg18) (A m c main_arg19) (A m c main_arg20) (A m c main_arg21) := by
  refine (W20_arr m ρ c 7).trans ((region8_value (V19 m ρ) c).trans ?_)
  show Cert.Gnn.head (W19 m ρ c (Proc.devRef .tc main_v72)) (W19 m ρ c (Proc.devRef .tc main_arg16)) (W19 m ρ c (Proc.devRef .tc main_arg17))
    (W19 m ρ c (Proc.devRef .tc main_arg18)) (W19 m ρ c (Proc.devRef .tc main_arg19)) (W19 m ρ c (Proc.devRef .tc main_arg20))
    (W19 m ρ c (Proc.devRef .tc main_arg21)) = _
  rw [side_W19 m ρ hsrc hpool hgraph c, keep_arg16_W19 m ρ c, keep_arg17_W19 m ρ c, keep_arg18_W19 m ρ c, keep_arg19_W19 m ρ c,
    keep_arg20_W19 m ρ c, keep_arg21_W19 m ρ c]

/-- The mask as launched, at the last region's exit (the stretch between writes no argument). -/
theorem mask_W20 (c : Dev nD) : W20 m ρ c (Proc.devRef .tc main_arg5) = A m c main_arg5 :=
  ((keep_arg5_hostOps9 (W20 m ρ c)).symm).trans (keep_arg5_W21 m ρ c)

/-- THE KERNEL PROGRAM'S RESULT: what the last boundary's contents give the result buffer is the network's `result`
    of the argument arrays as launched. -/
theorem kernel_result (hsrc : SrcInRange m) (hpool : PoolInRange m) (hgraph : GraphInRange m) (c : Dev nD) : W22 m ρ c (Proc.devRef .tc main_v75) = Cert.Gnn.result (A m c main_arg0) (A m c main_arg1) (A m c main_arg2) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) := by
  refine (read_hostOps9_1_v75 (W20 m ρ c)).trans ?_
  rw [mask_W20 m ρ c, logits_W20 m ρ hsrc hpool hgraph c]
  rfl

end Cert.KernelIdeal.Hand

end
-- ==== Proof.Domain.lean ====
/-
  The index ranges out of the certificate's precondition.  The precondition is one conjunction of "every entry of …
  satisfies …" facts; its last three conjuncts say that row 0 of the edge list and the pooled node numbers lie in
  [0, 100000) and the candidates' graph numbers in [0, 16), each as "0 ≤ v" and "v < bound" (signed compares of 32-bit
  words), and-ed entry by entry and reduced with "and" over all entries.  A conjunction that is one has both
  conjuncts one; a reduction with "and" that is one had a one at every entry; an entry's two compares that are one are
  the two inequalities between the words read signed.
-/
import proofs.«408839_j49065706390002_1_alg».proof.Pre_finite_inputs
import proofs.«408839_j49065706390002_1_alg».proof.Proof.Gen.Pre_finite_inputs
import proofs.«408839_j49065706390002_1_alg».proof.Proof.Stages
import Idealize.ShloMosaic.Lib.ReduceAll
import Idealize.ShloMosaic.Lib.StableHlo.Predicate
import Idealize.ShloMosaic.Lib.ValueIdx

set_option maxRecDepth 16384

noncomputable section

namespace Cert.Gnn.Domain

open Idealize.ShloMosaic

/-- ONE RANGE CONJUNCT. If "0 ≤ v and v' < B, entry by entry, for every entry" came out one, then every entry of v is
    no less than 0 and every entry of v' is below B, the words read signed. -/
theorem range_of_all {s t u s0 : Shape} {axes : List (Fin s.rank)} [Subsingleton t.Idx]
    (d0 : Fin s0.rank → Fin s.rank) (hb0 : s0.BroadcastsInDim s d0)
    (v v' : IVec s 32) (B : BitVec 32) (init : IVec u 1) (hR : s.ReducesTo axes t) (hu : 0 < u.numel) (j : t.Idx)
    (e : Host.reduce IntOp.andi
        (andi (cmpi .sge v (broadcastInDim s d0 hb0 (constantI s0 32 0#32)))
          (cmpi .slt v' (broadcastInDim s d0 hb0 (constantI s0 32 B)))) init hR hu j = 1#1) (i : s.Idx) :
    0 ≤ (v i).toInt ∧ (v' i).toInt < B.toInt := by
  have h := Host.reduce_andi_all _ init hR hu j e i
  have h' : IntOp.andi (IntOp.cmpi .sge (v i) 0#32) (IntOp.cmpi .slt (v' i) B) = 1#1 := h
  rw [IntOp.andi_eq_one, IntOp.cmpi_sge, IntOp.cmpi_slt, show (0#32 : BitVec 32).toInt = 0 from by decide] at h'
  exact h'

end Cert.Gnn.Domain

namespace Cert.Gnn

open Idealize.ShloMosaic

/-- Under the precondition every edge source and every pooled node number names a row of the node table, and every
    candidate's graph number a row of the per-graph table. -/
theorem ranges_of_pre
    (a0 : FVec Ideal Cert.Pre_finite_inputs.S100000x64 .f32) (a1 : IVec Cert.Pre_finite_inputs.S2x600000 32) (a2 : FVec Ideal Cert.Pre_finite_inputs.S600000x1 .f32)
    (a3 : IVec Cert.Pre_finite_inputs.S100000 32) (a4 : IVec Cert.Pre_finite_inputs.S8192 32) (a5 : IVec Cert.Pre_finite_inputs.S8192 1)
    (a6 : IVec Cert.Pre_finite_inputs.S262144 32) (a7 : IVec Cert.Pre_finite_inputs.S262144 32) (a8 : FVec Ideal Cert.Pre_finite_inputs.S64x128 .f32)
    (a9 : FVec Ideal Cert.Pre_finite_inputs.S128 .f32) (a10 : FVec Ideal Cert.Pre_finite_inputs.S1x128 .f32) (a11 : FVec Ideal Cert.Pre_finite_inputs.S128 .f32)
    (a12 : FVec Ideal Cert.Pre_finite_inputs.S3x128x128 .f32) (a13 : FVec Ideal Cert.Pre_finite_inputs.S3x128 .f32) (a14 : FVec Ideal Cert.Pre_finite_inputs.S3x128x128 .f32)
    (a15 : FVec Ideal Cert.Pre_finite_inputs.S3x128 .f32) (a16 : FVec Ideal Cert.Pre_finite_inputs.S256x128 .f32) (a17 : FVec Ideal Cert.Pre_finite_inputs.S128 .f32)
    (a18 : FVec Ideal Cert.Pre_finite_inputs.S128x128 .f32) (a19 : FVec Ideal Cert.Pre_finite_inputs.S128 .f32) (a20 : FVec Ideal Cert.Pre_finite_inputs.S128x1 .f32)
    (a21 : FVec Ideal Cert.Pre_finite_inputs.S1 .f32)
    (h : Cert.Pre_finite_inputs.fn (F := Ideal) a0 a1 a2 a3 a4 a5 a6 a7 a8 a9 a10 a11 a12 a13 a14 a15 a16 a17 a18 a19 a20 a21 = fun _ => 1#1) :
    (∀ i, 0 ≤ (Cert.Gnn.srcOf a1 i).toInt ∧ (Cert.Gnn.srcOf a1 i).toInt < 100000)
    ∧ (∀ i, 0 ≤ (a6 i).toInt ∧ (a6 i).toInt < 100000) ∧ (∀ i, 0 ≤ (a4 i).toInt ∧ (a4 i).toInt < 16) := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  -- the conjunction's last three conjuncts: the edge sources, the pooled node numbers, the graph numbers
  obtain ⟨e96, e102⟩ := IntOp.andi_eq_one.1 e
  obtain ⟨e89, e95⟩ := IntOp.andi_eq_one.1 e96
  obtain ⟨-, e88⟩ := IntOp.andi_eq_one.1 e89
  haveI : Subsingleton Cert.Pre_finite_inputs.S_.Idx := ⟨fun a b => funext fun d => d.elim0⟩
  have c100000 : (100000#32 : BitVec 32).toInt = 100000 := by decide
  have c16 : (16#32 : BitVec 32).toInt = 16 := by decide
  refine ⟨fun i => ?_, fun i => ?_, fun i => ?_⟩
  · have r := Domain.range_of_all _ _ _ _ 100000#32 _ _ _ _ e88 i
    rw [c100000] at r
    exact r
  · have r := Domain.range_of_all _ _ _ _ 100000#32 _ _ _ _ e95 i
    rw [c100000] at r
    exact r
  · have r := Domain.range_of_all _ _ _ _ 16#32 _ _ _ _ e102 i
    rw [c16] at r
    exact r

end Cert.Gnn

end
-- ==== Proof.RefResult.lean ====
/-
  The reference's run, re-posted: its result buffer ends at the network's `result` of its argument arrays as
  launched.  The reference program IS the stages' operations in order, so its run's term and `result` are one term.
-/
import proofs.«408839_j49065706390002_1_alg».proof.Proof.Stages
import proofs.«408839_j49065706390002_1_alg».proof.Proof.Gen.ReferenceIdeal.Run

set_option maxRecDepth 16384

noncomputable section

namespace Cert.Gnn.Ref

open Cert.ReferenceIdeal
open Idealize.ShloMosaic Idealize.ShloMosaic.TcCoe Idealize.SL.Sem

variable (m : (ℓ : Loc nD τ sig) → Buf (Elt Ideal) ℓ) (ρ : Dev nD → PrngReg)

/-- The run's composed term of the arguments is `result`: both are the reference's operations applied in order. -/
theorem res_eq (c : Dev nD) : Cert.ReferenceIdeal.Value.res_main_v157 (F := Ideal) m c
    = Cert.Gnn.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) := by
  unfold Cert.ReferenceIdeal.Value.res_main_v157
  rfl

end Cert.Gnn.Ref

end
-- ==== Proof.lean ====
/-
  The certificate: the kernel program and the reference compute the same masked logits over the extended reals.

  Both programs are the same network.  The reference is a straight line of host operations; the kernel program runs
  the dense stages as nine kernel regions (the input map, the edge term, and per round an add-and-clamp over the edges
  and a two-layer perceptron over the nodes, then the candidates' three-layer perceptron), each over row blocks, with
  the irregular stages (row gathers, sums into target rows) as host operations in between.  Over the extended reals
  a change of float format is the identity and a matrix product into a zero accumulator is the host's contraction, so
  each region's output array is the reference's operations applied to the region's input arrays.  The one place the
  two programs differ is the row gather: the reference's clamps an index outside the table to its last row, the
  kernel program's returns a fill row there; under the precondition (every gathered index is a row of its table) the
  fill row is never taken and the two gathers are one.  Both runs therefore end at `Cert.Gnn.result` of the argument
  arrays.  The three frames are the generated frames (the reference's: its generated run with the result dropped);
  the idealization's ledger is empty.
-/
import proofs.«408839_j49065706390002_1_alg».proof.Defs
import proofs.«408839_j49065706390002_1_alg».proof.Proof.Gen.Kernel
import proofs.«408839_j49065706390002_1_alg».proof.Proof.Gen.Kernel.Frame
import proofs.«408839_j49065706390002_1_alg».proof.Proof.Gen.KernelIdeal
import proofs.«408839_j49065706390002_1_alg».proof.Proof.Gen.KernelIdeal.Frame
import proofs.«408839_j49065706390002_1_alg».proof.Proof.Gen.ReferenceIdeal
import proofs.«408839_j49065706390002_1_alg».proof.Proof.Gen.Pre_finite_inputs
import proofs.«408839_j49065706390002_1_alg».proof.Proof.ResultRun
import proofs.«408839_j49065706390002_1_alg».proof.Proof.ChainTail
import proofs.«408839_j49065706390002_1_alg».proof.Proof.Domain
import proofs.«408839_j49065706390002_1_alg».proof.Proof.RefResult
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, both end at the network's `result`
    of those arguments. -/
theorem algebraic : Cert.algebraic_KernelIdeal_ReferenceIdeal := by
  intro m ρ m' ρ' hpre hagree
  -- the index ranges the precondition states, on every device
  have hr := fun c : Dev Cert.KernelIdeal.nD => Cert.Gnn.ranges_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (hpre c)
  refine ⟨fun c => Cert.Gnn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · refine (θ_run Cert.KernelIdeal.defs _ _).mono (fun r h c => ⟨(h c).1.trans ?_, (h c).2⟩)
      (Cert.KernelIdeal.ResultRun.run_result (F := Ideal) m ρ)
    exact Cert.KernelIdeal.Hand.kernel_result m ρ (fun c => (hr c).1) (fun c => (hr c).2.1) (fun c => (hr c).2.2) c
  · refine (θ_run Cert.ReferenceIdeal.defs _ _).mono (fun r h c => ⟨(h c).1.trans ?_, (h c).2⟩)
      (Cert.ReferenceIdeal.Value.run (F := Ideal) m' ρ')
    rw [Cert.Gnn.Ref.res_eq m' c]
    obtain ⟨e0, e1, e2, e3, e4, e5, e6, e7, e8, e9, e10, e11, e12, e13, e14, e15, e16, e17, e18, e19, e20, e21⟩ := hagree c
    rw [e0, e1, e2, e4, e5, e6, e7, e8, e9, e10, e11, e12, e13, e14, e15, e16, e17, e18, e19, e20, e21]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
